-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S14x65536 .f32 .bf16
  ∧ IdealRules.truncf_extf.Statement Cert.KernelIdeal.S14x65536 .f32 .bf16
  ∧ IdealRules.truncf_extf.Statement Cert.KernelIdeal.S14x65536 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x14x64x128x128 : Shape := ⟨5, ![2, 14, 64, 128, 128]⟩
abbrev S2x1x64x128x128 : Shape := ⟨5, ![2, 1, 64, 128, 128]⟩
abbrev S_ : Shape := ⟨0, ![]⟩

class Facts : Prop where
  bcast_S_S2x14x64x128x128 : S_.BroadcastsInDim S2x14x64x128x128 (![] : Fin 0 → Fin S2x14x64x128x128.rank)
  reducesTo_S2x14x64x128x128_S_d0_1_2_3_4 : S2x14x64x128x128.ReducesTo [0, 1, 2, 3, 4] S_
  h_S_ : 0 < S_.numel

variable [Facts]

def fn {F : FTy → Type} [FloatOps F] (main_arg0 : FVec F S2x14x64x128x128 .f32) (main_arg1 : IVec S2x1x64x128x128 32) (main_arg2 : FVec F S2x14x64x128x128 .f32) : IVec S_ 1 :=
  let main_v0 : FVec F S2x14x64x128x128 .f32 := Host.absf main_arg0
  let main_cst : FVec F S_ .f32 := constant S_ .f32 0x7F800000#32
  let main_v1 : FVec F S2x14x64x128x128 .f32 := broadcastInDim S2x14x64x128x128 ![] bcast_S_S2x14x64x128x128 main_cst
  let main_v2 : IVec S2x14x64x128x128 1 := cmpf .olt main_v0 main_v1
  let main_c : IVec S_ 1 := constantI S_ 1 1#1
  let main_v3 : IVec S_ 1 := (fun x v => Host.reduce IntOp.andi x v reducesTo_S2x14x64x128x128_S_d0_1_2_3_4 h_S_) main_v2 main_c
  let main_v4 : FVec F S2x14x64x128x128 .f32 := Host.absf main_arg2
  let main_cst_0 : FVec F S_ .f32 := constant S_ .f32 0x7F800000#32
  let main_v5 : FVec F S2x14x64x128x128 .f32 := broadcastInDim S2x14x64x128x128 ![] bcast_S_S2x14x64x128x128 main_cst_0
  let main_v6 : IVec S2x14x64x128x128 1 := cmpf .olt main_v4 main_v5
  let main_c_1 : IVec S_ 1 := constantI S_ 1 1#1
  let main_v7 : IVec S_ 1 := (fun x v => Host.reduce IntOp.andi x v reducesTo_S2x14x64x128x128_S_d0_1_2_3_4 h_S_) main_v6 main_c_1
  let main_v8 : IVec S_ 1 := andi main_v3 main_v7
  main_v8
-- ==== Kernel.lean ====
abbrev S2x14x64x128x128 : Shape := ⟨5, ![2, 14, 64, 128, 128]⟩
abbrev S2x1x64x128x128 : Shape := ⟨5, ![2, 1, 64, 128, 128]⟩
abbrev S2x14x1048576 : Shape := ⟨3, ![2, 14, 1048576]⟩
abbrev S2x1x1048576 : Shape := ⟨3, ![2, 1, 1048576]⟩
abbrev S2x14x14 : Shape := ⟨3, ![2, 14, 14]⟩
abbrev S2x1x14 : Shape := ⟨3, ![2, 1, 14]⟩
abbrev S1x14x65536 : Shape := ⟨3, ![1, 14, 65536]⟩
abbrev S1x1x65536 : Shape := ⟨3, ![1, 1, 65536]⟩
abbrev S1x14x14 : Shape := ⟨3, ![1, 14, 14]⟩
abbrev S1x1x14 : Shape := ⟨3, ![1, 1, 14]⟩
abbrev S14x65536 : Shape := ⟨2, ![14, 65536]⟩
abbrev S65536 : Shape := ⟨1, ![65536]⟩
abbrev S14x1 : Shape := ⟨2, ![14, 1]⟩
abbrev S1x65536 : Shape := ⟨2, ![1, 65536]⟩
abbrev S14x14 : Shape := ⟨2, ![14, 14]⟩
abbrev S14 : Shape := ⟨1, ![14]⟩
abbrev S_ : Shape := ⟨0, ![]⟩

abbrev nBuf : Space → Nat
  | .hbm => 78
  | .vmem => 12
  | .smem => 0
  | _ => 0

abbrev bufTy : (tb : Table) → Fin (tcTables nBuf tb) → BufTy
  | .hbm, ⟨0, _⟩ => ⟨S2x14x64x128x128, .f32⟩
  | .hbm, ⟨1, _⟩ => ⟨S2x1x64x128x128, .i32⟩
  | .hbm, ⟨2, _⟩ => ⟨S2x14x64x128x128, .f32⟩
  | .hbm, ⟨3, _⟩ => ⟨S2x14x1048576, .f32⟩
  | .hbm, ⟨4, _⟩ => ⟨S2x14x1048576, .f32⟩
  | .hbm, ⟨5, _⟩ => ⟨S2x1x1048576, .i32⟩
  | .hbm, ⟨6, _⟩ => ⟨S2x14x14, .f32⟩
  | .hbm, ⟨7, _⟩ => ⟨S2x14x14, .f32⟩
  | .hbm, ⟨8, _⟩ => ⟨S2x1x14, .f32⟩
  | .hbm, ⟨9, _⟩ => ⟨S_, .f32⟩
  | .hbm, ⟨10, _⟩ => ⟨S14x14, .f32⟩
  | .hbm, ⟨11, _⟩ => ⟨S_, .f32⟩
  | .hbm, ⟨12, _⟩ => ⟨S14x14, .f32⟩
  | .hbm, ⟨13, _⟩ => ⟨S_, .f32⟩
  | .hbm, ⟨14, _⟩ => ⟨S14, .f32⟩
  | .hbm, ⟨15, _⟩ => ⟨S14x1, .f32⟩
  | .hbm, ⟨16, _⟩ => ⟨S_, .f32⟩
  | .hbm, ⟨17, _⟩ => ⟨S14x1, .f32⟩
  | .hbm, ⟨18, _⟩ => ⟨S14x1, .f32⟩
  | .hbm, ⟨19, _⟩ => ⟨S14x14, .f32⟩
  | .hbm, ⟨20, _⟩ => ⟨S14x14, .f32⟩
  | .hbm, ⟨21, _⟩ => ⟨S14x1, .f32⟩
  | .hbm, ⟨22, _⟩ => ⟨S_, .f32⟩
  | .hbm, ⟨23, _⟩ => ⟨S14x1, .f32⟩
  | .hbm, ⟨24, _⟩ => ⟨S14x1, .f32⟩
  | .hbm, ⟨25, _⟩ => ⟨S14x14, .f32⟩
  | .hbm, ⟨26, _⟩ => ⟨S14x14, .f32⟩
  | .hbm, ⟨27, _⟩ => ⟨S_, .f32⟩
  | .hbm, ⟨28, _⟩ => ⟨S14x14, .f32⟩
  | .hbm, ⟨29, _⟩ => ⟨S14x14, .f32⟩
  | .hbm, ⟨30, _⟩ => ⟨S_, .f32⟩
  | .hbm, ⟨31, _⟩ => ⟨S14, .f32⟩
  | .hbm, ⟨32, _⟩ => ⟨S_, .f32⟩
  | .hbm, ⟨33, _⟩ => ⟨S14, .f32⟩
  | .hbm, ⟨34, _⟩ => ⟨S14, .f32⟩
  | .hbm, ⟨35, _⟩ => ⟨S14x1, .f32⟩
  | .hbm, ⟨36, _⟩ => ⟨S14x14, .f32⟩
  | .hbm, ⟨37, _⟩ => ⟨S14x14, .f32⟩
  | .hbm, ⟨38, _⟩ => ⟨S14x14, .f32⟩
  | .hbm, ⟨39, _⟩ => ⟨S_, .f32⟩
  | .hbm, ⟨40, _⟩ => ⟨S14, .f32⟩
  | .hbm, ⟨41, _⟩ => ⟨S14x1, .f32⟩
  | .hbm, ⟨42, _⟩ => ⟨S14x1, .f32⟩
  | .hbm, ⟨43, _⟩ => ⟨S14x14, .f32⟩
  | .hbm, ⟨44, _⟩ => ⟨S14x14, .f32⟩
  | .hbm, ⟨45, _⟩ => ⟨S_, .f32⟩
  | .hbm, ⟨46, _⟩ => ⟨S14x14, .f32⟩
  | .hbm, ⟨47, _⟩ => ⟨S14x14, .f32⟩
  | .hbm, ⟨48, _⟩ => ⟨S_, .f32⟩
  | .hbm, ⟨49, _⟩ => ⟨S14, .f32⟩
  | .hbm, ⟨50, _⟩ => ⟨S_, .f32⟩
  | .hbm, ⟨51, _⟩ => ⟨S14, .f32⟩
  | .hbm, ⟨52, _⟩ => ⟨S14, .f32⟩
  | .hbm, ⟨53, _⟩ => ⟨S14x1, .f32⟩
  | .hbm, ⟨54, _⟩ => ⟨S14x14, .f32⟩
  | .hbm, ⟨55, _⟩ => ⟨S14x14, .f32⟩
  | .hbm, ⟨56, _⟩ => ⟨S14x14, .f32⟩
  | .hbm, ⟨57, _⟩ => ⟨S_, .f32⟩
  | .hbm, ⟨58, _⟩ => ⟨S14, .f32⟩
  | .hbm, ⟨59, _⟩ => ⟨S14x1, .f32⟩
  | .hbm, ⟨60, _⟩ => ⟨S14x1, .f32⟩
  | .hbm, ⟨61, _⟩ => ⟨S14x14, .f32⟩
  | .hbm, ⟨62, _⟩ => ⟨S14x14, .f32⟩
  | .hbm, ⟨63, _⟩ => ⟨S14x14, .f32⟩
  | .hbm, ⟨64, _⟩ => ⟨S14x14, .f32⟩
  | .hbm, ⟨65, _⟩ => ⟨S14x14, .f32⟩
  | .hbm, ⟨66, _⟩ => ⟨S14x14, .f32⟩
  | .hbm, ⟨67, _⟩ => ⟨S_, .f32⟩
  | .hbm, ⟨68, _⟩ => ⟨S_, .f32⟩
  | .hbm, ⟨69, _⟩ => ⟨S14x14, .f32⟩
  | .hbm, ⟨70, _⟩ => ⟨S14x14, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .local _ .vmem, ⟨0, _⟩ => ⟨S1x14x65536, .f32⟩
  | .local _ .vmem, ⟨1, _⟩ => ⟨S1x14x65536, .f32⟩
  | .local _ .vmem, ⟨2, _⟩ => ⟨S1x14x65536, .f32⟩
  | .local _ .vmem, ⟨3, _⟩ => ⟨S1x14x65536, .f32⟩
  | .local _ .vmem, ⟨4, _⟩ => ⟨S1x1x65536, .i32⟩
  | .local _ .vmem, ⟨5, _⟩ => ⟨S1x1x65536, .i32⟩
  | .local _ .vmem, ⟨6, _⟩ => ⟨S1x14x14, .f32⟩
  | .local _ .vmem, ⟨7, _⟩ => ⟨S1x14x14, .f32⟩
  | .local _ .vmem, ⟨8, _⟩ => ⟨S1x14x14, .f32⟩
  | .local _ .vmem, ⟨9, _⟩ => ⟨S1x14x14, .f32⟩
  | .local _ .vmem, ⟨10, _⟩ => ⟨S1x1x14, .f32⟩
  | .local _ .vmem, ⟨11, _⟩ => ⟨S1x1x14, .f32⟩
  | _, _ => ⟨S2x14x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_call0_cst_0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_cst_1 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_v19 : Ref sig .tc := ⟨.hbm, 44, rfl⟩
abbrev main_cst_5 : Ref sig .tc := ⟨.hbm, 45, rfl⟩
abbrev main_v20 : Ref sig .tc := ⟨.hbm, 46, rfl⟩
abbrev main_v21 : Ref sig .tc := ⟨.hbm, 47, rfl⟩
abbrev main_call1_cst : Ref sig .tc := ⟨.hbm, 48, rfl⟩
abbrev main_call1_v0 : Ref sig .tc := ⟨.hbm, 49, rfl⟩
abbrev main_call1_cst_0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_cst_1 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_6 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_7 : Ref sig .tc := ⟨.hbm, 71, rfl⟩
abbrev main_v30 : Ref sig .tc := ⟨.hbm, 72, rfl⟩
abbrev main_v31 : Ref sig .tc := ⟨.hbm, 73, rfl⟩
abbrev main_cst_8 : Ref sig .tc := ⟨.hbm, 74, rfl⟩
abbrev main_v32 : Ref sig .tc := ⟨.hbm, 75, rfl⟩
abbrev main_cst_9 : Ref sig .tc := ⟨.hbm, 76, rfl⟩
abbrev main_v33 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x14x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x14x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x65536 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x14x14 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x14x14 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x14 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S2x14x64x128x128_S2x14x1048576 : S2x14x64x128x128.ShapeCasts S2x14x1048576
  shapeCasts_S2x1x64x128x128_S2x1x1048576 : S2x1x64x128x128.ShapeCasts S2x1x1048576
  inb_S1x14x14_S1x14x14_0_0_0 : ∀ a, (![0, 0, 0] : Fin 3 → Nat) a + S1x14x14.size a ≤ S1x14x14.size a
  h_S1x14x14 : 0 < S1x14x14.numel
  inb_S1x1x14_S1x1x14_0_0_0 : ∀ a, (![0, 0, 0] : Fin 3 → Nat) a + S1x1x14.size a ≤ S1x1x14.size a
  h_S1x1x14 : 0 < S1x1x14.numel
  inb_S1x14x65536_S1x14x65536_0_0_0 : ∀ a, (![0, 0, 0] : Fin 3 → Nat) a + S1x14x65536.size a ≤ S1x14x65536.size a
  h_S1x14x65536 : 0 < S1x14x65536.numel
  shapeCasts_S1x14x65536_S14x65536 : S1x14x65536.ShapeCasts S14x65536
  inb_S1x1x65536_S1x1x65536_0_0_0 : ∀ a, (![0, 0, 0] : Fin 3 → Nat) a + S1x1x65536.size a ≤ S1x1x65536.size a
  h_S1x1x65536 : 0 < S1x1x65536.numel
  shapeCasts_S1x1x65536_S65536 : S1x1x65536.ShapeCasts S65536
  iota_S14x1_d0_w32 : S14x1.Iotas .tc 32 [0]
  shapeCasts_S65536_S1x65536 : S65536.ShapeCasts S1x65536
  broadcasts_S14x1_S14x65536 : S14x1.Broadcasts S14x65536
  broadcasts_S1x65536_S14x65536 : S1x65536.Broadcasts S14x65536
  natLt_1_32 : 1 < 32
  bitsLt_bf16_f32 : FTy.bits .bf16 < FTy.bits .f32
  reduces_S14x65536_S14 : S14x65536.Reduces [1] S14
  shapeCasts_S1x14x14_S14x14 : S1x14x14.ShapeCasts S14x14
  shapeCasts_S14x14_S1x14x14 : S14x14.ShapeCasts S1x14x14
  shapeCasts_S1x1x14_S14 : S1x1x14.ShapeCasts S14
  shapeCasts_S14_S1x1x14 : S14.ShapeCasts S1x1x14
  reducesTo_S2x14x14_S14x14_d0 : S2x14x14.ReducesTo [0] S14x14
  h_S_ : 0 < S_.numel
  reducesTo_S2x1x14_S14_d0_1 : S2x1x14.ReducesTo [0, 1] S14
  bcast_S14_S14x1_0 : S14.BroadcastsInDim S14x1 (![0] : Fin 1 → Fin S14x1.rank)
  bcast_S_S14x1 : S_.BroadcastsInDim S14x1 (![] : Fin 0 → Fin S14x1.rank)
  bcast_S14x1_S14x14_0_1 : S14x1.BroadcastsInDim S14x14 (![0, 1] : Fin 2 → Fin S14x14.rank)
  bcast_S_S14x14 : S_.BroadcastsInDim S14x14 (![] : Fin 0 → Fin S14x14.rank)
  reducesTo_S14x14_S14_d1 : S14x14.ReducesTo [1] S14
  bcast_S_S14 : S_.BroadcastsInDim S14 (![] : Fin 0 → Fin S14.rank)
  reducesTo_S14x14_S_d0_1 : S14x14.ReducesTo [0, 1] S_
  dot_S14x65536_S14x65536_S14x14_1_1_0_0_n_n_wf : DotDims.WF S14x65536 S14x65536 S14x14 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x14x65536.size a ≤ S2x14x1048576.size a
  hwx0_0 : ∀ i : grid0.Coords, EltTy.bits .f32 = 32 ∨ (Rect.block (s := S2x14x1048576) S1x14x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x14x65536.size a ≤ S2x14x1048576.size a
  hwx0_1 : ∀ i : grid0.Coords, EltTy.bits .f32 = 32 ∨ (Rect.block (s := S2x14x1048576) S1x14x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x65536.size a ≤ S2x1x1048576.size a
  hwx0_2 : ∀ i : grid0.Coords, EltTy.bits .i32 = 32 ∨ (Rect.block (s := S2x1x1048576) S1x1x65536.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x14x14.size a ≤ S2x14x14.size a
  hwx0_3 : ∀ i : grid0.Coords, EltTy.bits .f32 = 32 ∨ (Rect.block (s := S2x14x14) S1x14x14.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x14x14.size a ≤ S2x14x14.size a
  hwx0_4 : ∀ i : grid0.Coords, EltTy.bits .f32 = 32 ∨ (Rect.block (s := S2x14x14) S1x14x14.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x14.size a ≤ S2x1x14.size a
  hwx0_5 : ∀ i : grid0.Coords, EltTy.bits .f32 = 32 ∨ (Rect.block (s := S2x1x14) S1x1x14.size (cc0_transform_5 i) (hinb0_5 i)).WholeWords (EltTy.packing .f32)

variable [Facts₀]

def dot_S14x65536_S14x65536_S14x14_1_1_0_0_n_n : DotDims S14x65536 S14x65536 S14x14 where
  lhsContracting := [1]
  rhsContracting := [1]
  lhsNonContracting := [0]
  rhsNonContracting := [0]
  lhsBatch := []
  rhsBatch := []
  wf := dot_S14x65536_S14x65536_S14x14_1_1_0_0_n_n_wf

abbrev win0_0 : Pipeline.Window sig grid0 :=
  Pipeline.Window.ofSpec (Memref.whole main_v0) S1x14x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x14x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x65536.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x14x14.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x14x14.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x1x14.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x14x64x128x128 : Shape := ⟨5, ![2, 14, 64, 128, 128]⟩
abbrev S2x1x64x128x128 : Shape := ⟨5, ![2, 1, 64, 128, 128]⟩
abbrev S2097152 : Shape := ⟨1, ![2097152]⟩
abbrev S2x64x128x128x14 : Shape := ⟨5, ![2, 64, 128, 128, 14]⟩
abbrev S2097152x14 : Shape := ⟨2, ![2097152, 14]⟩
abbrev S_ : Shape := ⟨0, ![]⟩
abbrev S14x14 : Shape := ⟨2, ![14, 14]⟩
abbrev S2097152x1 : Shape := ⟨2, ![2097152, 1]⟩
abbrev S14 : Shape := ⟨1, ![14]⟩
abbrev S14x1 : Shape := ⟨2, ![14, 1]⟩

abbrev nBuf : Space → Nat
  | .hbm => 91
  | .vmem => 0
  | .smem => 0
  | _ => 0

abbrev bufTy : (tb : Table) → Fin (tcTables nBuf tb) → BufTy
  | .hbm, ⟨0, _⟩ => ⟨S2x14x64x128x128, .f32⟩
  | .hbm, ⟨1, _⟩ => ⟨S2x1x64x128x128, .i32⟩
  | .hbm, ⟨2, _⟩ => ⟨S2x14x64x128x128, .f32⟩
  | .hbm, ⟨3, _⟩ => ⟨S2097152, .i32⟩
  | .hbm, ⟨4, _⟩ => ⟨S2x64x128x128x14, .f32⟩
  | .hbm, ⟨5, _⟩ => ⟨S2097152x14, .f32⟩
  | .hbm, ⟨6, _⟩ => ⟨S_, .f32⟩
  | .hbm, ⟨7, _⟩ => ⟨S14x14, .f32⟩
  | .hbm, ⟨8, _⟩ => ⟨S2097152x1, .i32⟩
  | .hbm, ⟨9, _⟩ => ⟨S14x14, .f32⟩
  | .hbm, ⟨10, _⟩ => ⟨S_, .f32⟩
  | .hbm, ⟨11, _⟩ => ⟨S2097152, .f32⟩
  | .hbm, ⟨12, _⟩ => ⟨S_, .f32⟩
  | .hbm, ⟨13, _⟩ => ⟨S14, .f32⟩
  | .hbm, ⟨14, _⟩ => ⟨S2097152x1, .i32⟩
  | .hbm, ⟨15, _⟩ => ⟨S14, .f32⟩
  | .hbm, ⟨16, _⟩ => ⟨S14x1, .f32⟩
  | .hbm, ⟨17, _⟩ => ⟨S_, .f32⟩
  | .hbm, ⟨18, _⟩ => ⟨S14x1, .f32⟩
  | .hbm, ⟨19, _⟩ => ⟨S14x1, .f32⟩
  | .hbm, ⟨20, _⟩ => ⟨S14x14, .f32⟩
  | .hbm, ⟨21, _⟩ => ⟨S14x14, .f32⟩
  | .hbm, ⟨22, _⟩ => ⟨S2x64x128x128x14, .f32⟩
  | .hbm, ⟨23, _⟩ => ⟨S2097152x14, .f32⟩
  | .hbm, ⟨24, _⟩ => ⟨S_, .f32⟩
  | .hbm, ⟨25, _⟩ => ⟨S14x14, .f32⟩
  | .hbm, ⟨26, _⟩ => ⟨S2097152x1, .i32⟩
  | .hbm, ⟨27, _⟩ => ⟨S14x14, .f32⟩
  | .hbm, ⟨28, _⟩ => ⟨S_, .f32⟩
  | .hbm, ⟨29, _⟩ => ⟨S2097152, .f32⟩
  | .hbm, ⟨30, _⟩ => ⟨S_, .f32⟩
  | .hbm, ⟨31, _⟩ => ⟨S14, .f32⟩
  | .hbm, ⟨32, _⟩ => ⟨S2097152x1, .i32⟩
  | .hbm, ⟨33, _⟩ => ⟨S14, .f32⟩
  | .hbm, ⟨34, _⟩ => ⟨S14x1, .f32⟩
  | .hbm, ⟨35, _⟩ => ⟨S_, .f32⟩
  | .hbm, ⟨36, _⟩ => ⟨S14x1, .f32⟩
  | .hbm, ⟨37, _⟩ => ⟨S14x1, .f32⟩
  | .hbm, ⟨38, _⟩ => ⟨S14x14, .f32⟩
  | .hbm, ⟨39, _⟩ => ⟨S14x14, .f32⟩
  | .hbm, ⟨40, _⟩ => ⟨S_, .f32⟩
  | .hbm, ⟨41, _⟩ => ⟨S14x14, .f32⟩
  | .hbm, ⟨42, _⟩ => ⟨S14x14, .f32⟩
  | .hbm, ⟨43, _⟩ => ⟨S_, .f32⟩
  | .hbm, ⟨44, _⟩ => ⟨S14, .f32⟩
  | .hbm, ⟨45, _⟩ => ⟨S_, .f32⟩
  | .hbm, ⟨46, _⟩ => ⟨S14, .f32⟩
  | .hbm, ⟨47, _⟩ => ⟨S14, .f32⟩
  | .hbm, ⟨48, _⟩ => ⟨S14x1, .f32⟩
  | .hbm, ⟨49, _⟩ => ⟨S14x14, .f32⟩
  | .hbm, ⟨50, _⟩ => ⟨S14x14, .f32⟩
  | .hbm, ⟨51, _⟩ => ⟨S14x14, .f32⟩
  | .hbm, ⟨52, _⟩ => ⟨S_, .f32⟩
  | .hbm, ⟨53, _⟩ => ⟨S14, .f32⟩
  | .hbm, ⟨54, _⟩ => ⟨S14x1, .f32⟩
  | .hbm, ⟨55, _⟩ => ⟨S14x1, .f32⟩
  | .hbm, ⟨56, _⟩ => ⟨S14x14, .f32⟩
  | .hbm, ⟨57, _⟩ => ⟨S14x14, .f32⟩
  | .hbm, ⟨58, _⟩ => ⟨S_, .f32⟩
  | .hbm, ⟨59, _⟩ => ⟨S14x14, .f32⟩
  | .hbm, ⟨60, _⟩ => ⟨S14x14, .f32⟩
  | .hbm, ⟨61, _⟩ => ⟨S_, .f32⟩
  | .hbm, ⟨62, _⟩ => ⟨S14, .f32⟩
  | .hbm, ⟨63, _⟩ => ⟨S_, .f32⟩
  | .hbm, ⟨64, _⟩ => ⟨S14, .f32⟩
  | .hbm, ⟨65, _⟩ => ⟨S14, .f32⟩
  | .hbm, ⟨66, _⟩ => ⟨S14x1, .f32⟩
  | .hbm, ⟨67, _⟩ => ⟨S14x14, .f32⟩
  | .hbm, ⟨68, _⟩ => ⟨S14x14, .f32⟩
  | .hbm, ⟨69, _⟩ => ⟨S14x14, .f32⟩
  | .hbm, ⟨70, _⟩ => ⟨S_, .f32⟩
  | .hbm, ⟨71, _⟩ => ⟨S14, .f32⟩
  | .hbm, ⟨72, _⟩ => ⟨S14x1, .f32⟩
  | .hbm, ⟨73, _⟩ => ⟨S14x1, .f32⟩
  | .hbm, ⟨74, _⟩ => ⟨S14x14, .f32⟩
  | .hbm, ⟨75, _⟩ => ⟨S14x14, .f32⟩
  | .hbm, ⟨76, _⟩ => ⟨S14x14, .f32⟩
  | .hbm, ⟨77, _⟩ => ⟨S14x14, .f32⟩
  | .hbm, ⟨78, _⟩ => ⟨S14x14, .f32⟩
  | .hbm, ⟨79, _⟩ => ⟨S14x14, .f32⟩
  | .hbm, ⟨80, _⟩ => ⟨S_, .f32⟩
  | .hbm, ⟨81, _⟩ => ⟨S_, .f32⟩
  | .hbm, ⟨82, _⟩ => ⟨S14x14, .f32⟩
  | .hbm, ⟨83, _⟩ => ⟨S14x14, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S2x14x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_call0_cst_0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_cst_1 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_v31 : Ref sig .tc := ⟨.hbm, 57, rfl⟩
abbrev main_cst_8 : Ref sig .tc := ⟨.hbm, 58, rfl⟩
abbrev main_v32 : Ref sig .tc := ⟨.hbm, 59, rfl⟩
abbrev main_v33 : Ref sig .tc := ⟨.hbm, 60, rfl⟩
abbrev main_call1_cst : Ref sig .tc := ⟨.hbm, 61, rfl⟩
abbrev main_call1_v0 : Ref sig .tc := ⟨.hbm, 62, rfl⟩
abbrev main_call1_cst_0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_cst_1 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_9 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_10 : Ref sig .tc := ⟨.hbm, 84, rfl⟩
abbrev main_v42 : Ref sig .tc := ⟨.hbm, 85, rfl⟩
abbrev main_v43 : Ref sig .tc := ⟨.hbm, 86, rfl⟩
abbrev main_cst_11 : Ref sig .tc := ⟨.hbm, 87, rfl⟩
abbrev main_v44 : Ref sig .tc := ⟨.hbm, 88, rfl⟩
abbrev main_cst_12 : Ref sig .tc := ⟨.hbm, 89, rfl⟩
abbrev main_v45 : Ref sig .tc := ⟨.hbm, 90, rfl⟩

abbrev nD : Nat := 1
abbrev τ : Topo := Topo.v7x

variable {F : FTy → Type} [FloatOps F]

class Facts₀ : Prop where
  shapeCasts_S2x1x64x128x128_S2097152 : S2x1x64x128x128.ShapeCasts S2097152
  transposes_S2x14x64x128x128_S2x64x128x128x14_0_2_3_4_1 : S2x14x64x128x128.Transposes [0, 2, 3, 4, 1] S2x64x128x128x14
  shapeCasts_S2x64x128x128x14_S2097152x14 : S2x64x128x128x14.ShapeCasts S2097152x14
  bcast_S_S14x14 : S_.BroadcastsInDim S14x14 (![] : Fin 0 → Fin S14x14.rank)
  bcast_S2097152_S2097152x1_0 : S2097152.BroadcastsInDim S2097152x1 (![0] : Fin 1 → Fin S2097152x1.rank)
  bcast_S_S2097152 : S_.BroadcastsInDim S2097152 (![] : Fin 0 → Fin S2097152.rank)
  bcast_S_S14 : S_.BroadcastsInDim S14 (![] : Fin 0 → Fin S14.rank)
  bcast_S14_S14x1_0 : S14.BroadcastsInDim S14x1 (![0] : Fin 1 → Fin S14x1.rank)
  bcast_S_S14x1 : S_.BroadcastsInDim S14x1 (![] : Fin 0 → Fin S14x1.rank)
  bcast_S14x1_S14x14_0_1 : S14x1.BroadcastsInDim S14x14 (![0, 1] : Fin 2 → Fin S14x14.rank)
  reducesTo_S14x14_S14_d1 : S14x14.ReducesTo [1] S14
  h_S_ : 0 < S_.numel
  reducesTo_S14x14_S_d0_1 : S14x14.ReducesTo [0, 1] S_
  scatter_S14x14_S2097152x1_S2097152x14_1_0_0_1_wf : ScatterDims.WF S14x14 S2097152x1 S2097152x14 [1] [0] [0] 1
  scatter_S14_S2097152x1_S2097152_n_0_0_1_wf : ScatterDims.WF S14 S2097152x1 S2097152 [] [0] [0] 1

variable [Facts₀]

def scatter_S14x14_S2097152x1_S2097152x14_1_0_0_1 : ScatterDims S14x14 S2097152x1 S2097152x14 where
  updateWindowDims := [1]
  insertedWindowDims := [0]
  scatterDimsToOperandDims := [0]
  indexVectorDim := 1
  wf := scatter_S14x14_S2097152x1_S2097152x14_1_0_0_1_wf
def scatter_S14_S2097152x1_S2097152_n_0_0_1 : ScatterDims S14 S2097152x1 S2097152 where
  updateWindowDims := []
  insertedWindowDims := [0]
  scatterDimsToOperandDims := [0]
  indexVectorDim := 1
  wf := scatter_S14_S2097152x1_S2097152_n_0_0_1_wf

class Facts : Prop extends Facts₀ where

variable [Facts]
-- ==== Proof.FrameK.Kit.lean ====
/-
  The frame kit of one program: @main is three host reshapes, one pipelined region on a 2 × 16 grid,
  and a tail of 69 host operations in five stretches. Stated here, for any float instance `F`: the
  buffer contents when the region is entered (`V0`, `V`: the launch memory after the three reshapes),
  that @main reduces to the region continued by the tail (`hmain`), that every operation of the tail
  touches only the pipeline's arrays and the buffers bypassing the region, allocates nothing and writes
  no array of the pipeline (`sfx_sub`, `sfx_fresh`, `sfx_keeps`), each window's block at a grid point
  (`iblk`), that an input's staging buffer holds its block at every point (`before0_k_of`), the closed
  form of the body's one branch condition (the second grid coordinate is zero exactly at the points
  ≡ 0 mod 16), and the frame claim's post read off a frame run (`frame_of`).
-/
import proofs.«430275_j52776558133414_3_alg».proof.Proof.Gen.Kernel.Launch
import proofs.«430275_j52776558133414_3_alg».proof.Proof.Gen.Kernel.Skeleton
import proofs.«430275_j52776558133414_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the three reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the reshapes, the region, then the tail: it reduces to the region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every operation of the tail touches only the pipeline's arrays and the buffers that bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- None allocates a buffer. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-! No operation of the tail writes an array of the pipeline: each writes its own result buffer, which is
    none of the six window arrays. Stretch by stretch. -/
set_option maxHeartbeats 4000000 in
theorem hostOps1_keeps : (hostOps1 : List (HloOp τ sig (Elt F))).Forall fun op =>
    ∀ w : Fin 6, Proc.devRef .tc (Pipeline.arrRef spec0 w) ∉ op.writes := by
  simp only [List.Forall]
  repeat' constructor
  all_goals
    intro w
    simp only [StableHlo.TRef.nullary, StableHlo.TRef.unary, StableHlo.TRef.binary, StableHlo.nullary_writes, StableHlo.unary_writes, StableHlo.binary_writes, Finset.mem_singleton]
    exact StableHlo.devRef_ne_of_ne (by revert w; decide)

set_option maxHeartbeats 4000000 in
theorem hostOps1_1_keeps : (hostOps1_1 : List (HloOp τ sig (Elt F))).Forall fun op =>
    ∀ w : Fin 6, Proc.devRef .tc (Pipeline.arrRef spec0 w) ∉ op.writes := by
  simp only [List.Forall]
  repeat' constructor
  all_goals
    intro w
    simp only [StableHlo.TRef.nullary, StableHlo.TRef.unary, StableHlo.TRef.binary, StableHlo.nullary_writes, StableHlo.unary_writes, StableHlo.binary_writes, Finset.mem_singleton]
    exact StableHlo.devRef_ne_of_ne (by revert w; decide)

set_option maxHeartbeats 4000000 in
theorem hostOps1_2_keeps : (hostOps1_2 : List (HloOp τ sig (Elt F))).Forall fun op =>
    ∀ w : Fin 6, Proc.devRef .tc (Pipeline.arrRef spec0 w) ∉ op.writes := by
  simp only [List.Forall]
  repeat' constructor
  all_goals
    intro w
    simp only [StableHlo.TRef.nullary, StableHlo.TRef.unary, StableHlo.TRef.binary, StableHlo.nullary_writes, StableHlo.unary_writes, StableHlo.binary_writes, Finset.mem_singleton]
    exact StableHlo.devRef_ne_of_ne (by revert w; decide)

set_option maxHeartbeats 4000000 in
theorem hostOps1_3_keeps : (hostOps1_3 : List (HloOp τ sig (Elt F))).Forall fun op =>
    ∀ w : Fin 6, Proc.devRef .tc (Pipeline.arrRef spec0 w) ∉ op.writes := by
  simp only [List.Forall]
  repeat' constructor
  all_goals
    intro w
    simp only [StableHlo.TRef.nullary, StableHlo.TRef.unary, StableHlo.TRef.binary, StableHlo.nullary_writes, StableHlo.unary_writes, StableHlo.binary_writes, Finset.mem_singleton]
    exact StableHlo.devRef_ne_of_ne (by revert w; decide)

set_option maxHeartbeats 4000000 in
theorem hostOps1_4_keeps : (hostOps1_4 : List (HloOp τ sig (Elt F))).Forall fun op =>
    ∀ w : Fin 6, Proc.devRef .tc (Pipeline.arrRef spec0 w) ∉ op.writes := by
  simp only [List.Forall]
  repeat' constructor
  all_goals
    intro w
    simp only [StableHlo.TRef.nullary, StableHlo.TRef.unary, StableHlo.TRef.binary, StableHlo.nullary_writes, StableHlo.unary_writes, StableHlo.binary_writes, Finset.mem_singleton]
    exact StableHlo.devRef_ne_of_ne (by revert w; decide)

theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The body's one `scf.if`: the second grid coordinate is zero. -/
abbrev cond0_0 (i : grid0.Coords) : Prop := (Scalar.cmpi .ne (Scalar.extui (Scalar.cmpi .eq (BitVec.ofNat 32 (i 1).val) 0#32)) 0#32) = 1#1
/-- It holds exactly at the first point of each batch element's sixteen. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## Staging memrefs -/

/-- One staging buffer of each output window, through which its contents are stated. -/
abbrev VO0_3 : View sig .tc .vmem S1x14x14 .f32 := (Memref.whole cc0_stg3_0 : Memref sig .tc .vmem S1x14x14 .f32).view
abbrev VO0_4 : View sig .tc .vmem S1x14x14 .f32 := (Memref.whole cc0_stg4_0 : Memref sig .tc .vmem S1x14x14 .f32).view
abbrev VO0_5 : View sig .tc .vmem S1x1x14 .f32 := (Memref.whole cc0_stg5_0 : Memref sig .tc .vmem S1x1x14 .f32).view
/-- Each window's current staging memref at point `t`, as the pipeline passes it, and its wholeness. -/
abbrev ms0_0 (t : Fin cfg0.N) : Memref sig .tc .vmem S1x14x65536 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x14x65536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x65536 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x14x14 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x14x14 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x14 .f32 := win0_5.stage (cfg0.slots t 5)
abbrev hs0_5 (t : Fin cfg0.N) : (ms0_5 t).IsWhole := hstage0_5 ((cfg0.slots t 5).cast nbuf0_5)

end Cert.Kernel.Hand

end
-- ==== Proof.FrameK.RunA.lean ====
/-
  The kernel body run at a grid point whose second coordinate is zero (the first of a batch element's
  sixteen points): the three accumulators are overwritten with zeros, the point's class sums and counts
  are computed from the three input blocks, and each accumulator is stored again as its zero contents
  plus the point's contribution. What each output buffer ends with is a list of stored pieces, found by
  running the body symbolically on whole staging buffers; the buffers' earlier contents play no part.
-/
import proofs.«430275_j52776558133414_3_alg».proof.Proof.FrameK.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run when the branch is taken: the pieces each output buffer ends with, and the proof that
    from the inputs' buffers at `x0 x1 x2` and the outputs' at anything the body runs to its continuation
    with the inputs unchanged and each output's buffer with its pieces written. -/
noncomputable def kernelRun0_A (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : cond0_0 i)
    (x0 : Vec F S1x14x65536 .f32) (x1 : Vec F S1x14x65536 .f32) (x2 : Vec F S1x1x65536 .i32) :
    Σ' (L3 : List (View.Piece (Elt F) S1x14x14 .f32)), Σ' (L4 : List (View.Piece (Elt F) S1x14x14 .f32)), { L5 : List (View.Piece (Elt F) S1x1x14 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact H5

end Cert.Kernel.Hand

end
-- ==== Proof.FrameK.RunB.lean ====
/-
  The kernel body run at a grid point whose second coordinate is not zero: nothing is reset; the point's
  class sums and counts are computed from the three input blocks and each accumulator is stored as what
  the point before left in it plus the point's contribution.
-/
import proofs.«430275_j52776558133414_3_alg».proof.Proof.FrameK.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run when the branch is not taken: the pieces each output buffer ends with, and the proof that
    from the inputs' buffers at `x0 x1 x2` and the outputs' at their running contents `xo3 xo4 xo5` the body
    runs to its continuation with the inputs unchanged and each output's buffer with its pieces written. -/
noncomputable def kernelRun0_B (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : ¬cond0_0 i)
    (x0 : Vec F S1x14x65536 .f32) (x1 : Vec F S1x14x65536 .f32) (x2 : Vec F S1x1x65536 .i32) (xo3 : Vec F S1x14x14 .f32) (xo4 : Vec F S1x14x14 .f32) (xo5 : Vec F S1x1x14 .f32) :
    Σ' (L3 : List (View.Piece (Elt F) S1x14x14 .f32)), Σ' (L4 : List (View.Piece (Elt F) S1x14x14 .f32)), { L5 : List (View.Piece (Elt F) S1x1x14 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact H5

end Cert.Kernel.Hand

end
-- ==== Proof.FrameK.Frame.lean ====
/-
  The frame of one program. What the three accumulator buffers hold after the body at each grid point
  (`outsAt0`, by recursion on the point: at the first of a batch element's sixteen points the reset run's
  pieces, at every other point the accumulating run's pieces over what the point before left), the
  pipeline's proof data built on it, the body obligation at every point (by cases on the point's residue
  mod 16; between two points of one batch element an accumulator's buffer is not written back, so it
  still holds what the point before left), the run of @main (reshapes, region, tail) and the frame:
  every weakly fair execution terminates without fault and the three argument arrays end unchanged,
  since neither the reshapes nor the tail write them and no window stages them.
-/
import proofs.«430275_j52776558133414_3_alg».proof.Proof.FrameK.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover each output block -/

theorem cover0_A_3 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : cond0_0 i)
    (x0 : Vec F S1x14x65536 .f32) (x1 : Vec F S1x14x65536 .f32) (x2 : Vec F S1x1x65536 .i32) (y : S1x14x14.Idx) :
    ∃ pc ∈ (kernelRun0_A c i arg2 harg2 arg3 harg3 arg4 harg4 arg5 harg5 arg6 harg6 arg7 harg7 hc0 x0 x1 x2).1, y ∈ pc.1.set :=
  View.cover_of_tiledL (kernelRun0_A c i arg2 harg2 arg3 harg3 arg4 harg4 arg5 harg5 arg6 harg6 arg7 harg7 hc0 x0 x1 x2).1 S1x14x14.size (by sl_kernel_rfl) y

/-- What the run leaves in output 3's staging buffer when the branch is taken: its pieces read back. -/
def out0_A_3 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : cond0_0 i)
    (x0 : Vec F S1x14x65536 .f32) (x1 : Vec F S1x14x65536 .f32) (x2 : Vec F S1x1x65536 .i32) : Vec F S1x14x14 .f32 :=
  VO0_3.read (Elt F) (VO0_3.writes (Elt F) VO0_3.junk (kernelRun0_A c i arg2 harg2 arg3 harg3 arg4 harg4 arg5 harg5 arg6 harg6 arg7 harg7 hc0 x0 x1 x2).1)

theorem cover0_A_4 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : cond0_0 i)
    (x0 : Vec F S1x14x65536 .f32) (x1 : Vec F S1x14x65536 .f32) (x2 : Vec F S1x1x65536 .i32) (y : S1x14x14.Idx) :
    ∃ pc ∈ (kernelRun0_A c i arg2 harg2 arg3 harg3 arg4 harg4 arg5 harg5 arg6 harg6 arg7 harg7 hc0 x0 x1 x2).2.1, y ∈ pc.1.set :=
  View.cover_of_tiledL (kernelRun0_A c i arg2 harg2 arg3 harg3 arg4 harg4 arg5 harg5 arg6 harg6 arg7 harg7 hc0 x0 x1 x2).2.1 S1x14x14.size (by sl_kernel_rfl) y

/-- What the run leaves in output 4's staging buffer when the branch is taken: its pieces read back. -/
def out0_A_4 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : cond0_0 i)
    (x0 : Vec F S1x14x65536 .f32) (x1 : Vec F S1x14x65536 .f32) (x2 : Vec F S1x1x65536 .i32) : Vec F S1x14x14 .f32 :=
  VO0_4.read (Elt F) (VO0_4.writes (Elt F) VO0_4.junk (kernelRun0_A c i arg2 harg2 arg3 harg3 arg4 harg4 arg5 harg5 arg6 harg6 arg7 harg7 hc0 x0 x1 x2).2.1)

theorem cover0_A_5 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : cond0_0 i)
    (x0 : Vec F S1x14x65536 .f32) (x1 : Vec F S1x14x65536 .f32) (x2 : Vec F S1x1x65536 .i32) (y : S1x1x14.Idx) :
    ∃ pc ∈ (kernelRun0_A c i arg2 harg2 arg3 harg3 arg4 harg4 arg5 harg5 arg6 harg6 arg7 harg7 hc0 x0 x1 x2).2.2.1, y ∈ pc.1.set :=
  View.cover_of_tiledL (kernelRun0_A c i arg2 harg2 arg3 harg3 arg4 harg4 arg5 harg5 arg6 harg6 arg7 harg7 hc0 x0 x1 x2).2.2.1 S1x1x14.size (by sl_kernel_rfl) y

/-- What the run leaves in output 5's staging buffer when the branch is taken: its pieces read back. -/
def out0_A_5 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : cond0_0 i)
    (x0 : Vec F S1x14x65536 .f32) (x1 : Vec F S1x14x65536 .f32) (x2 : Vec F S1x1x65536 .i32) : Vec F S1x1x14 .f32 :=
  VO0_5.read (Elt F) (VO0_5.writes (Elt F) VO0_5.junk (kernelRun0_A c i arg2 harg2 arg3 harg3 arg4 harg4 arg5 harg5 arg6 harg6 arg7 harg7 hc0 x0 x1 x2).2.2.1)

theorem cover0_B_3 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : ¬cond0_0 i)
    (x0 : Vec F S1x14x65536 .f32) (x1 : Vec F S1x14x65536 .f32) (x2 : Vec F S1x1x65536 .i32) (xo3 : Vec F S1x14x14 .f32) (xo4 : Vec F S1x14x14 .f32) (xo5 : Vec F S1x1x14 .f32) (y : S1x14x14.Idx) :
    ∃ pc ∈ (kernelRun0_B c i arg2 harg2 arg3 harg3 arg4 harg4 arg5 harg5 arg6 harg6 arg7 harg7 hc0 x0 x1 x2 xo3 xo4 xo5).1, y ∈ pc.1.set :=
  View.cover_of_tiledL (kernelRun0_B c i arg2 harg2 arg3 harg3 arg4 harg4 arg5 harg5 arg6 harg6 arg7 harg7 hc0 x0 x1 x2 xo3 xo4 xo5).1 S1x14x14.size (by sl_kernel_rfl) y

/-- What the run leaves in output 3's staging buffer when the branch is not taken: its pieces read back. -/
def out0_B_3 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : ¬cond0_0 i)
    (x0 : Vec F S1x14x65536 .f32) (x1 : Vec F S1x14x65536 .f32) (x2 : Vec F S1x1x65536 .i32) (xo3 : Vec F S1x14x14 .f32) (xo4 : Vec F S1x14x14 .f32) (xo5 : Vec F S1x1x14 .f32) : Vec F S1x14x14 .f32 :=
  VO0_3.read (Elt F) (VO0_3.writes (Elt F) VO0_3.junk (kernelRun0_B c i arg2 harg2 arg3 harg3 arg4 harg4 arg5 harg5 arg6 harg6 arg7 harg7 hc0 x0 x1 x2 xo3 xo4 xo5).1)

theorem cover0_B_4 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : ¬cond0_0 i)
    (x0 : Vec F S1x14x65536 .f32) (x1 : Vec F S1x14x65536 .f32) (x2 : Vec F S1x1x65536 .i32) (xo3 : Vec F S1x14x14 .f32) (xo4 : Vec F S1x14x14 .f32) (xo5 : Vec F S1x1x14 .f32) (y : S1x14x14.Idx) :
    ∃ pc ∈ (kernelRun0_B c i arg2 harg2 arg3 harg3 arg4 harg4 arg5 harg5 arg6 harg6 arg7 harg7 hc0 x0 x1 x2 xo3 xo4 xo5).2.1, y ∈ pc.1.set :=
  View.cover_of_tiledL (kernelRun0_B c i arg2 harg2 arg3 harg3 arg4 harg4 arg5 harg5 arg6 harg6 arg7 harg7 hc0 x0 x1 x2 xo3 xo4 xo5).2.1 S1x14x14.size (by sl_kernel_rfl) y

/-- What the run leaves in output 4's staging buffer when the branch is not taken: its pieces read back. -/
def out0_B_4 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : ¬cond0_0 i)
    (x0 : Vec F S1x14x65536 .f32) (x1 : Vec F S1x14x65536 .f32) (x2 : Vec F S1x1x65536 .i32) (xo3 : Vec F S1x14x14 .f32) (xo4 : Vec F S1x14x14 .f32) (xo5 : Vec F S1x1x14 .f32) : Vec F S1x14x14 .f32 :=
  VO0_4.read (Elt F) (VO0_4.writes (Elt F) VO0_4.junk (kernelRun0_B c i arg2 harg2 arg3 harg3 arg4 harg4 arg5 harg5 arg6 harg6 arg7 harg7 hc0 x0 x1 x2 xo3 xo4 xo5).2.1)

theorem cover0_B_5 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : ¬cond0_0 i)
    (x0 : Vec F S1x14x65536 .f32) (x1 : Vec F S1x14x65536 .f32) (x2 : Vec F S1x1x65536 .i32) (xo3 : Vec F S1x14x14 .f32) (xo4 : Vec F S1x14x14 .f32) (xo5 : Vec F S1x1x14 .f32) (y : S1x1x14.Idx) :
    ∃ pc ∈ (kernelRun0_B c i arg2 harg2 arg3 harg3 arg4 harg4 arg5 harg5 arg6 harg6 arg7 harg7 hc0 x0 x1 x2 xo3 xo4 xo5).2.2.1, y ∈ pc.1.set :=
  View.cover_of_tiledL (kernelRun0_B c i arg2 harg2 arg3 harg3 arg4 harg4 arg5 harg5 arg6 harg6 arg7 harg7 hc0 x0 x1 x2 xo3 xo4 xo5).2.2.1 S1x1x14.size (by sl_kernel_rfl) y

/-- What the run leaves in output 5's staging buffer when the branch is not taken: its pieces read back. -/
def out0_B_5 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : ¬cond0_0 i)
    (x0 : Vec F S1x14x65536 .f32) (x1 : Vec F S1x14x65536 .f32) (x2 : Vec F S1x1x65536 .i32) (xo3 : Vec F S1x14x14 .f32) (xo4 : Vec F S1x14x14 .f32) (xo5 : Vec F S1x1x14 .f32) : Vec F S1x1x14 .f32 :=
  VO0_5.read (Elt F) (VO0_5.writes (Elt F) VO0_5.junk (kernelRun0_B c i arg2 harg2 arg3 harg3 arg4 harg4 arg5 harg5 arg6 harg6 arg7 harg7 hc0 x0 x1 x2 xo3 xo4 xo5).2.2.1)

/-! ## What the outputs hold after each point -/

/-- The accumulation, point by point. -/
def outsAt0 (c : Dev nD) : (n : ℕ) → n < cfg0.N → Vec F S1x14x14 .f32 × Vec F S1x14x14 .f32 × Vec F S1x1x14 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 16 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2)

/-- At a point ≡ 0 mod 16: the reset run's contents. -/
theorem outsAt0_A (c : Dev nD) (t : Fin cfg0.N) (h0 : t.val % 16 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t)) := by
  obtain ⟨n, hn⟩ := t
  cases n with
  | zero => exact rfl
  | succ n => exact (dif_pos h0).trans rfl

/-- At any other point: the accumulating run's contents over what the point before left. -/
theorem outsAt0_B (c : Dev nD) (t : Fin cfg0.N) (h0 : ¬t.val % 16 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and each output's at
    `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-! At a point that is not the first of its batch element an accumulator's current staging buffer holds
    what the body left at the point before: the buffer was not written back between. -/
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]
theorem before0_4_B (c : Dev nD) (t : Fin cfg0.N) (h0 : ¬t.val % 16 = 0) (d) :
    (dats m 0 c).before 4 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]
theorem before0_5_B (c : Dev nD) (t : Fin cfg0.N) (h0 : ¬t.val % 16 = 0) (d) :
    (dats m 0 c).before 5 t d = (outsAt0 m c (t.val - 1) (Nat.lt_of_le_of_lt (Nat.sub_le _ _) t.isLt)).2.2 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' buffers hold their blocks; the point's residue mod 16 says which run
    applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 32 := lt_of_lt_of_eq t.isLt (show cfg0.N = 32 from N_0)
  by_cases h0 : t.val % 16 = 0
  · rw [outsAt0_A m c t h0]
    unfold out0_A_3 out0_A_4 out0_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t) (iblk m c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _)
  · rw [outsAt0_B m c t h0]
    simp only [before0_3_B m c t h0, before0_4_B m c t h0, before0_5_B m c t h0]
    unfold out0_B_3 out0_B_4 out0_B_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) (iblk m c 2 t) _ _ _).2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at
    what the proof data computes and every other unscoped buffer as the tail leaves it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

end Cert.Kernel.Hand

end
-- ==== Proof.FrameK.Args.lean ====
/-
  The arguments end unchanged. Neither the three reshapes before the region nor any of the 69 operations
  after it writes an argument's buffer, and no window of the pipeline stages one; so the frame run's post,
  read at the three arguments, is the frame claim's.
-/
import proofs.«430275_j52776558133414_3_alg».proof.Proof.FrameK.Frame
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The reshapes write no argument. -/
theorem V0_arg0 (c : Dev nD) : V0 m c (Proc.devRef .tc main_arg0) = m ((c.tc : Thread nD τ).loc main_arg0) := by
  show StableHlo.after (List.flatten [hostOps0]) (fun b => m (c, b)) (Proc.devRef .tc main_arg0) = _
  simp only [hostOps0, List.flatten_cons, List.flatten_nil, List.append_nil]
  after_results
theorem V0_arg1 (c : Dev nD) : V0 m c (Proc.devRef .tc main_arg1) = m ((c.tc : Thread nD τ).loc main_arg1) := by
  show StableHlo.after (List.flatten [hostOps0]) (fun b => m (c, b)) (Proc.devRef .tc main_arg1) = _
  simp only [hostOps0, List.flatten_cons, List.flatten_nil, List.append_nil]
  after_results
theorem V0_arg2 (c : Dev nD) : V0 m c (Proc.devRef .tc main_arg2) = m ((c.tc : Thread nD τ).loc main_arg2) := by
  show StableHlo.after (List.flatten [hostOps0]) (fun b => m (c, b)) (Proc.devRef .tc main_arg2) = _
  simp only [hostOps0, List.flatten_cons, List.flatten_nil, List.append_nil]
  after_results

/-! Nor does the tail: from any contents `W` an argument's buffer ends as `W` has it. -/
theorem tail_arg0 (W : Valuation τ sig (Elt F)) :
    StableHlo.after (List.flatten (tailOps (F := F))) W (Proc.devRef .tc main_arg0) = W (Proc.devRef .tc main_arg0) := by
  simp only [tailOps, hostOps1, hostOps1_1, hostOps1_2, hostOps1_3, hostOps1_4, List.flatten_cons, List.flatten_nil, List.append_nil, List.cons_append, List.nil_append]
  after_results_simp <;> rfl
theorem tail_arg1 (W : Valuation τ sig (Elt F)) :
    StableHlo.after (List.flatten (tailOps (F := F))) W (Proc.devRef .tc main_arg1) = W (Proc.devRef .tc main_arg1) := by
  simp only [tailOps, hostOps1, hostOps1_1, hostOps1_2, hostOps1_3, hostOps1_4, List.flatten_cons, List.flatten_nil, List.append_nil, List.cons_append, List.nil_append]
  after_results_simp <;> rfl
theorem tail_arg2 (W : Valuation τ sig (Elt F)) :
    StableHlo.after (List.flatten (tailOps (F := F))) W (Proc.devRef .tc main_arg2) = W (Proc.devRef .tc main_arg2) := by
  simp only [tailOps, hostOps1, hostOps1_1, hostOps1_2, hostOps1_3, hostOps1_4, List.flatten_cons, List.flatten_nil, List.append_nil, List.cons_append, List.nil_append]
  after_results_simp <;> rfl

/-! So after the tail an argument's buffer holds its launch contents. -/
theorem afterTail_arg0 (c : Dev nD) : Pipeline.afterTail₀ cfgs (dats m) 0 (V0 m) tailOps c main_arg0 = m ((c.tc : Thread nD τ).loc main_arg0) := by
  unfold Pipeline.afterTail₀
  rw [tail_arg0, Pipeline.withArrays_of_ne spec0 c (V0 m c) _ main_arg0 (by decide), V0_arg0]
theorem afterTail_arg1 (c : Dev nD) : Pipeline.afterTail₀ cfgs (dats m) 0 (V0 m) tailOps c main_arg1 = m ((c.tc : Thread nD τ).loc main_arg1) := by
  unfold Pipeline.afterTail₀
  rw [tail_arg1, Pipeline.withArrays_of_ne spec0 c (V0 m c) _ main_arg1 (by decide), V0_arg1]
theorem afterTail_arg2 (c : Dev nD) : Pipeline.afterTail₀ cfgs (dats m) 0 (V0 m) tailOps c main_arg2 = m ((c.tc : Thread nD τ).loc main_arg2) := by
  unfold Pipeline.afterTail₀
  rw [tail_arg2, Pipeline.withArrays_of_ne spec0 c (V0 m c) _ main_arg2 (by decide), V0_arg2]

/-- THE FRAME: every weakly fair execution of @main terminates without fault and the three arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (afterTail_arg0 m c),
     ((h c).2 main_arg1 (Pipeline.mem_restRefs_of main_arg1 (by decide) (by decide))).trans (afterTail_arg1 m c),
     ((h c).2 main_arg2 (Pipeline.mem_restRefs_of main_arg2 (by decide) (by decide))).trans (afterTail_arg2 m c)⟩)
    (run_main m ρ)

end Cert.Kernel.Hand

end
-- ==== Proof.FrameKI.Kit.lean ====
/-
  The frame kit of one program: @main is three host reshapes, one pipelined region on a 2 × 16 grid,
  and a tail of 69 host operations in five stretches. Stated here, for any float instance `F`: the
  buffer contents when the region is entered (`V0`, `V`: the launch memory after the three reshapes),
  that @main reduces to the region continued by the tail (`hmain`), that every operation of the tail
  touches only the pipeline's arrays and the buffers bypassing the region, allocates nothing and writes
  no array of the pipeline (`sfx_sub`, `sfx_fresh`, `sfx_keeps`), each window's block at a grid point
  (`iblk`), that an input's staging buffer holds its block at every point (`before0_k_of`), the closed
  form of the body's one branch condition (the second grid coordinate is zero exactly at the points
  ≡ 0 mod 16), and the frame claim's post read off a frame run (`frame_of`).
-/
import proofs.«430275_j52776558133414_3_alg».proof.Proof.Gen.KernelIdeal.Launch
import proofs.«430275_j52776558133414_3_alg».proof.Proof.Gen.KernelIdeal.Skeleton
import proofs.«430275_j52776558133414_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the three reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the reshapes, the region, then the tail: it reduces to the region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every operation of the tail touches only the pipeline's arrays and the buffers that bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- None allocates a buffer. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-! No operation of the tail writes an array of the pipeline: each writes its own result buffer, which is
    none of the six window arrays. Stretch by stretch. -/
set_option maxHeartbeats 4000000 in
theorem hostOps1_keeps : (hostOps1 : List (HloOp τ sig (Elt F))).Forall fun op =>
    ∀ w : Fin 6, Proc.devRef .tc (Pipeline.arrRef spec0 w) ∉ op.writes := by
  simp only [List.Forall]
  repeat' constructor
  all_goals
    intro w
    simp only [StableHlo.TRef.nullary, StableHlo.TRef.unary, StableHlo.TRef.binary, StableHlo.nullary_writes, StableHlo.unary_writes, StableHlo.binary_writes, Finset.mem_singleton]
    exact StableHlo.devRef_ne_of_ne (by revert w; decide)

set_option maxHeartbeats 4000000 in
theorem hostOps1_1_keeps : (hostOps1_1 : List (HloOp τ sig (Elt F))).Forall fun op =>
    ∀ w : Fin 6, Proc.devRef .tc (Pipeline.arrRef spec0 w) ∉ op.writes := by
  simp only [List.Forall]
  repeat' constructor
  all_goals
    intro w
    simp only [StableHlo.TRef.nullary, StableHlo.TRef.unary, StableHlo.TRef.binary, StableHlo.nullary_writes, StableHlo.unary_writes, StableHlo.binary_writes, Finset.mem_singleton]
    exact StableHlo.devRef_ne_of_ne (by revert w; decide)

set_option maxHeartbeats 4000000 in
theorem hostOps1_2_keeps : (hostOps1_2 : List (HloOp τ sig (Elt F))).Forall fun op =>
    ∀ w : Fin 6, Proc.devRef .tc (Pipeline.arrRef spec0 w) ∉ op.writes := by
  simp only [List.Forall]
  repeat' constructor
  all_goals
    intro w
    simp only [StableHlo.TRef.nullary, StableHlo.TRef.unary, StableHlo.TRef.binary, StableHlo.nullary_writes, StableHlo.unary_writes, StableHlo.binary_writes, Finset.mem_singleton]
    exact StableHlo.devRef_ne_of_ne (by revert w; decide)

set_option maxHeartbeats 4000000 in
theorem hostOps1_3_keeps : (hostOps1_3 : List (HloOp τ sig (Elt F))).Forall fun op =>
    ∀ w : Fin 6, Proc.devRef .tc (Pipeline.arrRef spec0 w) ∉ op.writes := by
  simp only [List.Forall]
  repeat' constructor
  all_goals
    intro w
    simp only [StableHlo.TRef.nullary, StableHlo.TRef.unary, StableHlo.TRef.binary, StableHlo.nullary_writes, StableHlo.unary_writes, StableHlo.binary_writes, Finset.mem_singleton]
    exact StableHlo.devRef_ne_of_ne (by revert w; decide)

set_option maxHeartbeats 4000000 in
theorem hostOps1_4_keeps : (hostOps1_4 : List (HloOp τ sig (Elt F))).Forall fun op =>
    ∀ w : Fin 6, Proc.devRef .tc (Pipeline.arrRef spec0 w) ∉ op.writes := by
  simp only [List.Forall]
  repeat' constructor
  all_goals
    intro w
    simp only [StableHlo.TRef.nullary, StableHlo.TRef.unary, StableHlo.TRef.binary, StableHlo.nullary_writes, StableHlo.unary_writes, StableHlo.binary_writes, Finset.mem_singleton]
    exact StableHlo.devRef_ne_of_ne (by revert w; decide)

theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The body's one `scf.if`: the second grid coordinate is zero. -/
abbrev cond0_0 (i : grid0.Coords) : Prop := (Scalar.cmpi .ne (Scalar.extui (Scalar.cmpi .eq (BitVec.ofNat 32 (i 1).val) 0#32)) 0#32) = 1#1
/-- It holds exactly at the first point of each batch element's sixteen. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## Staging memrefs -/

/-- One staging buffer of each output window, through which its contents are stated. -/
abbrev VO0_3 : View sig .tc .vmem S1x14x14 .f32 := (Memref.whole cc0_stg3_0 : Memref sig .tc .vmem S1x14x14 .f32).view
abbrev VO0_4 : View sig .tc .vmem S1x14x14 .f32 := (Memref.whole cc0_stg4_0 : Memref sig .tc .vmem S1x14x14 .f32).view
abbrev VO0_5 : View sig .tc .vmem S1x1x14 .f32 := (Memref.whole cc0_stg5_0 : Memref sig .tc .vmem S1x1x14 .f32).view
/-- Each window's current staging memref at point `t`, as the pipeline passes it, and its wholeness. -/
abbrev ms0_0 (t : Fin cfg0.N) : Memref sig .tc .vmem S1x14x65536 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x14x65536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x65536 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x14x14 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x14x14 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x14 .f32 := win0_5.stage (cfg0.slots t 5)
abbrev hs0_5 (t : Fin cfg0.N) : (ms0_5 t).IsWhole := hstage0_5 ((cfg0.slots t 5).cast nbuf0_5)

end Cert.KernelIdeal.Hand

end
-- ==== Proof.FrameKI.RunA.lean ====
/-
  The kernel body run at a grid point whose second coordinate is zero (the first of a batch element's
  sixteen points): the three accumulators are overwritten with zeros, the point's class sums and counts
  are computed from the three input blocks, and each accumulator is stored again as its zero contents
  plus the point's contribution. What each output buffer ends with is a list of stored pieces, found by
  running the body symbolically on whole staging buffers; the buffers' earlier contents play no part.
-/
import proofs.«430275_j52776558133414_3_alg».proof.Proof.FrameKI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run when the branch is taken: the pieces each output buffer ends with, and the proof that
    from the inputs' buffers at `x0 x1 x2` and the outputs' at anything the body runs to its continuation
    with the inputs unchanged and each output's buffer with its pieces written. -/
noncomputable def kernelRun0_A (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : cond0_0 i)
    (x0 : Vec F S1x14x65536 .f32) (x1 : Vec F S1x14x65536 .f32) (x2 : Vec F S1x1x65536 .i32) :
    Σ' (L3 : List (View.Piece (Elt F) S1x14x14 .f32)), Σ' (L4 : List (View.Piece (Elt F) S1x14x14 .f32)), { L5 : List (View.Piece (Elt F) S1x1x14 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact H5

end Cert.KernelIdeal.Hand

end
-- ==== Proof.FrameKI.RunB.lean ====
/-
  The kernel body run at a grid point whose second coordinate is not zero: nothing is reset; the point's
  class sums and counts are computed from the three input blocks and each accumulator is stored as what
  the point before left in it plus the point's contribution.
-/
import proofs.«430275_j52776558133414_3_alg».proof.Proof.FrameKI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run when the branch is not taken: the pieces each output buffer ends with, and the proof that
    from the inputs' buffers at `x0 x1 x2` and the outputs' at their running contents `xo3 xo4 xo5` the body
    runs to its continuation with the inputs unchanged and each output's buffer with its pieces written. -/
noncomputable def kernelRun0_B (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : ¬cond0_0 i)
    (x0 : Vec F S1x14x65536 .f32) (x1 : Vec F S1x14x65536 .f32) (x2 : Vec F S1x1x65536 .i32) (xo3 : Vec F S1x14x14 .f32) (xo4 : Vec F S1x14x14 .f32) (xo5 : Vec F S1x1x14 .f32) :
    Σ' (L3 : List (View.Piece (Elt F) S1x14x14 .f32)), Σ' (L4 : List (View.Piece (Elt F) S1x14x14 .f32)), { L5 : List (View.Piece (Elt F) S1x1x14 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact H5

end Cert.KernelIdeal.Hand

end
-- ==== Proof.FrameKI.Frame.lean ====
/-
  The frame of one program. What the three accumulator buffers hold after the body at each grid point
  (`outsAt0`, by recursion on the point: at the first of a batch element's sixteen points the reset run's
  pieces, at every other point the accumulating run's pieces over what the point before left), the
  pipeline's proof data built on it, the body obligation at every point (by cases on the point's residue
  mod 16; between two points of one batch element an accumulator's buffer is not written back, so it
  still holds what the point before left), the run of @main (reshapes, region, tail) and the frame:
  every weakly fair execution terminates without fault and the three argument arrays end unchanged,
  since neither the reshapes nor the tail write them and no window stages them.
-/
import proofs.«430275_j52776558133414_3_alg».proof.Proof.FrameKI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover each output block -/

theorem cover0_A_3 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : cond0_0 i)
    (x0 : Vec F S1x14x65536 .f32) (x1 : Vec F S1x14x65536 .f32) (x2 : Vec F S1x1x65536 .i32) (y : S1x14x14.Idx) :
    ∃ pc ∈ (kernelRun0_A c i arg2 harg2 arg3 harg3 arg4 harg4 arg5 harg5 arg6 harg6 arg7 harg7 hc0 x0 x1 x2).1, y ∈ pc.1.set :=
  View.cover_of_tiledL (kernelRun0_A c i arg2 harg2 arg3 harg3 arg4 harg4 arg5 harg5 arg6 harg6 arg7 harg7 hc0 x0 x1 x2).1 S1x14x14.size (by sl_kernel_rfl) y

/-- What the run leaves in output 3's staging buffer when the branch is taken: its pieces read back. -/
def out0_A_3 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : cond0_0 i)
    (x0 : Vec F S1x14x65536 .f32) (x1 : Vec F S1x14x65536 .f32) (x2 : Vec F S1x1x65536 .i32) : Vec F S1x14x14 .f32 :=
  VO0_3.read (Elt F) (VO0_3.writes (Elt F) VO0_3.junk (kernelRun0_A c i arg2 harg2 arg3 harg3 arg4 harg4 arg5 harg5 arg6 harg6 arg7 harg7 hc0 x0 x1 x2).1)

theorem cover0_A_4 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : cond0_0 i)
    (x0 : Vec F S1x14x65536 .f32) (x1 : Vec F S1x14x65536 .f32) (x2 : Vec F S1x1x65536 .i32) (y : S1x14x14.Idx) :
    ∃ pc ∈ (kernelRun0_A c i arg2 harg2 arg3 harg3 arg4 harg4 arg5 harg5 arg6 harg6 arg7 harg7 hc0 x0 x1 x2).2.1, y ∈ pc.1.set :=
  View.cover_of_tiledL (kernelRun0_A c i arg2 harg2 arg3 harg3 arg4 harg4 arg5 harg5 arg6 harg6 arg7 harg7 hc0 x0 x1 x2).2.1 S1x14x14.size (by sl_kernel_rfl) y

/-- What the run leaves in output 4's staging buffer when the branch is taken: its pieces read back. -/
def out0_A_4 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : cond0_0 i)
    (x0 : Vec F S1x14x65536 .f32) (x1 : Vec F S1x14x65536 .f32) (x2 : Vec F S1x1x65536 .i32) : Vec F S1x14x14 .f32 :=
  VO0_4.read (Elt F) (VO0_4.writes (Elt F) VO0_4.junk (kernelRun0_A c i arg2 harg2 arg3 harg3 arg4 harg4 arg5 harg5 arg6 harg6 arg7 harg7 hc0 x0 x1 x2).2.1)

theorem cover0_A_5 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : cond0_0 i)
    (x0 : Vec F S1x14x65536 .f32) (x1 : Vec F S1x14x65536 .f32) (x2 : Vec F S1x1x65536 .i32) (y : S1x1x14.Idx) :
    ∃ pc ∈ (kernelRun0_A c i arg2 harg2 arg3 harg3 arg4 harg4 arg5 harg5 arg6 harg6 arg7 harg7 hc0 x0 x1 x2).2.2.1, y ∈ pc.1.set :=
  View.cover_of_tiledL (kernelRun0_A c i arg2 harg2 arg3 harg3 arg4 harg4 arg5 harg5 arg6 harg6 arg7 harg7 hc0 x0 x1 x2).2.2.1 S1x1x14.size (by sl_kernel_rfl) y

/-- What the run leaves in output 5's staging buffer when the branch is taken: its pieces read back. -/
def out0_A_5 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : cond0_0 i)
    (x0 : Vec F S1x14x65536 .f32) (x1 : Vec F S1x14x65536 .f32) (x2 : Vec F S1x1x65536 .i32) : Vec F S1x1x14 .f32 :=
  VO0_5.read (Elt F) (VO0_5.writes (Elt F) VO0_5.junk (kernelRun0_A c i arg2 harg2 arg3 harg3 arg4 harg4 arg5 harg5 arg6 harg6 arg7 harg7 hc0 x0 x1 x2).2.2.1)

theorem cover0_B_3 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : ¬cond0_0 i)
    (x0 : Vec F S1x14x65536 .f32) (x1 : Vec F S1x14x65536 .f32) (x2 : Vec F S1x1x65536 .i32) (xo3 : Vec F S1x14x14 .f32) (xo4 : Vec F S1x14x14 .f32) (xo5 : Vec F S1x1x14 .f32) (y : S1x14x14.Idx) :
    ∃ pc ∈ (kernelRun0_B c i arg2 harg2 arg3 harg3 arg4 harg4 arg5 harg5 arg6 harg6 arg7 harg7 hc0 x0 x1 x2 xo3 xo4 xo5).1, y ∈ pc.1.set :=
  View.cover_of_tiledL (kernelRun0_B c i arg2 harg2 arg3 harg3 arg4 harg4 arg5 harg5 arg6 harg6 arg7 harg7 hc0 x0 x1 x2 xo3 xo4 xo5).1 S1x14x14.size (by sl_kernel_rfl) y

/-- What the run leaves in output 3's staging buffer when the branch is not taken: its pieces read back. -/
def out0_B_3 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : ¬cond0_0 i)
    (x0 : Vec F S1x14x65536 .f32) (x1 : Vec F S1x14x65536 .f32) (x2 : Vec F S1x1x65536 .i32) (xo3 : Vec F S1x14x14 .f32) (xo4 : Vec F S1x14x14 .f32) (xo5 : Vec F S1x1x14 .f32) : Vec F S1x14x14 .f32 :=
  VO0_3.read (Elt F) (VO0_3.writes (Elt F) VO0_3.junk (kernelRun0_B c i arg2 harg2 arg3 harg3 arg4 harg4 arg5 harg5 arg6 harg6 arg7 harg7 hc0 x0 x1 x2 xo3 xo4 xo5).1)

theorem cover0_B_4 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : ¬cond0_0 i)
    (x0 : Vec F S1x14x65536 .f32) (x1 : Vec F S1x14x65536 .f32) (x2 : Vec F S1x1x65536 .i32) (xo3 : Vec F S1x14x14 .f32) (xo4 : Vec F S1x14x14 .f32) (xo5 : Vec F S1x1x14 .f32) (y : S1x14x14.Idx) :
    ∃ pc ∈ (kernelRun0_B c i arg2 harg2 arg3 harg3 arg4 harg4 arg5 harg5 arg6 harg6 arg7 harg7 hc0 x0 x1 x2 xo3 xo4 xo5).2.1, y ∈ pc.1.set :=
  View.cover_of_tiledL (kernelRun0_B c i arg2 harg2 arg3 harg3 arg4 harg4 arg5 harg5 arg6 harg6 arg7 harg7 hc0 x0 x1 x2 xo3 xo4 xo5).2.1 S1x14x14.size (by sl_kernel_rfl) y

/-- What the run leaves in output 4's staging buffer when the branch is not taken: its pieces read back. -/
def out0_B_4 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : ¬cond0_0 i)
    (x0 : Vec F S1x14x65536 .f32) (x1 : Vec F S1x14x65536 .f32) (x2 : Vec F S1x1x65536 .i32) (xo3 : Vec F S1x14x14 .f32) (xo4 : Vec F S1x14x14 .f32) (xo5 : Vec F S1x1x14 .f32) : Vec F S1x14x14 .f32 :=
  VO0_4.read (Elt F) (VO0_4.writes (Elt F) VO0_4.junk (kernelRun0_B c i arg2 harg2 arg3 harg3 arg4 harg4 arg5 harg5 arg6 harg6 arg7 harg7 hc0 x0 x1 x2 xo3 xo4 xo5).2.1)

theorem cover0_B_5 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : ¬cond0_0 i)
    (x0 : Vec F S1x14x65536 .f32) (x1 : Vec F S1x14x65536 .f32) (x2 : Vec F S1x1x65536 .i32) (xo3 : Vec F S1x14x14 .f32) (xo4 : Vec F S1x14x14 .f32) (xo5 : Vec F S1x1x14 .f32) (y : S1x1x14.Idx) :
    ∃ pc ∈ (kernelRun0_B c i arg2 harg2 arg3 harg3 arg4 harg4 arg5 harg5 arg6 harg6 arg7 harg7 hc0 x0 x1 x2 xo3 xo4 xo5).2.2.1, y ∈ pc.1.set :=
  View.cover_of_tiledL (kernelRun0_B c i arg2 harg2 arg3 harg3 arg4 harg4 arg5 harg5 arg6 harg6 arg7 harg7 hc0 x0 x1 x2 xo3 xo4 xo5).2.2.1 S1x1x14.size (by sl_kernel_rfl) y

/-- What the run leaves in output 5's staging buffer when the branch is not taken: its pieces read back. -/
def out0_B_5 (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : ¬cond0_0 i)
    (x0 : Vec F S1x14x65536 .f32) (x1 : Vec F S1x14x65536 .f32) (x2 : Vec F S1x1x65536 .i32) (xo3 : Vec F S1x14x14 .f32) (xo4 : Vec F S1x14x14 .f32) (xo5 : Vec F S1x1x14 .f32) : Vec F S1x1x14 .f32 :=
  VO0_5.read (Elt F) (VO0_5.writes (Elt F) VO0_5.junk (kernelRun0_B c i arg2 harg2 arg3 harg3 arg4 harg4 arg5 harg5 arg6 harg6 arg7 harg7 hc0 x0 x1 x2 xo3 xo4 xo5).2.2.1)

/-! ## What the outputs hold after each point -/

/-- The accumulation, point by point. -/
def outsAt0 (c : Dev nD) : (n : ℕ) → n < cfg0.N → Vec F S1x14x14 .f32 × Vec F S1x14x14 .f32 × Vec F S1x1x14 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 16 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2)

/-- At a point ≡ 0 mod 16: the reset run's contents. -/
theorem outsAt0_A (c : Dev nD) (t : Fin cfg0.N) (h0 : t.val % 16 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t)) := by
  obtain ⟨n, hn⟩ := t
  cases n with
  | zero => exact rfl
  | succ n => exact (dif_pos h0).trans rfl

/-- At any other point: the accumulating run's contents over what the point before left. -/
theorem outsAt0_B (c : Dev nD) (t : Fin cfg0.N) (h0 : ¬t.val % 16 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and each output's at
    `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-! At a point that is not the first of its batch element an accumulator's current staging buffer holds
    what the body left at the point before: the buffer was not written back between. -/
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]
theorem before0_4_B (c : Dev nD) (t : Fin cfg0.N) (h0 : ¬t.val % 16 = 0) (d) :
    (dats m 0 c).before 4 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]
theorem before0_5_B (c : Dev nD) (t : Fin cfg0.N) (h0 : ¬t.val % 16 = 0) (d) :
    (dats m 0 c).before 5 t d = (outsAt0 m c (t.val - 1) (Nat.lt_of_le_of_lt (Nat.sub_le _ _) t.isLt)).2.2 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' buffers hold their blocks; the point's residue mod 16 says which run
    applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 32 := lt_of_lt_of_eq t.isLt (show cfg0.N = 32 from N_0)
  by_cases h0 : t.val % 16 = 0
  · rw [outsAt0_A m c t h0]
    unfold out0_A_3 out0_A_4 out0_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t) (iblk m c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _)
  · rw [outsAt0_B m c t h0]
    simp only [before0_3_B m c t h0, before0_4_B m c t h0, before0_5_B m c t h0]
    unfold out0_B_3 out0_B_4 out0_B_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) (iblk m c 2 t) _ _ _).2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at
    what the proof data computes and every other unscoped buffer as the tail leaves it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

end Cert.KernelIdeal.Hand

end
-- ==== Proof.KDefs.lean ====
/-
  Names for the kernel's value leg at the ideal instance. At grid point `s` (batch element `s / 16`, tile
  `s % 16` of 65536 voxels) the three input blocks are `xblk`, `yblk` (the two logit volumes' tiles,
  [1, 14, 65536]) and `gblk` (the label tile, [1, 1, 65536]). `contribX s k ch` is what the point adds to
  entry (k, ch) of the first accumulator: channel `ch` summed over the tile's voxels labelled `k`;
  `contribY` the same for the second volume; `contribC s k` the number of the tile's voxels labelled `k`.
-/
import proofs.«430275_j52776558133414_3_alg».proof.Proof.FrameKI.Frame
import Idealize.ShloMosaic.PureOps.Ideal
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The three arrays the region stages, at their literal types: the two logit volumes and the labels, flattened. -/
abbrev xarr (c : Dev nD) : Vec Ideal S2x14x1048576 .f32 := V m c main_v0
abbrev yarr (c : Dev nD) : Vec Ideal S2x14x1048576 .f32 := V m c main_v1
abbrev garr (c : Dev nD) : Vec Ideal S2x1x1048576 .i32 := V m c main_v2

/-- The input blocks at a grid point, at their literal types. -/
abbrev xblk (c : Dev nD) (s : Fin cfg0.N) : Vec Ideal S1x14x65536 .f32 := iblk m c 0 s
abbrev yblk (c : Dev nD) (s : Fin cfg0.N) : Vec Ideal S1x14x65536 .f32 := iblk m c 1 s
abbrev gblk (c : Dev nD) (s : Fin cfg0.N) : Vec Ideal S1x1x65536 .i32 := iblk m c 2 s

/-- What grid point `s` adds to entry (k, ch) of the first accumulator. -/
def contribX (c : Dev nD) (s : Fin cfg0.N) (k ch : Fin 14) : EReal :=
  ∑ n : Fin 65536, if gblk m c s (ix3 (0 : Fin 1) (0 : Fin 1) n) = BitVec.ofNat 32 k.val then xblk m c s (ix3 (0 : Fin 1) ch n) else 0
/-- … of the second accumulator. -/
def contribY (c : Dev nD) (s : Fin cfg0.N) (k ch : Fin 14) : EReal :=
  ∑ n : Fin 65536, if gblk m c s (ix3 (0 : Fin 1) (0 : Fin 1) n) = BitVec.ofNat 32 k.val then yblk m c s (ix3 (0 : Fin 1) ch n) else 0
/-- … and to entry k of the count accumulator. -/
def contribC (c : Dev nD) (s : Fin cfg0.N) (k : Fin 14) : EReal :=
  ∑ n : Fin 65536, if gblk m c s (ix3 (0 : Fin 1) (0 : Fin 1) n) = BitVec.ofNat 32 k.val then (1 : EReal) else 0

/-- The points of `t`'s batch element up to `t`: those whose contributions the accumulators hold after `t`. -/
def upTo (t s : Fin cfg0.N) : Prop := t.val - t.val % 16 ≤ s.val ∧ s.val ≤ t.val
instance (t s : Fin cfg0.N) : Decidable (upTo t s) := by unfold upTo; infer_instance

end Cert.KernelIdeal.Hand

end
-- ==== Proof.Spec.lean ====
/-
  What both programs compute, as functions of three arrays: the logits of the two networks flattened to
  `[batch, class, voxel]` (2 × 14 × 1048576 extended reals) and the label volume flattened to
  `[batch, 1, voxel]` (32-bit words). `sums X G` is, for a label `k` and a logit channel `c`, the sum of
  `X[b, c, n]` over the voxels `(b, n)` whose label word is `k`; `cnts G` counts those voxels. A voxel whose
  label word is none of 0 … 13 contributes to no class.
-/
import Idealize.ShloMosaic.PureOps.Ideal
import Idealize.ShloMosaic.Lib.ValueIdx
import Idealize.ShloMosaic.Lib.Pipeline.Value

noncomputable section

namespace Cert.Spec

open Idealize.ShloMosaic Idealize.ShloMosaic.ValueIdx

abbrev SX : Shape := ⟨3, ![2, 14, 1048576]⟩
abbrev SG : Shape := ⟨3, ![2, 1, 1048576]⟩
abbrev SM : Shape := ⟨2, ![14, 14]⟩
abbrev AX : Shape := ⟨5, ![2, 14, 64, 128, 128]⟩
abbrev AG : Shape := ⟨5, ![2, 1, 64, 128, 128]⟩
abbrev SC : Shape := ⟨1, ![14]⟩

theorem castX : AX.ShapeCasts SX := by decide
theorem castG : AG.ShapeCasts SG := by decide

/-- A logits argument `[2, 14, 64, 128, 128]` with its three spatial axes flattened row-major into one. -/
def X3 (a : AX.Idx → EReal) : SX.Idx → EReal := shapeCast SX a castX
/-- The label argument `[2, 1, 64, 128, 128]` flattened the same way. -/
def G3 (g : AG.Idx → BitVec 32) : SG.Idx → BitVec 32 := shapeCast SG g castG

/-- Class sums: entry `(k, c)` adds channel `c` of every voxel labelled `k`. -/
def sums (X : SX.Idx → EReal) (G : SG.Idx → BitVec 32) : SM.Idx → EReal :=
  fun j => ∑ b : Fin 2, ∑ n : Fin 1048576,
    if G (ix3 b (0 : Fin 1) n) = BitVec.ofNat 32 (j 0).val then X (ix3 b (j 1) n) else 0

/-- Class counts: entry `k` counts the voxels labelled `k`. -/
def cnts (G : SG.Idx → BitVec 32) : SC.Idx → EReal :=
  fun j => ∑ b : Fin 2, ∑ n : Fin 1048576,
    if G (ix3 b (0 : Fin 1) n) = BitVec.ofNat 32 (j 0).val then (1 : EReal) else 0

end Cert.Spec

end
-- ==== Proof.KArgs.lean ====
/-
  The kernel's host side at the ideal instance. The three arrays the region stages are the flattened
  arguments (the three reshapes before the region); and since a flattening only re-indexes and a block only
  selects, real entries of an argument give real entries of its flattened array and of every block of it.
-/
import proofs.«430275_j52776558133414_3_alg».proof.Proof.KDefs
import proofs.«430275_j52776558133414_3_alg».proof.Proof.Spec
import Idealize.ShloMosaic.Lib.StableHlo.Run
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The first staged array is the first argument with its spatial axes flattened. -/
theorem xarr_eq (c : Dev nD) : xarr m c = Cert.Spec.X3 (m ((c.tc : Thread nD τ).loc main_arg0)) := by
  show StableHlo.after (List.flatten [hostOps0]) (fun b => m (c, b)) (Proc.devRef .tc main_v0) = _
  simp only [hostOps0, List.flatten_cons, List.flatten_nil, List.append_nil]
  after_results; rfl
/-- The second staged array is the third argument flattened. -/
theorem yarr_eq (c : Dev nD) : yarr m c = Cert.Spec.X3 (m ((c.tc : Thread nD τ).loc main_arg2)) := by
  show StableHlo.after (List.flatten [hostOps0]) (fun b => m (c, b)) (Proc.devRef .tc main_v1) = _
  simp only [hostOps0, List.flatten_cons, List.flatten_nil, List.append_nil]
  after_results; rfl
/-- The third staged array is the label argument flattened. -/
theorem garr_eq (c : Dev nD) : garr m c = Cert.Spec.G3 (m ((c.tc : Thread nD τ).loc main_arg1)) := by
  show StableHlo.after (List.flatten [hostOps0]) (fun b => m (c, b)) (Proc.devRef .tc main_v2) = _
  simp only [hostOps0, List.flatten_cons, List.flatten_nil, List.append_nil]
  after_results; rfl

/-- Real entries of a logits argument give real entries of its flattening. -/
theorem X3_fin (a : Cert.Spec.AX.Idx → EReal) (h : ∀ i, ∃ r : ℝ, a i = (r : EReal)) (j : Cert.Spec.SX.Idx) :
    ∃ r : ℝ, Cert.Spec.X3 a j = (r : EReal) := by
  unfold Cert.Spec.X3 shapeCast
  exact h _

/-- … and of every block of the staged array. -/
theorem xblk_fin (c : Dev nD) (h : ∀ i, ∃ r : ℝ, (m ((c.tc : Thread nD τ).loc main_arg0)) i = (r : EReal)) (s : Fin cfg0.N) (i) :
    ∃ r : ℝ, xblk m c s i = (r : EReal) := by
  have hx : ∀ j, ∃ r : ℝ, xarr m c j = (r : EReal) := by rw [xarr_eq]; exact X3_fin _ h
  exact hx (((cfg0.win 0).blk s).view.emb i)
theorem yblk_fin (c : Dev nD) (h : ∀ i, ∃ r : ℝ, (m ((c.tc : Thread nD τ).loc main_arg2)) i = (r : EReal)) (s : Fin cfg0.N) (i) :
    ∃ r : ℝ, yblk m c s i = (r : EReal) := by
  have hy : ∀ j, ∃ r : ℝ, yarr m c j = (r : EReal) := by rw [yarr_eq]; exact X3_fin _ h
  exact hy (((cfg0.win 1).blk s).view.emb i)

end Cert.KernelIdeal.Hand

end
-- ==== Proof.FrameKI.Args.lean ====
/-
  The arguments end unchanged. Neither the three reshapes before the region nor any of the 69 operations
  after it writes an argument's buffer, and no window of the pipeline stages one; so the frame run's post,
  read at the three arguments, is the frame claim's.
-/
import proofs.«430275_j52776558133414_3_alg».proof.Proof.FrameKI.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The reshapes write no argument. -/
theorem V0_arg0 (c : Dev nD) : V0 m c (Proc.devRef .tc main_arg0) = m ((c.tc : Thread nD τ).loc main_arg0) := by
  show StableHlo.after (List.flatten [hostOps0]) (fun b => m (c, b)) (Proc.devRef .tc main_arg0) = _
  simp only [hostOps0, List.flatten_cons, List.flatten_nil, List.append_nil]
  after_results
theorem V0_arg1 (c : Dev nD) : V0 m c (Proc.devRef .tc main_arg1) = m ((c.tc : Thread nD τ).loc main_arg1) := by
  show StableHlo.after (List.flatten [hostOps0]) (fun b => m (c, b)) (Proc.devRef .tc main_arg1) = _
  simp only [hostOps0, List.flatten_cons, List.flatten_nil, List.append_nil]
  after_results
theorem V0_arg2 (c : Dev nD) : V0 m c (Proc.devRef .tc main_arg2) = m ((c.tc : Thread nD τ).loc main_arg2) := by
  show StableHlo.after (List.flatten [hostOps0]) (fun b => m (c, b)) (Proc.devRef .tc main_arg2) = _
  simp only [hostOps0, List.flatten_cons, List.flatten_nil, List.append_nil]
  after_results

/-! Nor does the tail: from any contents `W` an argument's buffer ends as `W` has it. -/
theorem tail_arg0 (W : Valuation τ sig (Elt F)) :
    StableHlo.after (List.flatten (tailOps (F := F))) W (Proc.devRef .tc main_arg0) = W (Proc.devRef .tc main_arg0) := by
  simp only [tailOps, hostOps1, hostOps1_1, hostOps1_2, hostOps1_3, hostOps1_4, List.flatten_cons, List.flatten_nil, List.append_nil, List.cons_append, List.nil_append]
  after_results_simp <;> rfl
theorem tail_arg1 (W : Valuation τ sig (Elt F)) :
    StableHlo.after (List.flatten (tailOps (F := F))) W (Proc.devRef .tc main_arg1) = W (Proc.devRef .tc main_arg1) := by
  simp only [tailOps, hostOps1, hostOps1_1, hostOps1_2, hostOps1_3, hostOps1_4, List.flatten_cons, List.flatten_nil, List.append_nil, List.cons_append, List.nil_append]
  after_results_simp <;> rfl
theorem tail_arg2 (W : Valuation τ sig (Elt F)) :
    StableHlo.after (List.flatten (tailOps (F := F))) W (Proc.devRef .tc main_arg2) = W (Proc.devRef .tc main_arg2) := by
  simp only [tailOps, hostOps1, hostOps1_1, hostOps1_2, hostOps1_3, hostOps1_4, List.flatten_cons, List.flatten_nil, List.append_nil, List.cons_append, List.nil_append]
  after_results_simp <;> rfl

/-! So after the tail an argument's buffer holds its launch contents. -/
theorem afterTail_arg0 (c : Dev nD) : Pipeline.afterTail₀ cfgs (dats m) 0 (V0 m) tailOps c main_arg0 = m ((c.tc : Thread nD τ).loc main_arg0) := by
  unfold Pipeline.afterTail₀
  rw [tail_arg0, Pipeline.withArrays_of_ne spec0 c (V0 m c) _ main_arg0 (by decide), V0_arg0]
theorem afterTail_arg1 (c : Dev nD) : Pipeline.afterTail₀ cfgs (dats m) 0 (V0 m) tailOps c main_arg1 = m ((c.tc : Thread nD τ).loc main_arg1) := by
  unfold Pipeline.afterTail₀
  rw [tail_arg1, Pipeline.withArrays_of_ne spec0 c (V0 m c) _ main_arg1 (by decide), V0_arg1]
theorem afterTail_arg2 (c : Dev nD) : Pipeline.afterTail₀ cfgs (dats m) 0 (V0 m) tailOps c main_arg2 = m ((c.tc : Thread nD τ).loc main_arg2) := by
  unfold Pipeline.afterTail₀
  rw [tail_arg2, Pipeline.withArrays_of_ne spec0 c (V0 m c) _ main_arg2 (by decide), V0_arg2]

/-- THE FRAME: every weakly fair execution of @main terminates without fault and the three arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (afterTail_arg0 m c),
     ((h c).2 main_arg1 (Pipeline.mem_restRefs_of main_arg1 (by decide) (by decide))).trans (afterTail_arg1 m c),
     ((h c).2 main_arg2 (Pipeline.mem_restRefs_of main_arg2 (by decide) (by decide))).trans (afterTail_arg2 m c)⟩)
    (run_main m ρ)

end Cert.KernelIdeal.Hand

end
-- ==== Proof.KPay.lean ====
import proofs.«430275_j52776558133414_3_alg».proof.Proof.Gen.KernelIdeal.Skeleton
import Idealize.ShloMosaic.Lib.ValueLayout
import Idealize.ShloMosaic.PureOps.Ideal.Laws

/-!
# One grid point's contribution to the three accumulators, index by index

The body of the kernel adds, at each grid point, to three running accumulators:
for each class label `k` and channel `c`, the sum over the block's voxels labelled `k` of
channel `c` of each of the two logit volumes, and for each label `k` the number of such voxels.
It does so with a one-hot selector `onehot (k, n) = [label n = k]` (as a float, `1` or `0`) and the
products `onehot · xᵀ`; the second product, of `onehot` with `x − x`, vanishes as soon as every
entry of `x` is a real number. Everything here is read at the ideal instance, where a float is an
extended real and a change of format is the identity.
-/

noncomputable section

namespace Cert.KernelIdeal.Hand

open Cert.KernelIdeal Cert.KernelIdeal.Gen Idealize.ShloMosaic Idealize.ShloMosaic.ValueIdx
open scoped BigOperators

variable [Cert.KernelIdeal.Facts]
open Facts₀ Facts

/-! ## Layout operations at an index: the forms the selector and the count accumulator need -/

section Layout
variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add, Nat.add_zero])

/-- An `[a]` array cast to `[1, 1, a]` reads, at `(u, v, i)`, the operand at `i`, whatever the unit coordinates. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp only [Nat.zero_mul, Nat.zero_add, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The row counter of a `[14, 1]` column: at row `k` the word `k`. -/
theorem iota_rows_apply (h : S14x1.Iotas .tc 32 [0]) (k : Fin 14) (u : Fin 1) :
    iota .tc S14x1 32 [0] h (ix2 k u) = BitVec.ofNat 32 k.val := by
  show BitVec.ofNat 32 (0 * 14 + k.val) = _
  rw [Nat.zero_mul, Nat.zero_add]

/-! ## The one-hot selector -/

/-- The float of the widened bit "`a` equals `b`": `1` when the words agree, `0` otherwise. -/
theorem sitofp_extui_cmpi_eq (a b : BitVec 32) :
    (FloatOps.sitofp .f32 ((IntOp.cmpi .eq a b).setWidth 32) : Ideal .f32) = if b = a then 1 else 0 := by
  by_cases h : b = a
  · subst h
    rw [if_pos rfl]
    show ((((BitVec.ofBool (b == b)).setWidth 32).toInt : ℝ) : EReal) = 1
    rw [beq_self_eq_true]
    have e : ((BitVec.ofBool true).setWidth 32).toInt = 1 := by decide
    rw [e, Int.cast_one, EReal.coe_one]
  · rw [if_neg h]
    have hb : (a == b) = false := beq_eq_false_iff_ne.mpr fun e => h e.symm
    show ((((BitVec.ofBool (a == b)).setWidth 32).toInt : ℝ) : EReal) = 0
    rw [hb]
    have e : ((BitVec.ofBool false).setWidth 32).toInt = 0 := by decide
    rw [e, Int.cast_zero, EReal.coe_zero]

/-- The selector's entry at label `k` and voxel `n`: `1` when the voxel's label word is `k`, else `0`. -/
theorem onehot_apply (x2 : Vec Ideal S1x1x65536 .i32) (k : Fin 14) (n : Fin 65536) :
    k0_pay7 (F := Ideal) x2 (ix2 k n)
      = if x2 (ix3 (0 : Fin 1) (0 : Fin 1) n) = BitVec.ofNat 32 k.val then 1 else 0 := by
  unfold k0_pay7
  rw [sitofp_apply, extui_apply]
  show FloatOps.sitofp .f32 ((IntOp.cmpi .eq (broadcastTo S14x65536 _ _ (ix2 k n)) (broadcastTo S14x65536 _ _ (ix2 k n))).setWidth 32) = _
  rw [broadcastTo_a1_ab_apply, broadcastTo_1b_ab_apply, iota_rows_apply, shapeCast_a_1a_apply, shapeCast_11a_a_apply]
  exact sitofp_extui_cmpi_eq _ _

/-- The selector in the narrow format is the selector: a change of format is the identity. -/
theorem onehot_bf16_apply (x2 : Vec Ideal S1x1x65536 .i32) (k : Fin 14) (n : Fin 65536) :
    k0_pay8 (F := Ideal) x2 (ix2 k n)
      = if x2 (ix3 (0 : Fin 1) (0 : Fin 1) n) = BitVec.ofNat 32 k.val then 1 else 0 := by
  unfold k0_pay8
  rw [truncf_apply, onehot_apply]

/-! ## The matrix product at an index

The product contracts the voxel axis of both operands: entry `(k, c)` of the result is the sum over
voxels `n` of `lhs (k, n) · rhs (c, n)`. Four facts say which coordinate of each operand an axis reads. -/

theorem lhs_mm_0 (i : S14x14.Idx) (q : dot_S14x65536_S14x65536_S14x14_1_1_0_0_n_n.contr.Idx) :
    (dot_S14x65536_S14x65536_S14x14_1_1_0_0_n_n.lhsIdx i q 0).val = (i 0).val := by
  unfold DotDims.lhsIdx
  rw [dif_neg (show ¬(0 : Fin S14x65536.rank) ∈ dot_S14x65536_S14x65536_S14x14_1_1_0_0_n_n.lhsBatch by decide),
    dif_pos (show (0 : Fin S14x65536.rank) ∈ dot_S14x65536_S14x65536_S14x14_1_1_0_0_n_n.lhsNonContracting by decide)]
  rfl

theorem lhs_mm_1 (i : S14x14.Idx) (q : dot_S14x65536_S14x65536_S14x14_1_1_0_0_n_n.contr.Idx) :
    (dot_S14x65536_S14x65536_S14x14_1_1_0_0_n_n.lhsIdx i q 1).val = (q ⟨0, by decide⟩).val :=
  dot_S14x65536_S14x65536_S14x14_1_1_0_0_n_n.lhsIdx_val_of_single rfl i q

theorem rhs_mm_0 (i : S14x14.Idx) (q : dot_S14x65536_S14x65536_S14x14_1_1_0_0_n_n.contr.Idx) :
    (dot_S14x65536_S14x65536_S14x14_1_1_0_0_n_n.rhsIdx i q 0).val = (i 1).val := by
  unfold DotDims.rhsIdx
  rw [dif_neg (show ¬(0 : Fin S14x65536.rank) ∈ dot_S14x65536_S14x65536_S14x14_1_1_0_0_n_n.rhsBatch by decide),
    dif_pos (show (0 : Fin S14x65536.rank) ∈ dot_S14x65536_S14x65536_S14x14_1_1_0_0_n_n.rhsNonContracting by decide)]
  rfl

theorem rhs_mm_1 (i : S14x14.Idx) (q : dot_S14x65536_S14x65536_S14x14_1_1_0_0_n_n.contr.Idx) :
    (dot_S14x65536_S14x65536_S14x14_1_1_0_0_n_n.rhsIdx i q 1).val = (q ⟨0, by decide⟩).val :=
  dot_S14x65536_S14x65536_S14x14_1_1_0_0_n_n.rhsIdx_val_of_single rfl i q

/-- The product into a zero accumulator, at `(k, c)`: the sum over voxels of the operands' products. -/
theorem mm_apply (A B : FVec Ideal S14x65536 .bf16) (k c : Fin 14) :
    matmul dot_S14x65536_S14x65536_S14x14_1_1_0_0_n_n none A B (constant (F := Ideal) S14x14 .f32 0x00000000#32) (ix2 k c)
      = ∑ n : Fin 65536, A (ix2 k n) * B (ix2 c n) := by
  simp only [matmul]
  rw [Ideal.matmul_constant_zero_apply,
    ← Equiv.sum_comp (contrEquiv1 dot_S14x65536_S14x65536_S14x14_1_1_0_0_n_n 65536 rfl rfl).symm]
  refine Finset.sum_congr rfl fun n _ => ?_
  have hk := contrEquiv1_symm_val dot_S14x65536_S14x65536_S14x14_1_1_0_0_n_n 65536 rfl rfl n
  have el : dot_S14x65536_S14x65536_S14x14_1_1_0_0_n_n.lhsIdx (ix2 k c)
      ((contrEquiv1 dot_S14x65536_S14x65536_S14x14_1_1_0_0_n_n 65536 rfl rfl).symm n) = ix2 k n :=
    funext fun a => Fin.ext (by
      match a with
      | ⟨0, _⟩ => exact lhs_mm_0 _ _
      | ⟨1, _⟩ => exact (lhs_mm_1 _ _).trans hk)
  have er : dot_S14x65536_S14x65536_S14x14_1_1_0_0_n_n.rhsIdx (ix2 k c)
      ((contrEquiv1 dot_S14x65536_S14x65536_S14x14_1_1_0_0_n_n 65536 rfl rfl).symm n) = ix2 c n :=
    funext fun a => Fin.ext (by
      match a with
      | ⟨0, _⟩ => exact rhs_mm_0 _ _
      | ⟨1, _⟩ => exact (rhs_mm_1 _ _).trans hk)
  rw [el, er]

/-- The selector times a matrix, at `(k, c)`: the sum of the matrix's row `c` over the voxels labelled `k`. -/
theorem sel_mm_apply (x2 : Vec Ideal S1x1x65536 .i32) (B : FVec Ideal S14x65536 .bf16) (k c : Fin 14) :
    matmul dot_S14x65536_S14x65536_S14x14_1_1_0_0_n_n none (k0_pay8 (F := Ideal) x2) B
        (constant (F := Ideal) S14x14 .f32 0x00000000#32) (ix2 k c)
      = ∑ n : Fin 65536, if x2 (ix3 (0 : Fin 1) (0 : Fin 1) n) = BitVec.ofNat 32 k.val then B (ix2 c n) else 0 := by
  rw [mm_apply]
  refine Finset.sum_congr rfl fun n _ => ?_
  rw [onehot_bf16_apply, ite_mul, one_mul, zero_mul]

/-! ## The two products of a block, added

The body multiplies the selector with the block `x` and with `x − x`, and adds the two results. With
every entry of `x` a real number the second product is a sum of zeros. -/

/-- At `(k, c)`: the sum of channel `c` of the block over its voxels labelled `k`. -/
theorem two_mm_apply (x : Vec Ideal S1x14x65536 .f32) (x2 : Vec Ideal S1x1x65536 .i32)
    (hfin : ∀ i, ∃ r : ℝ, x i = (r : EReal))
    (h : S1x14x65536.ShapeCasts S14x65536) (hb : FTy.bits .bf16 < FTy.bits .f32) (k c : Fin 14) :
    addf
        (matmul dot_S14x65536_S14x65536_S14x14_1_1_0_0_n_n none (k0_pay8 (F := Ideal) x2)
          (truncf .bf16 (shapeCast S14x65536 x h) hb) (constant (F := Ideal) S14x14 .f32 0x00000000#32))
        (matmul dot_S14x65536_S14x65536_S14x14_1_1_0_0_n_n none (k0_pay8 (F := Ideal) x2)
          (truncf .bf16 (subf (shapeCast S14x65536 x h) (shapeCast S14x65536 x h)) hb)
          (constant (F := Ideal) S14x14 .f32 0x00000000#32))
        (ix2 k c)
      = ∑ n : Fin 65536, if x2 (ix3 (0 : Fin 1) (0 : Fin 1) n) = BitVec.ofNat 32 k.val
          then x (ix3 (0 : Fin 1) c n) else 0 := by
  rw [addf_apply, sel_mm_apply, sel_mm_apply]
  have h2 : (∑ n : Fin 65536, if x2 (ix3 (0 : Fin 1) (0 : Fin 1) n) = BitVec.ofNat 32 k.val
      then (truncf .bf16 (subf (shapeCast S14x65536 x h) (shapeCast S14x65536 x h)) hb : FVec Ideal S14x65536 .bf16) (ix2 c n)
      else 0) = 0 :=
    Finset.sum_eq_zero fun n _ => by
      rw [truncf_apply, subf_apply, shapeCast_1ab_ab_apply]
      obtain ⟨r, hr⟩ := hfin (ix3 (0 : Fin 1) c n)
      rw [hr, ← EReal.coe_sub, sub_self, EReal.coe_zero, ite_self]
  rw [h2, add_zero]
  refine Finset.sum_congr rfl fun n _ => ?_
  rw [truncf_apply, shapeCast_1ab_ab_apply]

/-! ## What the reset stores -/

/-- The reset stores zeros. -/
theorem pay4_apply (j : S1x14x14.Idx) : k0_pay4 (F := Ideal) j = 0 := by
  unfold k0_pay4
  show Ideal.ofBits .f32 0x00000000#32 = 0
  exact Ideal.ofBits_zero_f32

theorem pay5_apply (j : S1x14x14.Idx) : k0_pay5 (F := Ideal) j = 0 := by
  unfold k0_pay5
  show Ideal.ofBits .f32 0x00000000#32 = 0
  exact Ideal.ofBits_zero_f32

theorem pay6_apply (j : S1x1x14.Idx) : k0_pay6 (F := Ideal) j = 0 := by
  unfold k0_pay6
  show Ideal.ofBits .f32 0x00000000#32 = 0
  exact Ideal.ofBits_zero_f32

/-! ## What one grid point stores in the three accumulators -/

/-- What the first accumulator is stored as: its running contents plus the sum, over the block's voxels labelled
    `k`, of channel `c`. Needs the block's entries real. -/
theorem pay1_apply (x0 : Vec Ideal S1x14x65536 .f32) (x2 : Vec Ideal S1x1x65536 .i32) (old : Vec Ideal S1x14x14 .f32)
    (hfin : ∀ i, ∃ r : ℝ, x0 i = (r : EReal)) (k c : Fin 14) :
    k0_pay1 (F := Ideal) (k0_pay11 (F := Ideal) x0 x2 old) (ix3 (0 : Fin 1) k c)
      = old (ix3 (0 : Fin 1) k c) + ∑ n : Fin 65536, if x2 (ix3 (0 : Fin 1) (0 : Fin 1) n) = BitVec.ofNat 32 k.val then x0 (ix3 (0 : Fin 1) c n) else 0 := by
  unfold k0_pay1 k0_pay11
  rw [shapeCast_ab_1ab_apply, addf_apply, shapeCast_1ab_ab_apply, two_mm_apply x0 x2 hfin]

/-- The same for the second accumulator. -/
theorem pay2_apply (x1 : Vec Ideal S1x14x65536 .f32) (x2 : Vec Ideal S1x1x65536 .i32) (old : Vec Ideal S1x14x14 .f32)
    (hfin : ∀ i, ∃ r : ℝ, x1 i = (r : EReal)) (k c : Fin 14) :
    k0_pay2 (F := Ideal) (k0_pay9 (F := Ideal) x1 x2) old (ix3 (0 : Fin 1) k c)
      = old (ix3 (0 : Fin 1) k c) + ∑ n : Fin 65536, if x2 (ix3 (0 : Fin 1) (0 : Fin 1) n) = BitVec.ofNat 32 k.val then x1 (ix3 (0 : Fin 1) c n) else 0 := by
  unfold k0_pay2 k0_pay9
  rw [shapeCast_ab_1ab_apply, addf_apply, shapeCast_1ab_ab_apply, two_mm_apply x1 x2 hfin]

/-- The selector summed over the voxel axis, at label `k`: the number of the block's voxels labelled `k`. -/
theorem pay10_apply (x2 : Vec Ideal S1x1x65536 .i32) (k : Fin 14) :
    k0_pay10 (F := Ideal) x2 (ix1 k)
      = ∑ n : Fin 65536, if x2 (ix3 (0 : Fin 1) (0 : Fin 1) n) = BitVec.ofNat 32 k.val then (1 : EReal) else 0 := by
  unfold k0_pay10
  have e : ∀ n : Fin 65536, Shape.Reduces.lift Gen.reduces_S14x65536_S14 (ix1 k) n = ix2 k n := fun n =>
    funext fun a => Fin.ext (by
      match a with
      | ⟨0, _⟩ => rfl
      | ⟨1, _⟩ => rfl)
  refine (Ideal.multiReduction_add_single (k0_pay7 (F := Ideal) x2) 0x00000000#32 _ _ _ (ix1 k)).trans ?_
  show ∑ n : Fin 65536, k0_pay7 (F := Ideal) x2 (Shape.Reduces.lift Gen.reduces_S14x65536_S14 (ix1 k) n) = _
  refine Finset.sum_congr rfl fun n _ => ?_
  rw [e n, onehot_apply]

/-- The count accumulator: its running contents plus the number of the block's voxels labelled `k`. -/
theorem pay3_apply (x2 : Vec Ideal S1x1x65536 .i32) (old : Vec Ideal S1x1x14 .f32) (k : Fin 14) :
    k0_pay3 (F := Ideal) (k0_pay10 (F := Ideal) x2) old (ix3 (0 : Fin 1) (0 : Fin 1) k)
      = old (ix3 (0 : Fin 1) (0 : Fin 1) k) + ∑ n : Fin 65536, if x2 (ix3 (0 : Fin 1) (0 : Fin 1) n) = BitVec.ofNat 32 k.val then (1 : EReal) else 0 := by
  unfold k0_pay3
  rw [shapeCast_a_11a_apply, addf_apply, shapeCast_11a_a_apply, pay10_apply]

end Cert.KernelIdeal.Hand

end
-- ==== Proof.KAccum.lean ====
/-
  The accumulation invariant of the kernel at the ideal instance.

  The body keeps three accumulators across the sixteen points of a batch element: entry (k, ch) of the
  first holds the sum of channel ch of the first logit volume over the voxels labelled k, the second the
  same for the second volume, and entry k of the third the number of voxels labelled k. At the first
  point of a batch element (t ≡ 0 mod 16) each accumulator is overwritten with zeros, read back, and
  stored again as zero plus the point's contribution; at every other point it is stored as what the
  point before left plus the point's contribution.

  First, what each of the two runs leaves in each accumulator, as a payload of the point's three input
  blocks (and, away from a batch element's first point, of the accumulator's earlier contents): each
  buffer's last store covers it, through the whole-shape rectangle at zero offsets, and the loads read
  whole buffers, so the contents are that store's payload; in the reset run the load of the accumulator
  reads back the zeros just stored.

  Then the sum over the points of a batch element up to t: at the first point only t itself is counted,
  at any other point the points counted at t − 1 and t itself.

  Then the invariant, by induction on the point: after point t each accumulator holds, entry by entry,
  the sum of the contributions of the points s of t's batch element with s ≤ t.
-/
import proofs.«430275_j52776558133414_3_alg».proof.Proof.KDefs
import proofs.«430275_j52776558133414_3_alg».proof.Proof.KPay
import Idealize.ShloMosaic.Lib.Pipeline.Value
import Idealize.ShloMosaic.Lib.Tactic
import Mathlib.Algebra.BigOperators.Group.Finset.Basic
import Mathlib.Algebra.BigOperators.Group.Finset.Piecewise
import Mathlib.Data.EReal.Basic

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem

section pieces
variable {F : FTy → Type} [FloatOps F]

/-- The zero offsets of a rank-3 whole-buffer access, however spelt. -/
theorem hzAcc : (![0, 0, 0] : Fin 3 → Nat) = fun _ => 0 := funext fun a => by fin_cases a <;> rfl

/-! ## What each run leaves in each accumulator -/

theorem out0_A_3_eq (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : cond0_0 i)
    (x0 : Vec F S1x14x65536 .f32) (x1 : Vec F S1x14x65536 .f32) (x2 : Vec F S1x1x65536 .i32) :
    out0_A_3 c i arg2 harg2 arg3 harg3 arg4 harg4 arg5 harg5 arg6 harg6 arg7 harg7 hc0 x0 x1 x2 = k0_pay1 (k0_pay11 x0 x2 (k0_pay4 (F := F))) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_cons_unit_zero (S := S1x14x14) hzAcc]
  simp only [View.readAt_eq_ld, harg2.read_unread, harg3.read_unread, harg4.read_unread, harg5.read_unread, harg6.read_unread, harg7.read_unread,
    View.ld_unit_zero (S := S1x14x65536) hzAcc, View.ld_unit_zero (S := S1x1x65536) hzAcc, View.ld_unit_zero (S := S1x14x14) hzAcc, View.ld_unit_zero (S := S1x1x14) hzAcc,
    View.readCov_unit_zero (S := S1x14x14) _ hzAcc]

theorem out0_A_4_eq (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : cond0_0 i)
    (x0 : Vec F S1x14x65536 .f32) (x1 : Vec F S1x14x65536 .f32) (x2 : Vec F S1x1x65536 .i32) :
    out0_A_4 c i arg2 harg2 arg3 harg3 arg4 harg4 arg5 harg5 arg6 harg6 arg7 harg7 hc0 x0 x1 x2 = k0_pay2 (k0_pay9 x1 x2) (k0_pay5 (F := F)) := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero (S := S1x14x14) hzAcc]
  simp only [View.readAt_eq_ld, harg2.read_unread, harg3.read_unread, harg4.read_unread, harg5.read_unread, harg6.read_unread, harg7.read_unread,
    View.ld_unit_zero (S := S1x14x65536) hzAcc, View.ld_unit_zero (S := S1x1x65536) hzAcc, View.ld_unit_zero (S := S1x14x14) hzAcc, View.ld_unit_zero (S := S1x1x14) hzAcc,
    View.readCov_unit_zero (S := S1x14x14) _ hzAcc]

theorem out0_A_5_eq (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : cond0_0 i)
    (x0 : Vec F S1x14x65536 .f32) (x1 : Vec F S1x14x65536 .f32) (x2 : Vec F S1x1x65536 .i32) :
    out0_A_5 c i arg2 harg2 arg3 harg3 arg4 harg4 arg5 harg5 arg6 harg6 arg7 harg7 hc0 x0 x1 x2 = k0_pay3 (k0_pay10 x2) (k0_pay6 (F := F)) := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  rw [View.canon_cons_unit_zero (S := S1x1x14) hzAcc]
  simp only [View.readAt_eq_ld, harg2.read_unread, harg3.read_unread, harg4.read_unread, harg5.read_unread, harg6.read_unread, harg7.read_unread,
    View.ld_unit_zero (S := S1x14x65536) hzAcc, View.ld_unit_zero (S := S1x1x65536) hzAcc, View.ld_unit_zero (S := S1x14x14) hzAcc, View.ld_unit_zero (S := S1x1x14) hzAcc,
    View.readCov_unit_zero (S := S1x1x14) _ hzAcc]

theorem out0_B_3_eq (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : ¬cond0_0 i)
    (x0 : Vec F S1x14x65536 .f32) (x1 : Vec F S1x14x65536 .f32) (x2 : Vec F S1x1x65536 .i32) (xo3 : Vec F S1x14x14 .f32) (xo4 : Vec F S1x14x14 .f32) (xo5 : Vec F S1x1x14 .f32) :
    out0_B_3 c i arg2 harg2 arg3 harg3 arg4 harg4 arg5 harg5 arg6 harg6 arg7 harg7 hc0 x0 x1 x2 xo3 xo4 xo5 = k0_pay1 (k0_pay11 x0 x2 xo3) := by
  unfold out0_B_3
  rw [View.read_writes_eq_canon _ _ _ (cover0_B_3 c i arg2 harg2 arg3 harg3 arg4 harg4 arg5 harg5 arg6 harg6 arg7 harg7 hc0 x0 x1 x2 xo3 xo4 xo5)]
  unfold kernelRun0_B
  dsimp only
  sl_unfold_words
  rw [View.canon_unit_zero (S := S1x14x14) hzAcc]
  simp only [View.readAt_eq_ld, harg2.read_unread, harg3.read_unread, harg4.read_unread, harg5.read_unread, harg6.read_unread, harg7.read_unread,
    View.ld_unit_zero (S := S1x14x65536) hzAcc, View.ld_unit_zero (S := S1x1x65536) hzAcc, View.ld_unit_zero (S := S1x14x14) hzAcc, View.ld_unit_zero (S := S1x1x14) hzAcc]

theorem out0_B_4_eq (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : ¬cond0_0 i)
    (x0 : Vec F S1x14x65536 .f32) (x1 : Vec F S1x14x65536 .f32) (x2 : Vec F S1x1x65536 .i32) (xo3 : Vec F S1x14x14 .f32) (xo4 : Vec F S1x14x14 .f32) (xo5 : Vec F S1x1x14 .f32) :
    out0_B_4 c i arg2 harg2 arg3 harg3 arg4 harg4 arg5 harg5 arg6 harg6 arg7 harg7 hc0 x0 x1 x2 xo3 xo4 xo5 = k0_pay2 (k0_pay9 x1 x2) xo4 := by
  unfold out0_B_4
  rw [View.read_writes_eq_canon _ _ _ (cover0_B_4 c i arg2 harg2 arg3 harg3 arg4 harg4 arg5 harg5 arg6 harg6 arg7 harg7 hc0 x0 x1 x2 xo3 xo4 xo5)]
  unfold kernelRun0_B
  dsimp only
  sl_unfold_words
  rw [View.canon_unit_zero (S := S1x14x14) hzAcc]
  simp only [View.readAt_eq_ld, harg2.read_unread, harg3.read_unread, harg4.read_unread, harg5.read_unread, harg6.read_unread, harg7.read_unread,
    View.ld_unit_zero (S := S1x14x65536) hzAcc, View.ld_unit_zero (S := S1x1x65536) hzAcc, View.ld_unit_zero (S := S1x14x14) hzAcc, View.ld_unit_zero (S := S1x1x14) hzAcc]

theorem out0_B_5_eq (c : Dev nD) (i : grid0.Coords) (arg2 : Memref sig .tc .vmem S1x14x65536 .f32) (harg2 : arg2.IsWhole) (arg3 : Memref sig .tc .vmem S1x14x65536 .f32) (harg3 : arg3.IsWhole) (arg4 : Memref sig .tc .vmem S1x1x65536 .i32) (harg4 : arg4.IsWhole) (arg5 : Memref sig .tc .vmem S1x14x14 .f32) (harg5 : arg5.IsWhole) (arg6 : Memref sig .tc .vmem S1x14x14 .f32) (harg6 : arg6.IsWhole) (arg7 : Memref sig .tc .vmem S1x1x14 .f32) (harg7 : arg7.IsWhole) (hc0 : ¬cond0_0 i)
    (x0 : Vec F S1x14x65536 .f32) (x1 : Vec F S1x14x65536 .f32) (x2 : Vec F S1x1x65536 .i32) (xo3 : Vec F S1x14x14 .f32) (xo4 : Vec F S1x14x14 .f32) (xo5 : Vec F S1x1x14 .f32) :
    out0_B_5 c i arg2 harg2 arg3 harg3 arg4 harg4 arg5 harg5 arg6 harg6 arg7 harg7 hc0 x0 x1 x2 xo3 xo4 xo5 = k0_pay3 (k0_pay10 x2) xo5 := by
  unfold out0_B_5
  rw [View.read_writes_eq_canon _ _ _ (cover0_B_5 c i arg2 harg2 arg3 harg3 arg4 harg4 arg5 harg5 arg6 harg6 arg7 harg7 hc0 x0 x1 x2 xo3 xo4 xo5)]
  unfold kernelRun0_B
  dsimp only
  sl_unfold_words
  rw [View.canon_unit_zero (S := S1x1x14) hzAcc]
  simp only [View.readAt_eq_ld, harg2.read_unread, harg3.read_unread, harg4.read_unread, harg5.read_unread, harg6.read_unread, harg7.read_unread,
    View.ld_unit_zero (S := S1x14x65536) hzAcc, View.ld_unit_zero (S := S1x1x65536) hzAcc, View.ld_unit_zero (S := S1x14x14) hzAcc, View.ld_unit_zero (S := S1x1x14) hzAcc]

/-! ## The sum over the points of a batch element up to a point -/

/-- At the first point of a batch element only the point itself is counted. -/
theorem sum_upTo_first (t : Fin cfg0.N) (h0 : t.val % 16 = 0) (f : Fin cfg0.N → EReal) :
    (∑ s : Fin cfg0.N, if upTo t s then f s else 0) = f t := by
  have hN : cfg0.N = 32 := N_0
  rw [Finset.sum_eq_single t]
  · rw [if_pos]; unfold upTo; omega
  · intro s _ hs
    rw [if_neg]
    unfold upTo
    intro h
    exact hs (Fin.ext (by omega))
  · intro h; exact absurd (Finset.mem_univ t) h

/-- At any other point: the points counted at the point before, and the point itself. -/
theorem sum_upTo_next (t t' : Fin cfg0.N) (h0 : ¬t.val % 16 = 0) (ht' : t'.val = t.val - 1) (f : Fin cfg0.N → EReal) :
    (∑ s : Fin cfg0.N, if upTo t s then f s else 0) = (∑ s : Fin cfg0.N, if upTo t' s then f s else 0) + f t := by
  have hN : cfg0.N = 32 := N_0
  have ht : t.val < 32 := lt_of_lt_of_eq t.isLt hN
  have hsplit : ∀ s : Fin cfg0.N, (if upTo t s then f s else 0) = (if upTo t' s then f s else 0) + (if s = t then f s else 0) := by
    intro s
    have hs : s.val < 32 := lt_of_lt_of_eq s.isLt hN
    by_cases hst : s = t
    · subst hst
      have h1 : upTo s s := by unfold upTo; omega
      have h2 : ¬upTo t' s := by unfold upTo; omega
      rw [if_pos h1, if_neg h2, if_pos rfl, zero_add]
    · have hne : s.val ≠ t.val := fun h => hst (Fin.ext h)
      have h1 : upTo t s ↔ upTo t' s := by unfold upTo; omega
      rw [if_neg hst, add_zero]
      by_cases h2 : upTo t' s
      · rw [if_pos h2, if_pos (h1.mpr h2)]
      · rw [if_neg h2, if_neg (fun h => h2 (h1.mp h))]
  rw [Finset.sum_congr rfl (fun s _ => hsplit s), Finset.sum_add_distrib, Finset.sum_ite_eq' Finset.univ t f, if_pos (Finset.mem_univ t)]

end pieces

/-! ## The invariant -/

variable (m : (ℓ : Loc nD τ sig) → Buf (Elt Ideal) ℓ)

/-- The first accumulator at the first point of a batch element: zero plus the point's contribution. -/
theorem accX_first (c : Dev nD) (hfin : ∀ (s : Fin cfg0.N) i, ∃ r : ℝ, xblk m c s i = (r : EReal)) (t : Fin cfg0.N)
    (h0 : t.val % 16 = 0) (k ch : Fin 14) :
    (outsAt0 m c t.val t.isLt).1 (ix3 (0 : Fin 1) k ch) = contribX m c t k ch := by
  rw [outsAt0_A m c t h0]
  dsimp only
  refine (congrFun (out0_A_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (xblk m c t) (yblk m c t) (gblk m c t)) (ix3 (0 : Fin 1) k ch)).trans ?_
  refine (pay1_apply (xblk m c t) (gblk m c t) (k0_pay4 (F := Ideal)) (hfin t) k ch).trans ?_
  rw [pay4_apply, zero_add]
  rfl

/-- … at any other point: what the point before left plus the point's contribution. -/
theorem accX_next (c : Dev nD) (hfin : ∀ (s : Fin cfg0.N) i, ∃ r : ℝ, xblk m c s i = (r : EReal)) (t : Fin cfg0.N)
    (h0 : ¬t.val % 16 = 0) (hlt : t.val - 1 < cfg0.N) (k ch : Fin 14) :
    (outsAt0 m c t.val t.isLt).1 (ix3 (0 : Fin 1) k ch)
      = (outsAt0 m c (t.val - 1) hlt).1 (ix3 (0 : Fin 1) k ch) + contribX m c t k ch := by
  rw [outsAt0_B m c t h0]
  dsimp only
  refine (congrFun (out0_B_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (xblk m c t) (yblk m c t) (gblk m c t)
    (outsAt0 m c (t.val - 1) hlt).1 (outsAt0 m c (t.val - 1) hlt).2.1 (outsAt0 m c (t.val - 1) hlt).2.2) (ix3 (0 : Fin 1) k ch)).trans ?_
  exact pay1_apply (xblk m c t) (gblk m c t) (outsAt0 m c (t.val - 1) hlt).1 (hfin t) k ch

theorem accX (c : Dev nD) (hfin : ∀ (s : Fin cfg0.N) i, ∃ r : ℝ, xblk m c s i = (r : EReal)) (t : Fin cfg0.N) (k ch : Fin 14) :
    (outsAt0 m c t.val t.isLt).1 (ix3 (0 : Fin 1) k ch) = ∑ s : Fin cfg0.N, if upTo t s then contribX m c s k ch else 0 := by
  obtain ⟨n, hn⟩ := t
  induction n with
  | zero =>
    exact (accX_first m c hfin ⟨0, hn⟩ rfl k ch).trans (sum_upTo_first ⟨0, hn⟩ rfl fun s => contribX m c s k ch).symm
  | succ n ih =>
    by_cases h0 : (n + 1) % 16 = 0
    · exact (accX_first m c hfin ⟨n + 1, hn⟩ h0 k ch).trans (sum_upTo_first ⟨n + 1, hn⟩ h0 fun s => contribX m c s k ch).symm
    · refine (accX_next m c hfin ⟨n + 1, hn⟩ h0 (Nat.lt_of_succ_lt hn) k ch).trans ?_
      rw [sum_upTo_next ⟨n + 1, hn⟩ ⟨n, Nat.lt_of_succ_lt hn⟩ h0 rfl fun s => contribX m c s k ch]
      exact congrArg (· + contribX m c ⟨n + 1, hn⟩ k ch) (ih (Nat.lt_of_succ_lt hn))

/-- The second accumulator at the first point of a batch element. -/
theorem accY_first (c : Dev nD) (hfin : ∀ (s : Fin cfg0.N) i, ∃ r : ℝ, yblk m c s i = (r : EReal)) (t : Fin cfg0.N)
    (h0 : t.val % 16 = 0) (k ch : Fin 14) :
    (outsAt0 m c t.val t.isLt).2.1 (ix3 (0 : Fin 1) k ch) = contribY m c t k ch := by
  rw [outsAt0_A m c t h0]
  dsimp only
  refine (congrFun (out0_A_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (xblk m c t) (yblk m c t) (gblk m c t)) (ix3 (0 : Fin 1) k ch)).trans ?_
  refine (pay2_apply (yblk m c t) (gblk m c t) (k0_pay5 (F := Ideal)) (hfin t) k ch).trans ?_
  rw [pay5_apply, zero_add]
  rfl

/-- … at any other point. -/
theorem accY_next (c : Dev nD) (hfin : ∀ (s : Fin cfg0.N) i, ∃ r : ℝ, yblk m c s i = (r : EReal)) (t : Fin cfg0.N)
    (h0 : ¬t.val % 16 = 0) (hlt : t.val - 1 < cfg0.N) (k ch : Fin 14) :
    (outsAt0 m c t.val t.isLt).2.1 (ix3 (0 : Fin 1) k ch)
      = (outsAt0 m c (t.val - 1) hlt).2.1 (ix3 (0 : Fin 1) k ch) + contribY m c t k ch := by
  rw [outsAt0_B m c t h0]
  dsimp only
  refine (congrFun (out0_B_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (xblk m c t) (yblk m c t) (gblk m c t)
    (outsAt0 m c (t.val - 1) hlt).1 (outsAt0 m c (t.val - 1) hlt).2.1 (outsAt0 m c (t.val - 1) hlt).2.2) (ix3 (0 : Fin 1) k ch)).trans ?_
  exact pay2_apply (yblk m c t) (gblk m c t) (outsAt0 m c (t.val - 1) hlt).2.1 (hfin t) k ch

theorem accY (c : Dev nD) (hfin : ∀ (s : Fin cfg0.N) i, ∃ r : ℝ, yblk m c s i = (r : EReal)) (t : Fin cfg0.N) (k ch : Fin 14) :
    (outsAt0 m c t.val t.isLt).2.1 (ix3 (0 : Fin 1) k ch) = ∑ s : Fin cfg0.N, if upTo t s then contribY m c s k ch else 0 := by
  obtain ⟨n, hn⟩ := t
  induction n with
  | zero =>
    exact (accY_first m c hfin ⟨0, hn⟩ rfl k ch).trans (sum_upTo_first ⟨0, hn⟩ rfl fun s => contribY m c s k ch).symm
  | succ n ih =>
    by_cases h0 : (n + 1) % 16 = 0
    · exact (accY_first m c hfin ⟨n + 1, hn⟩ h0 k ch).trans (sum_upTo_first ⟨n + 1, hn⟩ h0 fun s => contribY m c s k ch).symm
    · refine (accY_next m c hfin ⟨n + 1, hn⟩ h0 (Nat.lt_of_succ_lt hn) k ch).trans ?_
      rw [sum_upTo_next ⟨n + 1, hn⟩ ⟨n, Nat.lt_of_succ_lt hn⟩ h0 rfl fun s => contribY m c s k ch]
      exact congrArg (· + contribY m c ⟨n + 1, hn⟩ k ch) (ih (Nat.lt_of_succ_lt hn))

/-- The count accumulator at the first point of a batch element. -/
theorem accC_first (c : Dev nD) (t : Fin cfg0.N) (h0 : t.val % 16 = 0) (k : Fin 14) :
    (outsAt0 m c t.val t.isLt).2.2 (ix3 (0 : Fin 1) (0 : Fin 1) k) = contribC m c t k := by
  rw [outsAt0_A m c t h0]
  dsimp only
  refine (congrFun (out0_A_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (xblk m c t) (yblk m c t) (gblk m c t)) (ix3 (0 : Fin 1) (0 : Fin 1) k)).trans ?_
  refine (pay3_apply (gblk m c t) (k0_pay6 (F := Ideal)) k).trans ?_
  rw [pay6_apply, zero_add]
  rfl

/-- … at any other point. -/
theorem accC_next (c : Dev nD) (t : Fin cfg0.N) (h0 : ¬t.val % 16 = 0) (hlt : t.val - 1 < cfg0.N) (k : Fin 14) :
    (outsAt0 m c t.val t.isLt).2.2 (ix3 (0 : Fin 1) (0 : Fin 1) k)
      = (outsAt0 m c (t.val - 1) hlt).2.2 (ix3 (0 : Fin 1) (0 : Fin 1) k) + contribC m c t k := by
  rw [outsAt0_B m c t h0]
  dsimp only
  refine (congrFun (out0_B_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (xblk m c t) (yblk m c t) (gblk m c t)
    (outsAt0 m c (t.val - 1) hlt).1 (outsAt0 m c (t.val - 1) hlt).2.1 (outsAt0 m c (t.val - 1) hlt).2.2) (ix3 (0 : Fin 1) (0 : Fin 1) k)).trans ?_
  exact pay3_apply (gblk m c t) (outsAt0 m c (t.val - 1) hlt).2.2 k

theorem accC (c : Dev nD) (t : Fin cfg0.N) (k : Fin 14) :
    (outsAt0 m c t.val t.isLt).2.2 (ix3 (0 : Fin 1) (0 : Fin 1) k) = ∑ s : Fin cfg0.N, if upTo t s then contribC m c s k else 0 := by
  obtain ⟨n, hn⟩ := t
  induction n with
  | zero =>
    exact (accC_first m c ⟨0, hn⟩ rfl k).trans (sum_upTo_first ⟨0, hn⟩ rfl fun s => contribC m c s k).symm
  | succ n ih =>
    by_cases h0 : (n + 1) % 16 = 0
    · exact (accC_first m c ⟨n + 1, hn⟩ h0 k).trans (sum_upTo_first ⟨n + 1, hn⟩ h0 fun s => contribC m c s k).symm
    · refine (accC_next m c ⟨n + 1, hn⟩ h0 (Nat.lt_of_succ_lt hn) k).trans ?_
      rw [sum_upTo_next ⟨n + 1, hn⟩ ⟨n, Nat.lt_of_succ_lt hn⟩ h0 rfl fun s => contribC m c s k]
      exact congrArg (· + contribC m c ⟨n + 1, hn⟩ k) (ih (Nat.lt_of_succ_lt hn))

end Cert.KernelIdeal.Hand

end
-- ==== Proof.KFinal.lean ====
/-
  From the accumulation invariant to the region's three result arrays, at the ideal instance.

  A grid point s is batch element s / 16 and tile s % 16. Its three input blocks are the rows
  (s / 16, ·, s % 16 · 65536 + n), n < 65536, of the two logit volumes and of the labels
  ('xblk_read', 'yblk_read', 'gblk_read'). An accumulator's block is written back to its array exactly
  at the last point 16 b + 15 of batch element b, into row b; there the invariant says the accumulator
  holds the contributions of the sixteen points 16 b, …, 16 b + 15, and the sixteen tiles of 65536
  voxels are the 1048576 voxels of the batch element, each once ('sum_batch'). The two rows' blocks
  cover each result array, so it ends holding, at (b, k, ch), channel ch of batch element b summed
  over its voxels labelled k ('finalX', 'finalY'), and at (b, 0, k) the number of those voxels ('finalC').
-/
import proofs.«430275_j52776558133414_3_alg».proof.Proof.KDefs
import Idealize.ShloMosaic.Lib.Pipeline.Value
import Mathlib.Logic.Equiv.Fin.Basic
import Mathlib.Data.Fintype.BigOperators
import Mathlib.Algebra.BigOperators.Group.Finset.Basic

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The index maps over the grid -/

/-- An input window's block index at point t is (t / 16, 0, t % 16). -/
theorem idx_in : ∀ t : Fin cfg0.N,
    win0_0.index t (0 : Fin 3) = t.val / 16 ∧ win0_0.index t (1 : Fin 3) = 0 ∧ win0_0.index t (2 : Fin 3) = t.val % 16
    ∧ win0_1.index t (0 : Fin 3) = t.val / 16 ∧ win0_1.index t (1 : Fin 3) = 0 ∧ win0_1.index t (2 : Fin 3) = t.val % 16
    ∧ win0_2.index t (0 : Fin 3) = t.val / 16 ∧ win0_2.index t (1 : Fin 3) = 0 ∧ win0_2.index t (2 : Fin 3) = t.val % 16 :=
  (by decide +kernel : ∀ t : Fin grid0.N, _)

/-- An accumulator window's block index at point t is (t / 16, 0, 0). -/
theorem idx_out : ∀ t : Fin cfg0.N,
    win0_3.index t (0 : Fin 3) = t.val / 16 ∧ win0_3.index t (1 : Fin 3) = 0 ∧ win0_3.index t (2 : Fin 3) = 0
    ∧ win0_4.index t (0 : Fin 3) = t.val / 16 ∧ win0_4.index t (1 : Fin 3) = 0 ∧ win0_4.index t (2 : Fin 3) = 0
    ∧ win0_5.index t (0 : Fin 3) = t.val / 16 ∧ win0_5.index t (1 : Fin 3) = 0 ∧ win0_5.index t (2 : Fin 3) = 0 :=
  (by decide +kernel : ∀ t : Fin grid0.N, _)

/-! ## Block reads -/

/-- A block entry is the array's entry at the block's offset. -/
theorem xblk_read (c : Dev nD) (s : Fin cfg0.N) (ch : Fin 14) (n : Fin 65536) :
    xblk m c s (ix3 (0 : Fin 1) ch n) = xarr m c (ix3 (⟨s.val / 16, by have := s.isLt; have : cfg0.N = 32 := N_0; omega⟩ : Fin 2) ch (⟨s.val % 16 * 65536 + n.val, by have := n.isLt; omega⟩ : Fin 1048576)) := by
  obtain ⟨e0, e1, e2, -⟩ := idx_in s
  show V m c main_v0 (((cfg0.win 0).blk s).view.emb (ix3 (0 : Fin 1) ch n)) = V m c main_v0 _
  refine congrArg _ ?_
  funext a; apply Fin.ext
  match a with
  | ⟨0, _⟩ => show win0_0.index s (0 : Fin 3) * 1 + 1 * 0 = s.val / 16; omega
  | ⟨1, _⟩ => show win0_0.index s (1 : Fin 3) * 14 + 1 * ch.val = ch.val; omega
  | ⟨2, _⟩ => show win0_0.index s (2 : Fin 3) * 65536 + 1 * n.val = s.val % 16 * 65536 + n.val; omega

theorem yblk_read (c : Dev nD) (s : Fin cfg0.N) (ch : Fin 14) (n : Fin 65536) :
    yblk m c s (ix3 (0 : Fin 1) ch n) = yarr m c (ix3 (⟨s.val / 16, by have := s.isLt; have : cfg0.N = 32 := N_0; omega⟩ : Fin 2) ch (⟨s.val % 16 * 65536 + n.val, by have := n.isLt; omega⟩ : Fin 1048576)) := by
  obtain ⟨-, -, -, e0, e1, e2, -⟩ := idx_in s
  show V m c main_v1 (((cfg0.win 1).blk s).view.emb (ix3 (0 : Fin 1) ch n)) = V m c main_v1 _
  refine congrArg _ ?_
  funext a; apply Fin.ext
  match a with
  | ⟨0, _⟩ => show win0_1.index s (0 : Fin 3) * 1 + 1 * 0 = s.val / 16; omega
  | ⟨1, _⟩ => show win0_1.index s (1 : Fin 3) * 14 + 1 * ch.val = ch.val; omega
  | ⟨2, _⟩ => show win0_1.index s (2 : Fin 3) * 65536 + 1 * n.val = s.val % 16 * 65536 + n.val; omega

theorem gblk_read (c : Dev nD) (s : Fin cfg0.N) (n : Fin 65536) :
    gblk m c s (ix3 (0 : Fin 1) (0 : Fin 1) n) = garr m c (ix3 (⟨s.val / 16, by have := s.isLt; have : cfg0.N = 32 := N_0; omega⟩ : Fin 2) (0 : Fin 1) (⟨s.val % 16 * 65536 + n.val, by have := n.isLt; omega⟩ : Fin 1048576)) := by
  obtain ⟨-, -, -, -, -, -, e0, e1, e2⟩ := idx_in s
  show V m c main_v2 (((cfg0.win 2).blk s).view.emb (ix3 (0 : Fin 1) (0 : Fin 1) n)) = V m c main_v2 _
  refine congrArg _ ?_
  funext a; apply Fin.ext
  match a with
  | ⟨0, _⟩ => show win0_2.index s (0 : Fin 3) * 1 + 1 * 0 = s.val / 16; omega
  | ⟨1, _⟩ => show win0_2.index s (1 : Fin 3) * 1 + 1 * 0 = 0; omega
  | ⟨2, _⟩ => show win0_2.index s (2 : Fin 3) * 65536 + 1 * n.val = s.val % 16 * 65536 + n.val; omega

/-! ## Sixteen tiles are one batch element -/

/-- The points up to the last point of a batch element are its sixteen points. -/
theorem sum_upTo (t : Fin cfg0.N) (ht : t.val % 16 = 15) (g : Fin cfg0.N → EReal) :
    (∑ s : Fin cfg0.N, if upTo t s then g s else 0)
      = ∑ d : Fin 16, g ⟨t.val - 15 + d.val, by have := t.isLt; have := d.isLt; omega⟩ := by
  have hN : cfg0.N = 32 := N_0
  have htl := t.isLt
  rw [← Finset.sum_filter]
  refine Finset.sum_nbij' (fun s => (⟨(s.val - (t.val - 15)) % 16, Nat.mod_lt _ (by decide)⟩ : Fin 16))
    (fun d => ⟨t.val - 15 + d.val, by have := d.isLt; omega⟩) (fun _ _ => Finset.mem_univ _) ?_ ?_ ?_ ?_
  · intro d _
    have := d.isLt
    refine Finset.mem_filter.mpr ⟨Finset.mem_univ _, ?_⟩
    show t.val - t.val % 16 ≤ t.val - 15 + d.val ∧ t.val - 15 + d.val ≤ t.val
    omega
  · intro s hs
    have hs' : t.val - t.val % 16 ≤ s.val ∧ s.val ≤ t.val := (Finset.mem_filter.mp hs).2
    have := s.isLt
    apply Fin.ext
    show t.val - 15 + (s.val - (t.val - 15)) % 16 = s.val
    omega
  · intro d _
    have := d.isLt
    apply Fin.ext
    show (t.val - 15 + d.val - (t.val - 15)) % 16 = d.val
    omega
  · intro s hs
    have hs' : t.val - t.val % 16 ≤ s.val ∧ s.val ≤ t.val := (Finset.mem_filter.mp hs).2
    have := s.isLt
    refine congrArg g (Fin.ext ?_)
    show s.val = t.val - 15 + (s.val - (t.val - 15)) % 16
    omega

/-- Sixteen tiles of 65536 voxels are the 1048576 voxels, each once. -/
theorem sum_tiles (f : Fin 1048576 → EReal) :
    (∑ d : Fin 16, ∑ n : Fin 65536, f ⟨d.val * 65536 + n.val, by have := d.isLt; have := n.isLt; omega⟩)
      = ∑ n : Fin 1048576, f n := by
  refine (Fintype.sum_prod_type' (fun (d : Fin 16) (n : Fin 65536) =>
    f ⟨d.val * 65536 + n.val, by have := d.isLt; have := n.isLt; omega⟩)).symm.trans ?_
  exact Fintype.sum_equiv (finProdFinEquiv : Fin 16 × Fin 65536 ≃ Fin 1048576) _ _ fun p =>
    congrArg f (Fin.ext (by show p.1.val * 65536 + p.2.val = p.2.val + 65536 * p.1.val; omega))

/-- A sum over the points up to the last point of batch element b, of sums over each point's tile of a
    function of the batch element and the voxel, is the sum over the batch element's voxels. -/
theorem sum_batch (t : Fin cfg0.N) (ht : t.val % 16 = 15) (f : Fin 2 → Fin 1048576 → EReal) :
    (∑ s : Fin cfg0.N, if upTo t s then
        ∑ n : Fin 65536, f ⟨s.val / 16, by have := s.isLt; have : cfg0.N = 32 := N_0; omega⟩
          ⟨s.val % 16 * 65536 + n.val, by have := n.isLt; omega⟩ else 0)
      = ∑ n : Fin 1048576, f ⟨t.val / 16, by have := t.isLt; have : cfg0.N = 32 := N_0; omega⟩ n := by
  have hN : cfg0.N = 32 := N_0
  have htl := t.isLt
  refine (sum_upTo t ht (fun s => ∑ n : Fin 65536, f ⟨s.val / 16, by have := s.isLt; omega⟩
          ⟨s.val % 16 * 65536 + n.val, by have := n.isLt; omega⟩)).trans ?_
  refine Eq.trans ?_ (sum_tiles (f ⟨t.val / 16, by omega⟩))
  refine Finset.sum_congr rfl fun d _ => Finset.sum_congr rfl fun n _ => ?_
  have hd := d.isLt
  have e1 : (⟨(t.val - 15 + d.val) / 16, by omega⟩ : Fin 2) = ⟨t.val / 16, by omega⟩ := Fin.ext (by show (t.val - 15 + d.val) / 16 = t.val / 16; omega)
  have e2 : (⟨(t.val - 15 + d.val) % 16 * 65536 + n.val, by have := n.isLt; omega⟩ : Fin 1048576) = ⟨d.val * 65536 + n.val, by have := n.isLt; omega⟩ :=
    Fin.ext (by show (t.val - 15 + d.val) % 16 * 65536 + n.val = d.val * 65536 + n.val; omega)
  show f ⟨(t.val - 15 + d.val) / 16, _⟩ ⟨(t.val - 15 + d.val) % 16 * 65536 + n.val, _⟩ = f ⟨t.val / 16, _⟩ ⟨d.val * 65536 + n.val, _⟩
  rw [e1, e2]

/-! ## What a point adds, over the staged arrays -/

theorem contribX_eq (c : Dev nD) (s : Fin cfg0.N) (k ch : Fin 14) :
    contribX m c s k ch = ∑ n : Fin 65536,
      if garr m c (ix3 (⟨s.val / 16, by have := s.isLt; have : cfg0.N = 32 := N_0; omega⟩ : Fin 2) (0 : Fin 1) (⟨s.val % 16 * 65536 + n.val, by have := n.isLt; omega⟩ : Fin 1048576)) = BitVec.ofNat 32 k.val
      then xarr m c (ix3 (⟨s.val / 16, by have := s.isLt; have : cfg0.N = 32 := N_0; omega⟩ : Fin 2) ch (⟨s.val % 16 * 65536 + n.val, by have := n.isLt; omega⟩ : Fin 1048576)) else 0 := by
  unfold contribX
  refine Finset.sum_congr rfl fun n _ => ?_
  rw [gblk_read, xblk_read]

theorem contribY_eq (c : Dev nD) (s : Fin cfg0.N) (k ch : Fin 14) :
    contribY m c s k ch = ∑ n : Fin 65536,
      if garr m c (ix3 (⟨s.val / 16, by have := s.isLt; have : cfg0.N = 32 := N_0; omega⟩ : Fin 2) (0 : Fin 1) (⟨s.val % 16 * 65536 + n.val, by have := n.isLt; omega⟩ : Fin 1048576)) = BitVec.ofNat 32 k.val
      then yarr m c (ix3 (⟨s.val / 16, by have := s.isLt; have : cfg0.N = 32 := N_0; omega⟩ : Fin 2) ch (⟨s.val % 16 * 65536 + n.val, by have := n.isLt; omega⟩ : Fin 1048576)) else 0 := by
  unfold contribY
  refine Finset.sum_congr rfl fun n _ => ?_
  rw [gblk_read, yblk_read]

theorem contribC_eq (c : Dev nD) (s : Fin cfg0.N) (k : Fin 14) :
    contribC m c s k = ∑ n : Fin 65536,
      if garr m c (ix3 (⟨s.val / 16, by have := s.isLt; have : cfg0.N = 32 := N_0; omega⟩ : Fin 2) (0 : Fin 1) (⟨s.val % 16 * 65536 + n.val, by have := n.isLt; omega⟩ : Fin 1048576)) = BitVec.ofNat 32 k.val
      then (1 : EReal) else 0 := by
  unfold contribC
  refine Finset.sum_congr rfl fun n _ => ?_
  rw [gblk_read]

/-! ## An accumulator's block and its array -/

/-- What an accumulator's staging buffer holds is written back whole. -/
theorem cut_blk3 (t : Fin cfg0.N) (X : Vec Ideal S1x14x14 .f32) (y : S1x14x14.Idx) :
    (cfg0.win 3).cut (grid0.coords t) X y = X y := rfl
theorem cut_blk4 (t : Fin cfg0.N) (X : Vec Ideal S1x14x14 .f32) (y : S1x14x14.Idx) :
    (cfg0.win 4).cut (grid0.coords t) X y = X y := rfl
theorem cut_blk5 (t : Fin cfg0.N) (X : Vec Ideal S1x1x14 .f32) (y : S1x1x14.Idx) :
    (cfg0.win 5).cut (grid0.coords t) X y = X y := rfl

/-- Point t's block of an accumulator's array is the array's row t / 16. -/
theorem read_blk3 (t : Fin cfg0.N) (G : S2x14x14.Idx → EReal) (k ch : Fin 14) :
    ((cfg0.win 3).blk t).view.read (Elt Ideal) G (ix3 (0 : Fin 1) k ch)
      = G (ix3 (⟨t.val / 16, by have := t.isLt; have : cfg0.N = 32 := N_0; omega⟩ : Fin 2) k ch) := by
  obtain ⟨e0, e1, e2, -⟩ := idx_out t
  show G (((cfg0.win 3).blk t).view.emb (ix3 (0 : Fin 1) k ch)) = G _
  refine congrArg G ?_
  funext a; apply Fin.ext
  match a with
  | ⟨0, _⟩ => show win0_3.index t (0 : Fin 3) * 1 + 1 * 0 = t.val / 16; omega
  | ⟨1, _⟩ => show win0_3.index t (1 : Fin 3) * 14 + 1 * k.val = k.val; omega
  | ⟨2, _⟩ => show win0_3.index t (2 : Fin 3) * 14 + 1 * ch.val = ch.val; omega
theorem read_blk4 (t : Fin cfg0.N) (G : S2x14x14.Idx → EReal) (k ch : Fin 14) :
    ((cfg0.win 4).blk t).view.read (Elt Ideal) G (ix3 (0 : Fin 1) k ch)
      = G (ix3 (⟨t.val / 16, by have := t.isLt; have : cfg0.N = 32 := N_0; omega⟩ : Fin 2) k ch) := by
  obtain ⟨-, -, -, e0, e1, e2, -⟩ := idx_out t
  show G (((cfg0.win 4).blk t).view.emb (ix3 (0 : Fin 1) k ch)) = G _
  refine congrArg G ?_
  funext a; apply Fin.ext
  match a with
  | ⟨0, _⟩ => show win0_4.index t (0 : Fin 3) * 1 + 1 * 0 = t.val / 16; omega
  | ⟨1, _⟩ => show win0_4.index t (1 : Fin 3) * 14 + 1 * k.val = k.val; omega
  | ⟨2, _⟩ => show win0_4.index t (2 : Fin 3) * 14 + 1 * ch.val = ch.val; omega
theorem read_blk5 (t : Fin cfg0.N) (G : S2x1x14.Idx → EReal) (k : Fin 14) :
    ((cfg0.win 5).blk t).view.read (Elt Ideal) G (ix3 (0 : Fin 1) (0 : Fin 1) k)
      = G (ix3 (⟨t.val / 16, by have := t.isLt; have : cfg0.N = 32 := N_0; omega⟩ : Fin 2) (0 : Fin 1) k) := by
  obtain ⟨-, -, -, -, -, -, e0, e1, e2⟩ := idx_out t
  show G (((cfg0.win 5).blk t).view.emb (ix3 (0 : Fin 1) (0 : Fin 1) k)) = G _
  refine congrArg G ?_
  funext a; apply Fin.ext
  match a with
  | ⟨0, _⟩ => show win0_5.index t (0 : Fin 3) * 1 + 1 * 0 = t.val / 16; omega
  | ⟨1, _⟩ => show win0_5.index t (1 : Fin 3) * 1 + 1 * 0 = 0; omega
  | ⟨2, _⟩ => show win0_5.index t (2 : Fin 3) * 14 + 1 * k.val = k.val; omega

/-! ## The first result array -/

/-- Entry (b, k, ch): channel ch of batch element b summed over its voxels labelled k. -/
abbrev sumX (c : Dev nD) : S2x14x14.Idx → EReal := fun j =>
  ∑ n : Fin 1048576, if garr m c (ix3 (j 0) (0 : Fin 1) n) = BitVec.ofNat 32 (j 1).val then xarr m c (ix3 (j 0) (j 2) n) else 0

/-- What the last point of batch element b writes back is row b of that array. -/
theorem flushedX (c : Dev nD)
    (hacc : ∀ (t : Fin cfg0.N) (k ch : Fin 14), (outsAt0 m c t.val t.isLt).1 (ix3 (0 : Fin 1) k ch) = ∑ s : Fin cfg0.N, if upTo t s then contribX m c s k ch else 0)
    (t : Fin cfg0.N) (hf : (cfg0.win 3).flush t = true) :
    (dats m 0 c).flushed 3 t = ((cfg0.win 3).blk t).view.read (Elt Ideal) (sumX m c) := by
  have ht : t.val % 16 = 15 := (flush0_3 t).mp hf
  show (cfg0.win 3).cut (grid0.coords t) ((dats m 0 c).after 3 t) = _
  rw [after0_3]
  refine funext fun (y : S1x14x14.Idx) => ?_
  obtain ⟨a, k, ch, rfl⟩ : ∃ (a : Fin 1) (k ch : Fin 14), y = ix3 a k ch := ⟨y 0, y 1, y 2, eq_ix3 y⟩
  obtain rfl : a = 0 := Subsingleton.elim _ _
  refine (cut_blk3 t _ _).trans ?_
  refine Eq.trans ?_ (read_blk3 t (sumX m c) k ch).symm
  rw [hacc t k ch]
  simp only [contribX_eq]
  exact sum_batch t ht (fun b n => if garr m c (ix3 b (0 : Fin 1) n) = BitVec.ofNat 32 k.val then xarr m c (ix3 b ch n) else 0)

/-- An index of the array is in point t's block iff each coordinate is in the block's range on its axis. -/
theorem mem_blk3 (t : Fin cfg0.N) (i : S2x14x14.Idx) :
    i ∈ ((cfg0.win 3).blk t).view.set ↔ ∀ a : Fin 3, win0_3.index t a * S1x14x14.size a ≤ (i a).val ∧ (i a).val < win0_3.index t a * S1x14x14.size a + S1x14x14.size a := by
  show i ∈ ((View.whole main_v3_0).slice (win0_3.rect t)).set ↔ _
  rw [View.set_slice_whole, Rect.mem_set_unit]
  exact Iff.rfl

/-- Row b is written back at the last point 16 b + 15 of batch element b: the two rows' blocks cover the array. -/
theorem coverX (i : S2x14x14.Idx) : ∃ t : Fin cfg0.N, (cfg0.win 3).flush t = true ∧ i ∈ ((cfg0.win 3).blk t).view.set := by
  have h0 : (i 0).val < 2 := (i 0).isLt
  have h1 : (i 1).val < 14 := (i 1).isLt
  have h2 : (i 2).val < 14 := (i 2).isLt
  have hN : cfg0.N = 32 := N_0
  obtain ⟨t, htv⟩ : ∃ t : Fin cfg0.N, t.val = 16 * (i 0).val + 15 := ⟨⟨16 * (i 0).val + 15, by omega⟩, rfl⟩
  obtain ⟨e0, e1, e2, -⟩ := idx_out t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 14 ≤ (i 1).val ∧ (i 1).val < win0_3.index t (1 : Fin 3) * 14 + 14; omega
  | ⟨2, _⟩ => show win0_3.index t (2 : Fin 3) * 14 ≤ (i 2).val ∧ (i 2).val < win0_3.index t (2 : Fin 3) * 14 + 14; omega

/-- The first result array after the region: entry (b, k, ch) is channel ch of batch element b summed over its voxels labelled k. -/
theorem finalX (c : Dev nD)
    (hacc : ∀ (t : Fin cfg0.N) (k ch : Fin 14), (outsAt0 m c t.val t.isLt).1 (ix3 (0 : Fin 1) k ch) = ∑ s : Fin cfg0.N, if upTo t s then contribX m c s k ch else 0) :
    (dats m 0 c).arrAt 3 cfg0.N = fun j : S2x14x14.Idx => ∑ n : Fin 1048576, if garr m c (ix3 (j 0) (0 : Fin 1) n) = BitVec.ofNat 32 (j 1).val then xarr m c (ix3 (j 0) (j 2) n) else 0 :=
  (dats m 0 c).arrAt_eq_of_cover 3 (sumX m c) (flushedX m c hacc) coverX

/-! ## The second result array -/

/-- Entry (b, k, ch): channel ch of the second volume's batch element b summed over its voxels labelled k. -/
abbrev sumY (c : Dev nD) : S2x14x14.Idx → EReal := fun j =>
  ∑ n : Fin 1048576, if garr m c (ix3 (j 0) (0 : Fin 1) n) = BitVec.ofNat 32 (j 1).val then yarr m c (ix3 (j 0) (j 2) n) else 0

/-- What the last point of batch element b writes back is row b of that array. -/
theorem flushedY (c : Dev nD)
    (hacc : ∀ (t : Fin cfg0.N) (k ch : Fin 14), (outsAt0 m c t.val t.isLt).2.1 (ix3 (0 : Fin 1) k ch) = ∑ s : Fin cfg0.N, if upTo t s then contribY m c s k ch else 0)
    (t : Fin cfg0.N) (hf : (cfg0.win 4).flush t = true) :
    (dats m 0 c).flushed 4 t = ((cfg0.win 4).blk t).view.read (Elt Ideal) (sumY m c) := by
  have ht : t.val % 16 = 15 := (flush0_4 t).mp hf
  show (cfg0.win 4).cut (grid0.coords t) ((dats m 0 c).after 4 t) = _
  rw [after0_4]
  refine funext fun (y : S1x14x14.Idx) => ?_
  obtain ⟨a, k, ch, rfl⟩ : ∃ (a : Fin 1) (k ch : Fin 14), y = ix3 a k ch := ⟨y 0, y 1, y 2, eq_ix3 y⟩
  obtain rfl : a = 0 := Subsingleton.elim _ _
  refine (cut_blk4 t _ _).trans ?_
  refine Eq.trans ?_ (read_blk4 t (sumY m c) k ch).symm
  rw [hacc t k ch]
  simp only [contribY_eq]
  exact sum_batch t ht (fun b n => if garr m c (ix3 b (0 : Fin 1) n) = BitVec.ofNat 32 k.val then yarr m c (ix3 b ch n) else 0)

/-- An index of the array is in point t's block iff each coordinate is in the block's range on its axis. -/
theorem mem_blk4 (t : Fin cfg0.N) (i : S2x14x14.Idx) :
    i ∈ ((cfg0.win 4).blk t).view.set ↔ ∀ a : Fin 3, win0_4.index t a * S1x14x14.size a ≤ (i a).val ∧ (i a).val < win0_4.index t a * S1x14x14.size a + S1x14x14.size a := by
  show i ∈ ((View.whole main_v3_1).slice (win0_4.rect t)).set ↔ _
  rw [View.set_slice_whole, Rect.mem_set_unit]
  exact Iff.rfl

/-- Row b is written back at the last point 16 b + 15 of batch element b: the two rows' blocks cover the array. -/
theorem coverY (i : S2x14x14.Idx) : ∃ t : Fin cfg0.N, (cfg0.win 4).flush t = true ∧ i ∈ ((cfg0.win 4).blk t).view.set := by
  have h0 : (i 0).val < 2 := (i 0).isLt
  have h1 : (i 1).val < 14 := (i 1).isLt
  have h2 : (i 2).val < 14 := (i 2).isLt
  have hN : cfg0.N = 32 := N_0
  obtain ⟨t, htv⟩ : ∃ t : Fin cfg0.N, t.val = 16 * (i 0).val + 15 := ⟨⟨16 * (i 0).val + 15, by omega⟩, rfl⟩
  obtain ⟨-, -, -, e0, e1, e2, -⟩ := idx_out t
  refine ⟨t, (flush0_4 t).mpr (by omega), ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 14 ≤ (i 1).val ∧ (i 1).val < win0_4.index t (1 : Fin 3) * 14 + 14; omega
  | ⟨2, _⟩ => show win0_4.index t (2 : Fin 3) * 14 ≤ (i 2).val ∧ (i 2).val < win0_4.index t (2 : Fin 3) * 14 + 14; omega

/-- The second result array after the region: entry (b, k, ch) is channel ch of batch element b summed over its voxels labelled k. -/
theorem finalY (c : Dev nD)
    (hacc : ∀ (t : Fin cfg0.N) (k ch : Fin 14), (outsAt0 m c t.val t.isLt).2.1 (ix3 (0 : Fin 1) k ch) = ∑ s : Fin cfg0.N, if upTo t s then contribY m c s k ch else 0) :
    (dats m 0 c).arrAt 4 cfg0.N = fun j : S2x14x14.Idx => ∑ n : Fin 1048576, if garr m c (ix3 (j 0) (0 : Fin 1) n) = BitVec.ofNat 32 (j 1).val then yarr m c (ix3 (j 0) (j 2) n) else 0 :=
  (dats m 0 c).arrAt_eq_of_cover 4 (sumY m c) (flushedY m c hacc) coverY

/-! ## The count array -/

/-- Entry (b, 0, k): the number of batch element b's voxels labelled k. -/
abbrev sumC (c : Dev nD) : S2x1x14.Idx → EReal := fun j =>
  ∑ n : Fin 1048576, if garr m c (ix3 (j 0) (0 : Fin 1) n) = BitVec.ofNat 32 (j 2).val then (1 : EReal) else 0

/-- What the last point of batch element b writes back is row b of that array. -/
theorem flushedC (c : Dev nD)
    (hacc : ∀ (t : Fin cfg0.N) (k : Fin 14), (outsAt0 m c t.val t.isLt).2.2 (ix3 (0 : Fin 1) (0 : Fin 1) k) = ∑ s : Fin cfg0.N, if upTo t s then contribC m c s k else 0)
    (t : Fin cfg0.N) (hf : (cfg0.win 5).flush t = true) :
    (dats m 0 c).flushed 5 t = ((cfg0.win 5).blk t).view.read (Elt Ideal) (sumC m c) := by
  have ht : t.val % 16 = 15 := (flush0_5 t).mp hf
  show (cfg0.win 5).cut (grid0.coords t) ((dats m 0 c).after 5 t) = _
  rw [after0_5]
  refine funext fun (y : S1x1x14.Idx) => ?_
  obtain ⟨a, a', k, rfl⟩ : ∃ (a a' : Fin 1) (k : Fin 14), y = ix3 a a' k := ⟨y 0, y 1, y 2, eq_ix3 y⟩
  obtain rfl : a = 0 := Subsingleton.elim _ _
  obtain rfl : a' = 0 := Subsingleton.elim _ _
  refine (cut_blk5 t _ _).trans ?_
  refine Eq.trans ?_ (read_blk5 t (sumC m c) k).symm
  rw [hacc t k]
  simp only [contribC_eq]
  exact sum_batch t ht (fun b n => if garr m c (ix3 b (0 : Fin 1) n) = BitVec.ofNat 32 k.val then (1 : EReal) else 0)

/-- An index of the array is in point t's block iff each coordinate is in the block's range on its axis. -/
theorem mem_blk5 (t : Fin cfg0.N) (i : S2x1x14.Idx) :
    i ∈ ((cfg0.win 5).blk t).view.set ↔ ∀ a : Fin 3, win0_5.index t a * S1x1x14.size a ≤ (i a).val ∧ (i a).val < win0_5.index t a * S1x1x14.size a + S1x1x14.size a := by
  show i ∈ ((View.whole main_v3_2).slice (win0_5.rect t)).set ↔ _
  rw [View.set_slice_whole, Rect.mem_set_unit]
  exact Iff.rfl

/-- Row b is written back at the last point 16 b + 15 of batch element b: the two rows' blocks cover the array. -/
theorem coverC (i : S2x1x14.Idx) : ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 14 := (i 2).isLt
  have hN : cfg0.N = 32 := N_0
  obtain ⟨t, htv⟩ : ∃ t : Fin cfg0.N, t.val = 16 * (i 0).val + 15 := ⟨⟨16 * (i 0).val + 15, by omega⟩, rfl⟩
  obtain ⟨-, -, -, -, -, -, e0, e1, e2⟩ := idx_out t
  refine ⟨t, (flush0_5 t).mpr (by omega), ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 14 ≤ (i 2).val ∧ (i 2).val < win0_5.index t (2 : Fin 3) * 14 + 14; omega

/-- The count array after the region: entry (b, 0, k) is the number of batch element b's voxels labelled k. -/
theorem finalC (c : Dev nD)
    (hacc : ∀ (t : Fin cfg0.N) (k : Fin 14), (outsAt0 m c t.val t.isLt).2.2 (ix3 (0 : Fin 1) (0 : Fin 1) k) = ∑ s : Fin cfg0.N, if upTo t s then contribC m c s k else 0) :
    (dats m 0 c).arrAt 5 cfg0.N = fun j : S2x1x14.Idx => ∑ n : Fin 1048576, if garr m c (ix3 (j 0) (0 : Fin 1) n) = BitVec.ofNat 32 (j 2).val then (1 : EReal) else 0 :=
  (dats m 0 c).arrAt_eq_of_cover 5 (sumC m c) (flushedC m c hacc) coverC

end Cert.KernelIdeal.Hand

end
-- ==== Proof.Tail.lean ====
/-
  The scalar both programs compute from the class sums and the class counts, as one function.

  Given the two 14 × 14 arrays of class sums (entry (k, c): channel c of the first, of the second network
  summed over the voxels labelled k) and the 14 class counts, the function divides each row k of both by
  (count k + 1e-6), halves both, takes the log-softmax of each along the channel axis, and returns the
  symmetric Kullback–Leibler term  0.5 · (Σ p (log p − log q) + Σ q (log q − log p)) / 14,  with p and q the
  exponentials of the two log-softmaxes. All values are ideal floats (extended reals); each literal is the
  ideal value of its 32-bit word: 0x358637BD is 1e-6 rounded to binary32, 0x40000000 is 2, 0xFF800000 is −∞,
  0x00000000 is 0, 0x3F000000 is 0.5 and 0x41600000 is 14.
-/
import Idealize.ShloMosaic.PureOps
import Idealize.ShloMosaic.PureOps.Ideal
import proofs.«430275_j52776558133414_3_alg».proof.Proof.Spec

noncomputable section

namespace Cert.Tail

open Idealize.ShloMosaic

/-! ## The shapes of the chain -/

abbrev S_ : Shape := ⟨0, ![]⟩
abbrev S14 : Shape := ⟨1, ![14]⟩
abbrev S14x1 : Shape := ⟨2, ![14, 1]⟩
abbrev S14x14 : Shape := ⟨2, ![14, 14]⟩

/-! ## The side conditions of its broadcasts and reductions -/

/-- The rank-zero shape has an element. -/
theorem h_S_ : 0 < S_.numel := by decide
/-- [14] broadcasts into [14, 1] along axis 0. -/
theorem bcast_S14_S14x1_0 : S14.BroadcastsInDim S14x1 (![0] : Fin 1 → Fin S14x1.rank) := by decide
/-- A scalar broadcasts into [14, 1]. -/
theorem bcast_S_S14x1 : S_.BroadcastsInDim S14x1 (![] : Fin 0 → Fin S14x1.rank) := by decide
/-- [14, 1] broadcasts into [14, 14], its unit axis repeated. -/
theorem bcast_S14x1_S14x14_0_1 : S14x1.BroadcastsInDim S14x14 (![0, 1] : Fin 2 → Fin S14x14.rank) := by decide
/-- A scalar broadcasts into [14, 14]. -/
theorem bcast_S_S14x14 : S_.BroadcastsInDim S14x14 (![] : Fin 0 → Fin S14x14.rank) := by decide
/-- A scalar broadcasts into [14]. -/
theorem bcast_S_S14 : S_.BroadcastsInDim S14 (![] : Fin 0 → Fin S14.rank) := by decide
/-- Reducing [14, 14] along axis 1 leaves [14]. -/
theorem reducesTo_S14x14_S14_d1 : S14x14.ReducesTo [1] S14 := by decide
/-- Reducing [14, 14] along both axes leaves a scalar. -/
theorem reducesTo_S14x14_S_d0_1 : S14x14.ReducesTo [0, 1] S_ := by decide

/-! ## The chain -/

/-- The symmetric Kullback–Leibler term of the two class-averaged, halved logit tables:
    `ssum`, `tsum` the class sums of the two networks, `cnt` the class counts. -/
def tail (ssum tsum : FVec Ideal Cert.Spec.SM .f32) (cnt : FVec Ideal Cert.Spec.SC .f32) :
    FVec Ideal (⟨0, ![]⟩ : Shape) .f32 :=
  -- the first table's class averages: ssum / (cnt + 1e-6), the count repeated along the channel axis
  let v7 : FVec Ideal S14x1 .f32 := broadcastInDim S14x1 ![0] bcast_S14_S14x1_0 cnt
  let cst_2 : FVec Ideal S_ .f32 := constant (F := Ideal) S_ .f32 0x358637BD#32
  let v8 : FVec Ideal S14x1 .f32 := broadcastInDim S14x1 ![] bcast_S_S14x1 cst_2
  let v9 : FVec Ideal S14x1 .f32 := addf (F := Ideal) v7 v8
  let v10 : FVec Ideal S14x14 .f32 := broadcastInDim S14x14 ![0, 1] bcast_S14x1_S14x14_0_1 v9
  let v11 : FVec Ideal S14x14 .f32 := Host.divf (F := Ideal) ssum v10
  -- the second table's class averages, the same way
  let v12 : FVec Ideal S14x1 .f32 := broadcastInDim S14x1 ![0] bcast_S14_S14x1_0 cnt
  let cst_3 : FVec Ideal S_ .f32 := constant (F := Ideal) S_ .f32 0x358637BD#32
  let v13 : FVec Ideal S14x1 .f32 := broadcastInDim S14x1 ![] bcast_S_S14x1 cst_3
  let v14 : FVec Ideal S14x1 .f32 := addf (F := Ideal) v12 v13
  let v15 : FVec Ideal S14x14 .f32 := broadcastInDim S14x14 ![0, 1] bcast_S14x1_S14x14_0_1 v14
  let v16 : FVec Ideal S14x14 .f32 := Host.divf (F := Ideal) tsum v15
  -- the first table halved
  let cst_4 : FVec Ideal S_ .f32 := constant (F := Ideal) S_ .f32 0x40000000#32
  let v17 : FVec Ideal S14x14 .f32 := broadcastInDim S14x14 ![] bcast_S_S14x14 cst_4
  let v18 : FVec Ideal S14x14 .f32 := Host.divf (F := Ideal) v11 v17
  -- its log-softmax along the channel axis: x − max x − log Σ exp (x − max x)
  let a_cst : FVec Ideal S_ .f32 := constant (F := Ideal) S_ .f32 0xFF800000#32
  let a0 : FVec Ideal S14 .f32 := Host.reduce (FloatOps.maximumf (F := Ideal)) v18 a_cst reducesTo_S14x14_S14_d1 h_S_
  let a_cst_0 : FVec Ideal S_ .f32 := constant (F := Ideal) S_ .f32 0xFF800000#32
  let a1 : FVec Ideal S14 .f32 := broadcastInDim S14 ![] bcast_S_S14 a_cst_0
  let a2 : FVec Ideal S14 .f32 := maximumf (F := Ideal) a1 a0
  let a3 : FVec Ideal S14x1 .f32 := broadcastInDim S14x1 ![0] bcast_S14_S14x1_0 a2
  let a4 : FVec Ideal S14x14 .f32 := broadcastInDim S14x14 ![0, 1] bcast_S14x1_S14x14_0_1 a3
  let a5 : FVec Ideal S14x14 .f32 := subf (F := Ideal) v18 a4
  let a6 : FVec Ideal S14x14 .f32 := Host.exp (F := Ideal) a5
  let a_cst_1 : FVec Ideal S_ .f32 := constant (F := Ideal) S_ .f32 0x00000000#32
  let a7 : FVec Ideal S14 .f32 := Host.reduceAdd (F := Ideal) a6 a_cst_1 reducesTo_S14x14_S14_d1 h_S_
  let a8 : FVec Ideal S14x1 .f32 := broadcastInDim S14x1 ![0] bcast_S14_S14x1_0 a7
  let a9 : FVec Ideal S14x1 .f32 := Host.log (F := Ideal) a8
  let a10 : FVec Ideal S14x14 .f32 := broadcastInDim S14x14 ![0, 1] bcast_S14x1_S14x14_0_1 a9
  let v19 : FVec Ideal S14x14 .f32 := subf (F := Ideal) a5 a10
  -- the second table halved
  let cst_5 : FVec Ideal S_ .f32 := constant (F := Ideal) S_ .f32 0x40000000#32
  let v20 : FVec Ideal S14x14 .f32 := broadcastInDim S14x14 ![] bcast_S_S14x14 cst_5
  let v21 : FVec Ideal S14x14 .f32 := Host.divf (F := Ideal) v16 v20
  -- its log-softmax along the channel axis
  let b_cst : FVec Ideal S_ .f32 := constant (F := Ideal) S_ .f32 0xFF800000#32
  let b0 : FVec Ideal S14 .f32 := Host.reduce (FloatOps.maximumf (F := Ideal)) v21 b_cst reducesTo_S14x14_S14_d1 h_S_
  let b_cst_0 : FVec Ideal S_ .f32 := constant (F := Ideal) S_ .f32 0xFF800000#32
  let b1 : FVec Ideal S14 .f32 := broadcastInDim S14 ![] bcast_S_S14 b_cst_0
  let b2 : FVec Ideal S14 .f32 := maximumf (F := Ideal) b1 b0
  let b3 : FVec Ideal S14x1 .f32 := broadcastInDim S14x1 ![0] bcast_S14_S14x1_0 b2
  let b4 : FVec Ideal S14x14 .f32 := broadcastInDim S14x14 ![0, 1] bcast_S14x1_S14x14_0_1 b3
  let b5 : FVec Ideal S14x14 .f32 := subf (F := Ideal) v21 b4
  let b6 : FVec Ideal S14x14 .f32 := Host.exp (F := Ideal) b5
  let b_cst_1 : FVec Ideal S_ .f32 := constant (F := Ideal) S_ .f32 0x00000000#32
  let b7 : FVec Ideal S14 .f32 := Host.reduceAdd (F := Ideal) b6 b_cst_1 reducesTo_S14x14_S14_d1 h_S_
  let b8 : FVec Ideal S14x1 .f32 := broadcastInDim S14x1 ![0] bcast_S14_S14x1_0 b7
  let b9 : FVec Ideal S14x1 .f32 := Host.log (F := Ideal) b8
  let b10 : FVec Ideal S14x14 .f32 := broadcastInDim S14x14 ![0, 1] bcast_S14x1_S14x14_0_1 b9
  let v22 : FVec Ideal S14x14 .f32 := subf (F := Ideal) b5 b10
  -- p = exp (log p), q = exp (log q); Σ p (log p − log q) and Σ q (log q − log p) over the whole table
  let v23 : FVec Ideal S14x14 .f32 := Host.exp (F := Ideal) v19
  let v24 : FVec Ideal S14x14 .f32 := Host.exp (F := Ideal) v22
  let v25 : FVec Ideal S14x14 .f32 := subf (F := Ideal) v19 v22
  let v26 : FVec Ideal S14x14 .f32 := mulf (F := Ideal) v23 v25
  let cst_6 : FVec Ideal S_ .f32 := constant (F := Ideal) S_ .f32 0x00000000#32
  let v27 : FVec Ideal S_ .f32 := Host.reduceAdd (F := Ideal) v26 cst_6 reducesTo_S14x14_S_d0_1 h_S_
  let v28 : FVec Ideal S14x14 .f32 := subf (F := Ideal) v22 v19
  let v29 : FVec Ideal S14x14 .f32 := mulf (F := Ideal) v24 v28
  let cst_7 : FVec Ideal S_ .f32 := constant (F := Ideal) S_ .f32 0x00000000#32
  let v30 : FVec Ideal S_ .f32 := Host.reduceAdd (F := Ideal) v29 cst_7 reducesTo_S14x14_S_d0_1 h_S_
  -- their sum, times one half, divided by the 14 classes
  let v31 : FVec Ideal S_ .f32 := addf (F := Ideal) v27 v30
  let cst_8 : FVec Ideal S_ .f32 := constant (F := Ideal) S_ .f32 0x3F000000#32
  let v32 : FVec Ideal S_ .f32 := mulf (F := Ideal) cst_8 v31
  let cst_9 : FVec Ideal S_ .f32 := constant (F := Ideal) S_ .f32 0x41600000#32
  Host.divf (F := Ideal) v32 cst_9

end Cert.Tail

end
-- ==== Proof.KTail.lean ====
/-
  The host tail of the kernel's program, read as one function of the region's three result arrays.

  After the region, @main sums each of the three result arrays over the batch axis and then applies the
  chain of operations that both programs share. Whatever the buffers hold when the tail starts, the result
  buffer afterwards holds that shared chain applied to the three batch sums; and a batch sum at an index is
  the sum of the array's two batch entries there.
-/
import proofs.«430275_j52776558133414_3_alg».proof.Proof.FrameKI.Kit
import proofs.«430275_j52776558133414_3_alg».proof.Proof.Tail
import Idealize.ShloMosaic.Lib.StableHlo.Run
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-! ## The tail's result -/

set_option maxRecDepth 16384 in
/-- From ANY buffer contents W, the tail leaves in the result buffer the shared tail function of the three
    result arrays summed over the batch axis. -/
theorem tail_result (W : Valuation τ sig (Elt Ideal)) :
    StableHlo.after (List.flatten (tailOps (F := Ideal))) W (Proc.devRef .tc main_v33)
      = Cert.Tail.tail
          (Host.reduceAdd (F := Ideal) (W (Proc.devRef .tc main_v3_0)) (constant (F := Ideal) S_ .f32 0x00000000#32) reducesTo_S2x14x14_S14x14_d0 h_S_)
          (Host.reduceAdd (F := Ideal) (W (Proc.devRef .tc main_v3_1)) (constant (F := Ideal) S_ .f32 0x00000000#32) reducesTo_S2x14x14_S14x14_d0 h_S_)
          (Host.reduceAdd (F := Ideal) (W (Proc.devRef .tc main_v3_2)) (constant (F := Ideal) S_ .f32 0x00000000#32) reducesTo_S2x1x14_S14_d0_1 h_S_) := by
  simp only [tailOps, hostOps1, hostOps1_1, hostOps1_2, hostOps1_3, hostOps1_4, List.flatten_cons, List.flatten_nil,
    List.append_nil, List.cons_append, List.nil_append]
  after_results_simp
  simp only [StableHlo.TRef.ofBuf, StableHlo.TRef.toBuf, cast_eq]
  rfl

/-! ## The batch sums at an index -/

/-- The batch sum of a [2,14,14] array at (k, c): the initial value is zero, and the indices that drop to (k, c)
    along axis 0 are (0, k, c) and (1, k, c). -/
theorem reduce_batch (a : FVec Ideal S2x14x14 .f32) (j : S14x14.Idx) :
    Host.reduceAdd (F := Ideal) a (constant (F := Ideal) S_ .f32 0x00000000#32) reducesTo_S2x14x14_S14x14_d0 h_S_ j
      = ∑ b : Fin 2, a (ix3 b (j 0) (j 1)) := by
  have h : S2x14x14.Reduces [0] S14x14 := by decide
  show Ideal.hostReduceAdd reducesTo_S2x14x14_S14x14_d0 a (Ideal.ofBits .f32 0x00000000#32) j = _
  rw [Ideal.hostReduceAdd_single reducesTo_S2x14x14_S14x14_d0 h, Ideal.ofBits_zero_f32, zero_add]
  refine Finset.sum_congr rfl fun b _ => congrArg a ?_
  funext d
  match d with
  | ⟨0, _⟩ => exact Fin.ext rfl
  | ⟨1, _⟩ => exact Fin.ext rfl
  | ⟨2, _⟩ => exact Fin.ext rfl

/-- The batch sum of a [2,1,14] array at k, taken over axes 0 and 1: the indices that drop to k are exactly
    (b, 0, k) for the two batch entries b, the middle axis having the one coordinate 0. -/
theorem reduce_batch_cnt (a : FVec Ideal S2x1x14 .f32) (j : S14.Idx) :
    Host.reduceAdd (F := Ideal) a (constant (F := Ideal) S_ .f32 0x00000000#32) reducesTo_S2x1x14_S14_d0_1 h_S_ j
      = ∑ b : Fin 2, a (ix3 b (0 : Fin 1) (j 0)) := by
  show Ideal.hostReduceAdd reducesTo_S2x1x14_S14_d0_1 a (Ideal.ofBits .f32 0x00000000#32) j = _
  unfold Ideal.hostReduceAdd
  rw [Ideal.ofBits_zero_f32, zero_add]
  symm
  -- b ↦ (b, 0, k) is a bijection from the two batch entries onto the indices that drop to k
  refine Finset.sum_bij (fun b _ => (ix3 b (0 : Fin 1) (j 0) : S2x1x14.Idx)) ?_ ?_ ?_ ?_
  · intro b _
    rw [Finset.mem_filter]
    refine ⟨Finset.mem_univ _, ?_⟩
    funext d
    match d with
    | ⟨0, _⟩ => exact Fin.ext rfl
  · intro b _ b' _ hbb
    exact congrFun hbb (0 : Fin 3)
  · intro i hi
    rw [Finset.mem_filter] at hi
    refine ⟨i 0, Finset.mem_univ _, ?_⟩
    funext d
    match d with
    | ⟨0, _⟩ => rfl
    | ⟨1, h1⟩ =>
      have hlt : (i ⟨1, h1⟩).val < 1 := (i ⟨1, h1⟩).isLt
      exact Fin.ext (by show (0 : Nat) = (i ⟨1, h1⟩).val; omega)
    | ⟨2, _⟩ =>
      have := congrFun hi.2 (0 : Fin 1)
      exact Fin.ext (by have := congrArg Fin.val this; exact this.symm)
  · intro b _; rfl

end Cert.KernelIdeal.Hand

end
-- ==== Proof.KRun.lean ====
/-
  The kernel's run at the ideal instance, read at the result. After the region each of the three result
  arrays holds, per batch element, the class sums (or counts) of that element's 1048576 voxels; the tail
  first adds the two batch elements, which gives the specification's class sums and counts of the flattened
  arguments, and then applies the shared tail function. The arguments end unchanged.
-/
import proofs.«430275_j52776558133414_3_alg».proof.Proof.KArgs
import proofs.«430275_j52776558133414_3_alg».proof.Proof.FrameKI.Args
import proofs.«430275_j52776558133414_3_alg».proof.Proof.KAccum
import proofs.«430275_j52776558133414_3_alg».proof.Proof.KFinal
import proofs.«430275_j52776558133414_3_alg».proof.Proof.KTail

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- Adding the two batch elements' class sums gives the class sums over all voxels. -/
theorem sumsX_eq (c : Dev nD) (hfin : ∀ i, ∃ r : ℝ, (m ((c.tc : Thread nD τ).loc main_arg0)) i = (r : EReal)) :
    Host.reduceAdd (F := Ideal) ((dats m 0 c).arrAt 3 cfg0.N) (constant (F := Ideal) S_ .f32 0x00000000#32) reducesTo_S2x14x14_S14x14_d0 h_S_
      = Cert.Spec.sums (Cert.Spec.X3 (m ((c.tc : Thread nD τ).loc main_arg0))) (Cert.Spec.G3 (m ((c.tc : Thread nD τ).loc main_arg1))) := by
  funext j
  rw [reduce_batch, finalX m c (accX m c (xblk_fin m c hfin)), ← xarr_eq m c, ← garr_eq m c]
  rfl
theorem sumsY_eq (c : Dev nD) (hfin : ∀ i, ∃ r : ℝ, (m ((c.tc : Thread nD τ).loc main_arg2)) i = (r : EReal)) :
    Host.reduceAdd (F := Ideal) ((dats m 0 c).arrAt 4 cfg0.N) (constant (F := Ideal) S_ .f32 0x00000000#32) reducesTo_S2x14x14_S14x14_d0 h_S_
      = Cert.Spec.sums (Cert.Spec.X3 (m ((c.tc : Thread nD τ).loc main_arg2))) (Cert.Spec.G3 (m ((c.tc : Thread nD τ).loc main_arg1))) := by
  funext j
  rw [reduce_batch, finalY m c (accY m c (yblk_fin m c hfin)), ← yarr_eq m c, ← garr_eq m c]
  rfl
/-- … and the two batch elements' counts give the counts over all voxels. -/
theorem cnts_eq (c : Dev nD) :
    Host.reduceAdd (F := Ideal) ((dats m 0 c).arrAt 5 cfg0.N) (constant (F := Ideal) S_ .f32 0x00000000#32) reducesTo_S2x1x14_S14_d0_1 h_S_
      = Cert.Spec.cnts (Cert.Spec.G3 (m ((c.tc : Thread nD τ).loc main_arg1))) := by
  funext j
  rw [reduce_batch_cnt, finalC m c (accC m c), ← garr_eq m c]
  rfl

/-- What the tail leaves in the result buffer. -/
theorem afterTail_res (c : Dev nD)
    (h0 : ∀ i, ∃ r : ℝ, (m ((c.tc : Thread nD τ).loc main_arg0)) i = (r : EReal))
    (h2 : ∀ i, ∃ r : ℝ, (m ((c.tc : Thread nD τ).loc main_arg2)) i = (r : EReal)) :
    Pipeline.afterTail₀ cfgs (dats m) 0 (V0 m) tailOps c main_v33
      = Cert.Tail.tail (Cert.Spec.sums (Cert.Spec.X3 (m ((c.tc : Thread nD τ).loc main_arg0))) (Cert.Spec.G3 (m ((c.tc : Thread nD τ).loc main_arg1))))
          (Cert.Spec.sums (Cert.Spec.X3 (m ((c.tc : Thread nD τ).loc main_arg2))) (Cert.Spec.G3 (m ((c.tc : Thread nD τ).loc main_arg1))))
          (Cert.Spec.cnts (Cert.Spec.G3 (m ((c.tc : Thread nD τ).loc main_arg1)))) := by
  unfold Pipeline.afterTail₀
  rw [tail_result]
  have e3 := Pipeline.withArrays_arr spec0 launch0.win.arr_inj c (V0 m c) (fun w => (dats m 0 c).arrAt w cfg0.N) 3
  have e4 := Pipeline.withArrays_arr spec0 launch0.win.arr_inj c (V0 m c) (fun w => (dats m 0 c).arrAt w cfg0.N) 4
  have e5 := Pipeline.withArrays_arr spec0 launch0.win.arr_inj c (V0 m c) (fun w => (dats m 0 c).arrAt w cfg0.N) 5
  rw [show Pipeline.withArrays spec0 c (V0 m c) (fun w => (dats m 0 c).arrAt w cfg0.N) (Proc.devRef .tc main_v3_0) = (dats m 0 c).arrAt 3 cfg0.N from e3,
    show Pipeline.withArrays spec0 c (V0 m c) (fun w => (dats m 0 c).arrAt w cfg0.N) (Proc.devRef .tc main_v3_1) = (dats m 0 c).arrAt 4 cfg0.N from e4,
    show Pipeline.withArrays spec0 c (V0 m c) (fun w => (dats m 0 c).arrAt w cfg0.N) (Proc.devRef .tc main_v3_2) = (dats m 0 c).arrAt 5 cfg0.N from e5,
    sumsX_eq m c h0, sumsY_eq m c h2, cnts_eq m c]

/-- THE KERNEL'S RUN: it terminates without fault, its result is the shared tail function of the specification's
    class sums and counts of the flattened arguments, and the arguments end unchanged. -/
theorem kernel_run
    (h0 : ∀ (c : Dev nD) i, ∃ r : ℝ, (m ((c.tc : Thread nD τ).loc main_arg0)) i = (r : EReal))
    (h2 : ∀ (c : Dev nD) i, ∃ r : ℝ, (m ((c.tc : Thread nD τ).loc main_arg2)) i = (r : EReal)) :
    θ_run defs (onTc (τ := τ) (main (F := Ideal))) ⟨m, fun _ => 0, ρ⟩ (fun r => ∀ c : Dev nD,
      r.2.mem ((c.tc : Thread nD τ).loc main_v33)
        = Cert.Tail.tail (Cert.Spec.sums (Cert.Spec.X3 (m ((c.tc : Thread nD τ).loc main_arg0))) (Cert.Spec.G3 (m ((c.tc : Thread nD τ).loc main_arg1))))
            (Cert.Spec.sums (Cert.Spec.X3 (m ((c.tc : Thread nD τ).loc main_arg2))) (Cert.Spec.G3 (m ((c.tc : Thread nD τ).loc main_arg1))))
            (Cert.Spec.cnts (Cert.Spec.G3 (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v33 (Pipeline.mem_restRefs_of main_v33 (by decide) (by decide))).trans (afterTail_res m c (h0 c) (h2 c)),
     ((h c).2 main_arg0 (Pipeline.mem_restRefs_of main_arg0 (by decide) (by decide))).trans (afterTail_arg0 m c),
     ((h c).2 main_arg1 (Pipeline.mem_restRefs_of main_arg1 (by decide) (by decide))).trans (afterTail_arg1 m c),
     ((h c).2 main_arg2 (Pipeline.mem_restRefs_of main_arg2 (by decide) (by decide))).trans (afterTail_arg2 m c)⟩)
    (run_main (F := Ideal) m ρ)

end Cert.KernelIdeal.Hand

end
-- ==== Proof.RefDefs.lean ====
/-
  The reference's two accumulating scatters as functions of the arguments. The label volume, flattened to
  2097152 words and given a trailing unit axis, is the scatter's index list; `scatS a g` scatters the rows of
  a logits volume (class axis moved last, then flattened to 2097152 × 14) into a 14 × 14 array of zeros, row
  `v` added to the row its label names; `scatC g` scatters 2097152 ones into 14 zeros the same way.
-/
import proofs.«430275_j52776558133414_3_alg».proof.ReferenceIdeal
import Idealize.ShloMosaic.PureOps.Ideal

noncomputable section

namespace Cert.ReferenceIdeal.Hand

open Cert.ReferenceIdeal Idealize.ShloMosaic

variable [Cert.ReferenceIdeal.Facts]
open Cert.ReferenceIdeal.Facts₀ Cert.ReferenceIdeal.Facts

/-- The scatter's index list: the labels flattened, with a trailing unit axis. -/
def idxOf (g : IVec S2x1x64x128x128 32) : IVec S2097152x1 32 :=
  broadcastInDim S2097152x1 ![0] bcast_S2097152_S2097152x1_0 (shapeCast S2097152 g shapeCasts_S2x1x64x128x128_S2097152)

/-- A logits volume with its class axis moved last and the rest flattened. -/
def rowsOf (a : FVec Ideal S2x14x64x128x128 .f32) : FVec Ideal S2097152x14 .f32 :=
  shapeCast S2097152x14 (transpose S2x64x128x128x14 [0, 2, 3, 4, 1] a transposes_S2x14x64x128x128_S2x64x128x128x14_0_2_3_4_1) shapeCasts_S2x64x128x128x14_S2097152x14

/-- The per-class sums of a logits volume, as the reference scatters them. -/
def scatS (a : FVec Ideal S2x14x64x128x128 .f32) (g : IVec S2x1x64x128x128 32) : FVec Ideal S14x14 .f32 :=
  Host.scatterAdd (F := Ideal) scatter_S14x14_S2097152x1_S2097152x14_1_0_0_1
    (broadcastInDim S14x14 ![] bcast_S_S14x14 (constant (F := Ideal) S_ .f32 0x00000000#32)) (idxOf g) (rowsOf a)

/-- The per-class voxel counts, as the reference scatters them. -/
def scatC (g : IVec S2x1x64x128x128 32) : FVec Ideal S14 .f32 :=
  Host.scatterAdd (F := Ideal) scatter_S14_S2097152x1_S2097152_n_0_0_1
    (broadcastInDim S14 ![] bcast_S_S14 (constant (F := Ideal) S_ .f32 0x00000000#32)) (idxOf g)
    (broadcastInDim S2097152 ![] bcast_S_S2097152 (constant (F := Ideal) S_ .f32 0x3F800000#32))

end Cert.ReferenceIdeal.Hand

end
-- ==== Proof.RefRes.lean ====
/-
  The reference program's result is the shared tail function of its own class sums and class counts.

  The generated run states the result buffer as one composed term of the three arguments. In that term the
  label volume is flattened and given a trailing unit axis, each logits volume has its class axis moved last
  and is flattened to rows, and three accumulating scatters follow: the rows of the first volume into a
  14 × 14 array of zeros, the rows of the second volume likewise, and one 1 per voxel into 14 zeros (this last
  one is spelt twice, with equal operands). Everything after the scatters (divide each row by its count plus
  1e-6, halve, log-softmax along the channel axis, exponentiate, the two Kullback–Leibler sums, times one
  half, divide by 14) is, operation for operation and in the same order, the chain that `Cert.Tail.tail`
  spells over named intermediates. So the two sides are one term once the definitions are opened: the side
  conditions of broadcasts, reductions and scatters are propositions, and the shape names of both
  vocabularies abbreviate the same literals.
-/
import proofs.«430275_j52776558133414_3_alg».proof.Proof.Gen.ReferenceIdeal.Run
import proofs.«430275_j52776558133414_3_alg».proof.Proof.RefDefs
import proofs.«430275_j52776558133414_3_alg».proof.Proof.Tail

noncomputable section

namespace Cert.ReferenceIdeal.Hand

open Cert.ReferenceIdeal Idealize.ShloMosaic Idealize.ShloMosaic.TcCoe Idealize.SL.Sem

set_option maxRecDepth 8192 in
/-- The result of the reference program, as its run states it, is `Cert.Tail.tail` of the scattered class
    sums of the first and of the third argument and the scattered class counts, all three scatters indexed
    by the second argument's labels. -/
theorem res_eq (m : (ℓ : Loc nD τ sig) → Buf (Elt Ideal) ℓ) (c : Dev nD) :
    Cert.ReferenceIdeal.Value.res_main_v45 (F := Ideal) m c
      = Cert.Tail.tail (scatS (m ((c.tc : Thread nD τ).loc main_arg0)) (m ((c.tc : Thread nD τ).loc main_arg1)))
                       (scatS (m ((c.tc : Thread nD τ).loc main_arg2)) (m ((c.tc : Thread nD τ).loc main_arg1)))
                       (scatC (m ((c.tc : Thread nD τ).loc main_arg1))) := by
  unfold Cert.ReferenceIdeal.Value.res_main_v45 Cert.Tail.tail scatS scatC idxOf rowsOf
  rfl

end Cert.ReferenceIdeal.Hand

end
-- ==== Proof.RefSums.lean ====
/-
  The reference's two accumulating scatters are the class sums and class counts of the specification.

  An accumulating scatter into an array of zeros gives, at each element, the sum of the updates that land on it.
  With the labels as a list of one-component start indices, update row `v` lands on operand row `k` exactly when
  the label word of row `v`, read as a signed integer, is `k`; for `k < 14` that is the word being
  `BitVec.ofNat 32 k`. A label outside `0 … 13` lands nowhere. For the sums the update `(v, c')` keeps its
  channel, so entry `(k, c)` collects channel `c` of the rows labelled `k`; for the counts every update is `1`.
  Row `v = b · 1048576 + n` of the flattened arrays is voxel `n` of batch element `b`: two row-major
  flattenings of one array read the same element.
-/
import proofs.«430275_j52776558133414_3_alg».proof.Proof.RefDefs
import proofs.«430275_j52776558133414_3_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.Hand

open Cert.ReferenceIdeal Idealize.ShloMosaic Idealize.ShloMosaic.ValueIdx

variable [Cert.ReferenceIdeal.Facts]
open Cert.ReferenceIdeal.Facts₀ Cert.ReferenceIdeal.Facts

namespace RefSums

/-! ## Where an update lands: the sums' dimension numbers

Update axis 1 is the window axis and goes to operand axis 1; operand axis 0 is inserted and takes the start index. -/

/-- On operand axis 0 the window starts at the label word of the update's row, read signed. -/
theorem dS_start0 (v : Fin 2097152) (c' : Fin 14) (idx : IVec S2097152x1 32) :
    scatter_S14x14_S2097152x1_S2097152x14_1_0_0_1.start (ix2 v c') idx (0 : Fin 2)
      = (idx (ix2 v (0 : Fin 1))).toInt := by
  unfold ScatterDims.start
  rw [dif_pos (show (0 : Fin 2) ∈ scatter_S14x14_S2097152x1_S2097152x14_1_0_0_1.scatterDimsToOperandDims from
    List.mem_singleton.mpr rfl)]
  have hsi : scatter_S14x14_S2097152x1_S2097152x14_1_0_0_1.siIdx (ix2 v c')
      ⟨List.idxOf (0 : Fin 2) scatter_S14x14_S2097152x1_S2097152x14_1_0_0_1.scatterDimsToOperandDims,
        List.idxOf_lt_length_iff.2 (List.mem_singleton.mpr rfl)⟩ = ix2 v (0 : Fin 1) := by
    funext b; refine Fin.ext ?_
    match b with
    | ⟨0, _⟩ => rfl
    | ⟨1, _⟩ => rfl
  rw [hsi]

/-- Operand axis 1 is named by no start component: the window starts at 0 there. -/
theorem dS_start1 (v : Fin 2097152) (c' : Fin 14) (idx : IVec S2097152x1 32) :
    scatter_S14x14_S2097152x1_S2097152x14_1_0_0_1.start (ix2 v c') idx (1 : Fin 2) = 0 := by
  unfold ScatterDims.start
  rw [dif_neg (show ¬ (1 : Fin 2) ∈ scatter_S14x14_S2097152x1_S2097152x14_1_0_0_1.scatterDimsToOperandDims from by
    intro h; exact absurd (List.mem_singleton.mp h) (by decide))]

/-- Operand axis 0 is an inserted axis: the window coordinate is 0. -/
theorem dS_window0 (v : Fin 2097152) (c' : Fin 14) :
    scatter_S14x14_S2097152x1_S2097152x14_1_0_0_1.window (ix2 v c') (0 : Fin 2) = 0 := by
  unfold ScatterDims.window
  rw [dif_neg (show ¬ (0 : Fin 2) ∈ scatter_S14x14_S2097152x1_S2097152x14_1_0_0_1.sKept from by
    show ¬ (0 : Fin 2) ∈ (⟨2, ![14, 14]⟩ : Shape).kept [0]
    decide)]

/-- On operand axis 1 the window coordinate is the update's channel. -/
theorem dS_window1 (v : Fin 2097152) (c' : Fin 14) :
    scatter_S14x14_S2097152x1_S2097152x14_1_0_0_1.window (ix2 v c') (1 : Fin 2) = c'.val := by
  unfold ScatterDims.window
  rw [dif_pos (show (1 : Fin 2) ∈ scatter_S14x14_S2097152x1_S2097152x14_1_0_0_1.sKept from by
    show (1 : Fin 2) ∈ (⟨2, ![14, 14]⟩ : Shape).kept [0]
    decide)]
  rfl

/-- A 32-bit word read signed is the natural number `k < 14` exactly when it is the word `k`. -/
theorem word_lands (w : BitVec 32) (k : Fin 14) :
    (0 ≤ w.toInt ∧ w.toInt < 14 ∧ w.toInt.toNat = k.val) ↔ w = BitVec.ofNat 32 k.val := by
  have hk := k.isLt
  have hw : w.toNat < 4294967296 := w.isLt
  have hi : w.toInt = if 2 * w.toNat < 4294967296 then (w.toNat : Int) else (w.toNat : Int) - 4294967296 := by
    rw [BitVec.toInt_eq_toNat_cond]; norm_num
  have hn : (BitVec.ofNat 32 k.val).toNat = k.val := by
    rw [BitVec.toNat_ofNat]; omega
  constructor
  · rintro ⟨h0, h1, h2⟩
    apply BitVec.eq_of_toNat_eq
    rw [hn]
    split_ifs at hi <;> omega
  · intro h
    have hn' : w.toNat = k.val := by rw [h, hn]
    split_ifs at hi <;> omega

/-- Update `(v, c')` lands on `(k, c)` exactly when the channels agree and row `v`'s label word is `k`. -/
theorem dS_lands (v : Fin 2097152) (c' : Fin 14) (idx : IVec S2097152x1 32) (k c : Fin 14) :
    scatter_S14x14_S2097152x1_S2097152x14_1_0_0_1.resultIdx? (ix2 v c') idx = some (ix2 k c) ↔
      (c' = c ∧ idx (ix2 v (0 : Fin 1)) = BitVec.ofNat 32 k.val) := by
  have e0 := dS_start0 v c' idx
  have e1 := dS_start1 v c' idx
  have w0 := dS_window0 v c'
  have w1 := dS_window1 v c'
  have hc' := c'.isLt
  have hk := k.isLt
  have hc := c.isLt
  have hs0 : S14x14.size (0 : Fin 2) = 14 := rfl
  have hs1 : S14x14.size (1 : Fin 2) = 14 := rfl
  have k0 : ((ix2 k c) (0 : Fin 2)).val = k.val := rfl
  have k1 : ((ix2 k c) (1 : Fin 2)).val = c.val := rfl
  rw [← word_lands]
  unfold ScatterDims.resultIdx?
  split
  · rename_i h
    have h0' := h (0 : Fin 2)
    have h1' := h (1 : Fin 2)
    rw [e0, w0, hs0] at h0'
    rw [e1, w1, hs1] at h1'
    constructor
    · intro hf
      have hf' := Option.some.inj hf
      have f0 := congrArg (fun f => (f (0 : Fin 2)).val) hf'
      have f1 := congrArg (fun f => (f (1 : Fin 2)).val) hf'
      simp only [e0, w0, e1, w1] at f0 f1
      rw [k0] at f0
      rw [k1] at f1
      exact ⟨Fin.ext (by omega), by omega, by omega, by omega⟩
    · rintro ⟨hcc, t0, t1, t2⟩
      have hcc' : c'.val = c.val := congrArg Fin.val hcc
      refine congrArg some (funext fun a => Fin.ext ?_)
      match a with
      | ⟨0, _⟩ =>
        show (scatter_S14x14_S2097152x1_S2097152x14_1_0_0_1.start (ix2 v c') idx (0 : Fin 2)
          + (scatter_S14x14_S2097152x1_S2097152x14_1_0_0_1.window (ix2 v c') (0 : Fin 2) : Int)).toNat = k.val
        rw [e0, w0]; omega
      | ⟨1, _⟩ =>
        show (scatter_S14x14_S2097152x1_S2097152x14_1_0_0_1.start (ix2 v c') idx (1 : Fin 2)
          + (scatter_S14x14_S2097152x1_S2097152x14_1_0_0_1.window (ix2 v c') (1 : Fin 2) : Int)).toNat = c.val
        rw [e1, w1]; omega
  · rename_i h
    constructor
    · intro hf; exact absurd hf (by simp)
    · rintro ⟨hcc, t0, t1, t2⟩
      exfalso
      apply h
      intro a
      match a with
      | ⟨0, _⟩ =>
        show 0 ≤ scatter_S14x14_S2097152x1_S2097152x14_1_0_0_1.start (ix2 v c') idx (0 : Fin 2)
            + (scatter_S14x14_S2097152x1_S2097152x14_1_0_0_1.window (ix2 v c') (0 : Fin 2) : Int) ∧
          scatter_S14x14_S2097152x1_S2097152x14_1_0_0_1.start (ix2 v c') idx (0 : Fin 2)
            + (scatter_S14x14_S2097152x1_S2097152x14_1_0_0_1.window (ix2 v c') (0 : Fin 2) : Int)
            < ((S14x14.size (0 : Fin 2) : Nat) : Int)
        rw [e0, w0, hs0]; omega
      | ⟨1, _⟩ =>
        show 0 ≤ scatter_S14x14_S2097152x1_S2097152x14_1_0_0_1.start (ix2 v c') idx (1 : Fin 2)
            + (scatter_S14x14_S2097152x1_S2097152x14_1_0_0_1.window (ix2 v c') (1 : Fin 2) : Int) ∧
          scatter_S14x14_S2097152x1_S2097152x14_1_0_0_1.start (ix2 v c') idx (1 : Fin 2)
            + (scatter_S14x14_S2097152x1_S2097152x14_1_0_0_1.window (ix2 v c') (1 : Fin 2) : Int)
            < ((S14x14.size (1 : Fin 2) : Nat) : Int)
        rw [e1, w1, hs1]; omega

/-! ## Where an update lands: the counts' dimension numbers (no window axis) -/

/-- The window starts at the label word of the update's row, read signed. -/
theorem dC_start0 (v : Fin 2097152) (idx : IVec S2097152x1 32) :
    scatter_S14_S2097152x1_S2097152_n_0_0_1.start (ix1 v) idx (0 : Fin 1)
      = (idx (ix2 v (0 : Fin 1))).toInt := by
  unfold ScatterDims.start
  rw [dif_pos (show (0 : Fin 1) ∈ scatter_S14_S2097152x1_S2097152_n_0_0_1.scatterDimsToOperandDims from
    List.mem_singleton.mpr rfl)]
  have hsi : scatter_S14_S2097152x1_S2097152_n_0_0_1.siIdx (ix1 v)
      ⟨List.idxOf (0 : Fin 1) scatter_S14_S2097152x1_S2097152_n_0_0_1.scatterDimsToOperandDims,
        List.idxOf_lt_length_iff.2 (List.mem_singleton.mpr rfl)⟩ = ix2 v (0 : Fin 1) := by
    funext b; refine Fin.ext ?_
    match b with
    | ⟨0, _⟩ => rfl
    | ⟨1, _⟩ => rfl
  rw [hsi]

/-- The operand's one axis is inserted: the window coordinate is 0. -/
theorem dC_window0 (v : Fin 2097152) :
    scatter_S14_S2097152x1_S2097152_n_0_0_1.window (ix1 v) (0 : Fin 1) = 0 := by
  unfold ScatterDims.window
  rw [dif_neg (show ¬ (0 : Fin 1) ∈ scatter_S14_S2097152x1_S2097152_n_0_0_1.sKept from by
    show ¬ (0 : Fin 1) ∈ (⟨1, ![14]⟩ : Shape).kept [0]
    decide)]

/-- Update `v` lands on `k` exactly when row `v`'s label word is `k`. -/
theorem dC_lands (v : Fin 2097152) (idx : IVec S2097152x1 32) (k : Fin 14) :
    scatter_S14_S2097152x1_S2097152_n_0_0_1.resultIdx? (ix1 v) idx = some (ix1 k) ↔
      idx (ix2 v (0 : Fin 1)) = BitVec.ofNat 32 k.val := by
  have e0 := dC_start0 v idx
  have w0 := dC_window0 v
  have hk := k.isLt
  have hs0 : S14.size (0 : Fin 1) = 14 := rfl
  have k0 : ((ix1 k) (0 : Fin 1)).val = k.val := rfl
  rw [← word_lands]
  unfold ScatterDims.resultIdx?
  split
  · rename_i h
    have h0' := h (0 : Fin 1)
    rw [e0, w0, hs0] at h0'
    constructor
    · intro hf
      have hf' := Option.some.inj hf
      have f0 := congrArg (fun f => (f (0 : Fin 1)).val) hf'
      simp only [e0, w0] at f0
      rw [k0] at f0
      exact ⟨by omega, by omega, by omega⟩
    · rintro ⟨t0, t1, t2⟩
      refine congrArg some (funext fun a => Fin.ext ?_)
      match a with
      | ⟨0, _⟩ =>
        show (scatter_S14_S2097152x1_S2097152_n_0_0_1.start (ix1 v) idx (0 : Fin 1)
          + (scatter_S14_S2097152x1_S2097152_n_0_0_1.window (ix1 v) (0 : Fin 1) : Int)).toNat = k.val
        rw [e0, w0]; omega
  · rename_i h
    constructor
    · intro hf; exact absurd hf (by simp)
    · rintro ⟨t0, t1, t2⟩
      exfalso
      apply h
      intro a
      match a with
      | ⟨0, _⟩ =>
        show 0 ≤ scatter_S14_S2097152x1_S2097152_n_0_0_1.start (ix1 v) idx (0 : Fin 1)
            + (scatter_S14_S2097152x1_S2097152_n_0_0_1.window (ix1 v) (0 : Fin 1) : Int) ∧
          scatter_S14_S2097152x1_S2097152_n_0_0_1.start (ix1 v) idx (0 : Fin 1)
            + (scatter_S14_S2097152x1_S2097152_n_0_0_1.window (ix1 v) (0 : Fin 1) : Int)
            < ((S14.size (0 : Fin 1) : Nat) : Int)
        rw [e0, w0, hs0]; omega

/-! ## Two flattenings of one array read the same element -/

/-- Depth coordinate of voxel `n` (64 × 128 × 128, row-major). -/
def zOf (n : Fin 1048576) : Fin 64 := ⟨n.val / 16384, by have := n.isLt; omega⟩
/-- Height coordinate of voxel `n`. -/
def yOf (n : Fin 1048576) : Fin 128 := ⟨n.val / 128 % 128, by omega⟩
/-- Width coordinate of voxel `n`. -/
def xOf (n : Fin 1048576) : Fin 128 := ⟨n.val % 128, by omega⟩
/-- The flat row of batch element `b`'s voxel `n`. -/
def vOf (b : Fin 2) (n : Fin 1048576) : Fin 2097152 := ⟨b.val * 1048576 + n.val, by have := n.isLt; have := b.isLt; omega⟩

/-- Row `b · 1048576 + n`, channel `c`, of the class-last flattening is element `(b, c, n)` of the class-middle one. -/
theorem rowsOf_at (a : FVec Ideal S2x14x64x128x128 .f32) (b : Fin 2) (n : Fin 1048576) (c : Fin 14) :
    rowsOf a (ix2 (vOf b n) c) = Cert.Spec.X3 a (ix3 b c n) := by
  have hn := n.isLt
  have hb := b.isLt
  have hc := c.isLt
  unfold rowsOf Cert.Spec.X3
  refine (shapeCast_apply _ _ (ix2 (vOf b n) c) (ix5 b (zOf n) (yOf n) (xOf n) c) ?_).trans ?_
  · rw [Shape.rowMajor_val_five, Shape.rowMajor_val_two]
    show ((((b.val * 64 + (zOf n).val) * 128 + (yOf n).val) * 128 + (xOf n).val) * 14 + c.val
      = (vOf b n).val * 14 + c.val)
    simp only [zOf, yOf, xOf, vOf]
    omega
  refine (transpose_apply _ a _ (ix5 b (zOf n) (yOf n) (xOf n) c) (ix5 b c (zOf n) (yOf n) (xOf n)) ?_).trans ?_
  · intro b'
    match b' with
    | ⟨0, _⟩ => rfl
    | ⟨1, _⟩ => rfl
    | ⟨2, _⟩ => rfl
    | ⟨3, _⟩ => rfl
    | ⟨4, _⟩ => rfl
  refine (shapeCast_apply a Cert.Spec.castX (ix3 b c n) (ix5 b c (zOf n) (yOf n) (xOf n)) ?_).symm
  rw [Shape.rowMajor_val_five, Shape.rowMajor_val_three]
  show ((((b.val * 14 + c.val) * 64 + (zOf n).val) * 128 + (yOf n).val) * 128 + (xOf n).val
    = (b.val * 14 + c.val) * 1048576 + n.val)
  simp only [zOf, yOf, xOf]
  omega

/-- Row `b · 1048576 + n` of the index list is label `(b, 0, n)`. -/
theorem idxOf_at (g : IVec S2x1x64x128x128 32) (b : Fin 2) (n : Fin 1048576) :
    idxOf g (ix2 (vOf b n) (0 : Fin 1)) = Cert.Spec.G3 g (ix3 b (0 : Fin 1) n) := by
  have hn := n.isLt
  have hb := b.isLt
  unfold idxOf Cert.Spec.G3
  refine (broadcastInDim_apply _ _ _ (ix2 (vOf b n) (0 : Fin 1)) (ix1 (vOf b n)) ?_).trans ?_
  · intro a'
    match a' with
    | ⟨0, _⟩ =>
      show ((vOf b n).val = if (2097152 : ℕ) = 1 then 0 else (vOf b n).val)
      rw [if_neg (by omega)]
  refine (shapeCast_apply g _ (ix1 (vOf b n)) (ix5 b (0 : Fin 1) (zOf n) (yOf n) (xOf n)) ?_).trans ?_
  · rw [Shape.rowMajor_val_five, Shape.rowMajor_val_one]
    show ((((b.val * 1 + 0) * 64 + (zOf n).val) * 128 + (yOf n).val) * 128 + (xOf n).val = (vOf b n).val)
    simp only [zOf, yOf, xOf, vOf]
    omega
  refine (shapeCast_apply g Cert.Spec.castG (ix3 b (0 : Fin 1) n) (ix5 b (0 : Fin 1) (zOf n) (yOf n) (xOf n)) ?_).symm
  rw [Shape.rowMajor_val_five, Shape.rowMajor_val_three]
  show ((((b.val * 1 + 0) * 64 + (zOf n).val) * 128 + (yOf n).val) * 128 + (xOf n).val
    = (b.val * 1 + 0) * 1048576 + n.val)
  simp only [zOf, yOf, xOf]
  omega

/-! ## Sums: rows as (batch element, voxel) pairs, one channel picked out, a scatter at an index -/

/-- The flat rows are the pairs (batch element, voxel). -/
def vEquiv : Fin 2 × Fin 1048576 ≃ Fin 2097152 where
  toFun p := vOf p.1 p.2
  invFun v := (⟨v.val / 1048576, by have := v.isLt; omega⟩, ⟨v.val % 1048576, by omega⟩)
  left_inv p := by
    obtain ⟨b, n⟩ := p
    have hn := n.isLt
    refine Prod.ext (Fin.ext ?_) (Fin.ext ?_)
    · show ((b.val * 1048576 + n.val) / 1048576 = b.val)
      omega
    · show ((b.val * 1048576 + n.val) % 1048576 = n.val)
      omega
  right_inv v := by
    refine Fin.ext ?_
    show (v.val / 1048576 * 1048576 + v.val % 1048576 = v.val)
    omega

/-- A sum over the flat rows is the double sum over batch element and voxel. -/
theorem sum_rows {M : Type*} [AddCommMonoid M] (f : Fin 2097152 → M) :
    ∑ v, f v = ∑ b : Fin 2, ∑ n : Fin 1048576, f (vOf b n) := by
  rw [← Equiv.sum_comp vEquiv f, Fintype.sum_prod_type]
  rfl

/-- Of a sum over channels whose terms vanish off channel `c`, only the term at `c` is left. -/
theorem sum_pick {M : Type*} [AddCommMonoid M] (c : Fin 14) (P : Prop) [Decidable P] (f : Fin 14 → M) :
    (∑ c' : Fin 14, if c' = c ∧ P then f c' else 0) = if P then f c else 0 := by
  by_cases hP : P
  · simp [hP]
  · simp [hP]

/-- The accumulating scatter at an operand index: the operand's element plus the updates that land there. -/
theorem scatterAdd_at {s si su : Shape} (d : ScatterDims s si su) {w : Nat} (x : FVec Ideal s .f32)
    (idx : IVec si w) (upd : FVec Ideal su .f32) (i : s.Idx) :
    Host.scatterAdd (F := Ideal) d x idx upd i
      = x i + ∑ j ∈ Finset.univ.filter (fun j => d.resultIdx? j idx = some i), upd j := rfl

/-- The word `0x3F800000` encodes the number one. -/
theorem ofBits_one_f32 : Ideal.ofBits .f32 0x3F800000#32 = 1 := by
  simp [Ideal.ofBits, Ideal.ieee, -EReal.coe_mul]; norm_num

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The counts' updates are the constant one. -/
theorem ones_at (j : S2097152.Idx) :
    broadcastInDim S2097152 ![] bcast_S_S2097152 (constant (F := Ideal) S_ .f32 0x3F800000#32) j = (1 : EReal) := by
  rw [broadcastInDim_scalar_apply, constant_apply, ofBits_one_f32]

end RefSums

open RefSums

/-! ## The two scatters -/

/-- The scattered class sums are the specification's: entry `(k, c)` adds channel `c` of every voxel labelled `k`. -/
theorem scatS_eq (a : FVec Ideal S2x14x64x128x128 .f32) (g : IVec S2x1x64x128x128 32) :
    scatS a g = Cert.Spec.sums (Cert.Spec.X3 a) (Cert.Spec.G3 g) := by
  funext j
  obtain ⟨k, c, rfl⟩ : ∃ k c, j = ix2 k c := ⟨j 0, j 1, eq_ix2 j⟩
  unfold scatS
  rw [scatterAdd_at, broadcastInDim_scalar_apply, constant_apply, Ideal.ofBits_zero_f32, zero_add,
    Finset.sum_filter, sum_idx2]
  simp only [dS_lands]
  simp only [sum_pick]
  rw [sum_rows]
  simp only [rowsOf_at, idxOf_at]
  rfl

/-- The scattered class counts are the specification's: entry `k` counts the voxels labelled `k`. -/
theorem scatC_eq (g : IVec S2x1x64x128x128 32) :
    scatC g = Cert.Spec.cnts (Cert.Spec.G3 g) := by
  funext j
  obtain ⟨k, rfl⟩ : ∃ k, j = ix1 k := ⟨j 0, eq_ix1 j⟩
  unfold scatC
  rw [show broadcastInDim S2097152 ![] bcast_S_S2097152 (constant (F := Ideal) S_ .f32 0x3F800000#32)
      = fun _ => (1 : EReal) from funext ones_at]
  rw [scatterAdd_at, broadcastInDim_scalar_apply, constant_apply, Ideal.ofBits_zero_f32, zero_add,
    Finset.sum_filter, sum_idx1]
  simp only [dC_lands]
  rw [sum_rows]
  simp only [idxOf_at]
  rfl

end Cert.ReferenceIdeal.Hand

end
-- ==== Proof.Finite.lean ====
import proofs.«430275_j52776558133414_3_alg».proof.Pre_finite_inputs
import Idealize.ShloMosaic.PureOps.Ideal
import Idealize.ShloMosaic.Lib.ValueIdx
import Idealize.ShloMosaic.Lib.ReduceAll
noncomputable section
namespace Cert.Finite
open Idealize.ShloMosaic

/-! The precondition is the conjunction, over the two float arguments, of "every entry `x` satisfies
    `|x| < +∞`", where `|x| = max x (-x)` on the extended reals and `+∞` is written as the f32 bit pattern
    `0x7F800000`. An extended real with `max x (-x) < ⊤` is neither `⊤` nor `⊥`, hence a real number. -/

/-- The f32 pattern with every exponent bit set, sign bit and fraction clear, denotes plus infinity. -/
private theorem inf_bits : Ideal.ofBits .f32 0x7F800000#32 = (⊤ : EReal) := by
  simp [Ideal.ofBits, Ideal.ieee]

/-- An extended real whose absolute value is strictly below plus infinity is a real number:
    at `⊥` and at `⊤` the absolute value `max x (-x)` is `⊤`, which is not below `⊤`. -/
private theorem real_of_abs_lt (x : EReal)
    (hx : Ideal.cmp .olt (max x (-x)) (Ideal.ofBits .f32 0x7F800000#32) = 1#1) : ∃ r : ℝ, x = (r : EReal) := by
  rw [inf_bits] at hx
  induction x using EReal.rec with
  | bot => simp [Ideal.cmp] at hx
  | coe r => exact ⟨r, rfl⟩
  | top => simp [Ideal.cmp] at hx

/-- The scalar shape has exactly one index. -/
private instance : Subsingleton Cert.Pre_finite_inputs.S_.Idx := ⟨fun a b => funext fun d => d.elim0⟩

/-- Under the printed precondition every entry of the first and of the third argument is a real number. -/
theorem of_pre [Cert.Pre_finite_inputs.Facts]
    (a0 : FVec Ideal Cert.Pre_finite_inputs.S2x14x64x128x128 .f32) (a1 : IVec Cert.Pre_finite_inputs.S2x1x64x128x128 32)
    (a2 : FVec Ideal Cert.Pre_finite_inputs.S2x14x64x128x128 .f32)
    (h : Cert.Pre_finite_inputs.fn (F := Ideal) a0 a1 a2 = fun _ => 1#1) :
    (∀ i, ∃ r : ℝ, a0 i = (r : EReal)) ∧ (∀ i, ∃ r : ℝ, a2 i = (r : EReal)) := by
  -- the predicate's one result word, at the scalar shape's one index
  have h0 := congrFun h ValueIdx.ix0
  dsimp only [Cert.Pre_finite_inputs.fn] at h0
  -- a conjunction of two one-bit words is 1 exactly when both are
  change IntOp.andi _ _ = 1#1 at h0
  obtain ⟨h1, h2⟩ := IntOp.andi_eq_one.1 h0
  -- each word is an "and" over all entries of the comparison `|x| < +∞`, so the comparison holds at every entry
  exact ⟨fun i => real_of_abs_lt (a0 i) (Host.reduce_andi_all _ _ _ _ _ h1 i),
    fun i => real_of_abs_lt (a2 i) (Host.reduce_andi_all _ _ _ _ _ h2 i)⟩
end Cert.Finite
end
-- ==== Proof.lean ====
/-
  The certificate of a class-pooled distillation loss. Both programs take two 14-channel logit volumes
  [2, 14, 64, 128, 128] and a label volume [2, 1, 64, 128, 128] of 32-bit words, and compute, for each
  label k and channel c, the sum of channel c over the voxels labelled k (once per logit volume) and the
  number of such voxels; a voxel whose label word is none of 0 … 13 counts for no class on either side
  (the kernel's one-hot comparison matches no row; the reference's accumulating scatter drops an update
  whose index, read signed and unclamped, falls outside the 14 rows). From those 14 × 14 sums and 14
  counts both apply the same chain: divide each row by its count plus 1e-6, halve, log-softmax along the
  channels, and the symmetric Kullback–Leibler term of the two tables, times one half, over 14.

  The kernel forms the sums on a 2 × 16 grid, one batch element per first coordinate and sixteen tiles of
  65536 voxels per element: a one-hot selector (14 × 65536, entries 0 or 1) is multiplied on the matrix
  unit with the tile of logits and with the tile's residue after a round trip through bf16. At the ideal
  instance the round trip is the identity, so the residue is x − x, which is 0 exactly when x is real —
  here, and only here, the precondition (every float input finite) is used — and the product with the
  selector is the sum of the selected entries. Three accumulators carried across a batch element's sixteen
  points are reset at the first and written back after the last; the host then adds the two batch elements.
  The reference moves the class axis last, flattens, and scatters 2097152 rows (and 2097152 ones) into
  zeros with an accumulating scatter, which at the ideal instance is the sum of the updates landing on each
  element. Both sides are thus the same sums over the same voxels, taken in different groupings, and
  addition of extended reals is commutative and associative.

  The three frames: each kernel program runs (three host reshapes, the pipelined region whose body is run
  symbolically in its two control cases, then 69 host operations none of which writes an array of the
  pipeline) and leaves its arguments unchanged; the reference is a straight line of host operations.
  The idealization's ledger has three entries, each a bf16 round trip removed.
-/
import proofs.«430275_j52776558133414_3_alg».proof.Defs
import proofs.«430275_j52776558133414_3_alg».proof.Proof.Gen.Kernel
import proofs.«430275_j52776558133414_3_alg».proof.Proof.Gen.KernelIdeal
import proofs.«430275_j52776558133414_3_alg».proof.Proof.Gen.ReferenceIdeal
import proofs.«430275_j52776558133414_3_alg».proof.Proof.Gen.Pre_finite_inputs
import proofs.«430275_j52776558133414_3_alg».proof.Proof.Gen.ReferenceIdeal.Run
import proofs.«430275_j52776558133414_3_alg».proof.Proof.FrameK.Args
import proofs.«430275_j52776558133414_3_alg».proof.Proof.KRun
import proofs.«430275_j52776558133414_3_alg».proof.Proof.RefRes
import proofs.«430275_j52776558133414_3_alg».proof.Proof.RefSums
import proofs.«430275_j52776558133414_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's three entries: a round trip through bf16 is the identity on extended reals and the stated
    rounding on words. -/
theorem preserves : Cert.preserves_Kernel_KernelIdeal :=
  ⟨IdealRules.truncf_extf.statement _ .f32 .bf16, IdealRules.truncf_extf.statement _ .f32 .bf16,
    IdealRules.truncf_extf.statement _ .f32 .bf16⟩

/-- From memories agreeing on the arguments, both idealized programs end with the shared tail function of
    the class sums and counts of the flattened arguments. -/
theorem algebraic : Cert.algebraic_KernelIdeal_ReferenceIdeal := by
  intro m ρ m' ρ' hpre hagree
  have hfin : ∀ c : Dev Cert.KernelIdeal.nD,
      (∀ i, ∃ r : ℝ, (m ((c.tc : Thread Cert.KernelIdeal.nD Cert.KernelIdeal.τ).loc Cert.KernelIdeal.main_arg0)) i = (r : EReal)) ∧ (∀ i, ∃ r : ℝ, (m ((c.tc : Thread Cert.KernelIdeal.nD Cert.KernelIdeal.τ).loc Cert.KernelIdeal.main_arg2)) i = (r : EReal)) :=
    fun c => Cert.Finite.of_pre _ _ _ (hpre c)
  refine ⟨_, Cert.KernelIdeal.Hand.kernel_run m ρ (fun c => (hfin c).1) (fun c => (hfin c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Hand.res_eq, Cert.ReferenceIdeal.Hand.scatS_eq, Cert.ReferenceIdeal.Hand.scatS_eq,
    Cert.ReferenceIdeal.Hand.scatC_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
